-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x16 : Shape := ⟨2, ![8192, 16]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8192x128 .f32) (main_arg1 : FVec F S8192x16 .f32) (main_arg2 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8192x128 : Shape := ⟨2, ![8192, 128]⟩
abbrev S8192x16 : Shape := ⟨2, ![8192, 16]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S128x128 : Shape := ⟨2, ![128, 128]⟩
abbrev S128x1 : Shape := ⟨2, ![128, 1]⟩
abbrev S128x16 : Shape := ⟨2, ![128, 16]⟩
abbrev S128x8192 : Shape := ⟨2, ![128, 8192]⟩
abbrev S1x1 : Shape := ⟨2, ![1, 1]⟩
abbrev S64x128 : Shape := ⟨2, ![64, 128]⟩
abbrev S64x1 : Shape := ⟨2, ![64, 1]⟩
abbrev S64x16 : Shape := ⟨2, ![64, 16]⟩
abbrev S64x8192 : Shape := ⟨2, ![64, 8192]⟩
abbrev S64 : Shape := ⟨1, ![64]⟩
abbrev S1 : Shape := ⟨1, ![1]⟩

abbrev nBuf : Space → Nat
  | .hbm => 44
  | .vmem => 37
  | .smem => 0
  | _ => 0

abbrev bufTy : (tb : Table) → Fin (tcTables nBuf tb) → BufTy
  | .hbm, ⟨0, _⟩ => ⟨S8192x128, .f32⟩
  | .hbm, ⟨1, _⟩ => ⟨S8192x16, .f32⟩
  | .hbm, ⟨2, _⟩ => ⟨S128, .f32⟩
  | .hbm, ⟨3, _⟩ => ⟨S8192x128, .bf16⟩
  | .hbm, ⟨4, _⟩ => ⟨S8192x16, .bf16⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x16, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x1, .f32⟩
  | .hbm, ⟨14, _⟩ => ⟨S1x8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S1x8192, .f32⟩
  | .hbm, ⟨28, _⟩ => ⟨S1x8192, .f32⟩
  | .hbm, ⟨29, _⟩ => ⟨S_, .f32⟩
  | .hbm, ⟨30, _⟩ => ⟨S_, .f32⟩
  | .hbm, ⟨31, _⟩ => ⟨S1x1, .f32⟩
  | .hbm, ⟨32, _⟩ => ⟨S_, .f32⟩
  | .hbm, ⟨33, _⟩ => ⟨S_, .f32⟩
  | .hbm, ⟨34, _⟩ => ⟨S1x1, .f32⟩
  | .hbm, ⟨35, _⟩ => ⟨S1x1, .f32⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S128x128, .bf16⟩
  | .local _ .vmem, ⟨1, _⟩ => ⟨S128x128, .bf16⟩
  | .local _ .vmem, ⟨2, _⟩ => ⟨S8192x128, .bf16⟩
  | .local _ .vmem, ⟨3, _⟩ => ⟨S128x1, .f32⟩
  | .local _ .vmem, ⟨4, _⟩ => ⟨S128x1, .f32⟩
  | .local _ .vmem, ⟨5, _⟩ => ⟨S1x8192, .f32⟩
  | .local _ .vmem, ⟨6, _⟩ => ⟨S128x16, .bf16⟩
  | .local _ .vmem, ⟨7, _⟩ => ⟨S128x16, .bf16⟩
  | .local _ .vmem, ⟨8, _⟩ => ⟨S8192x16, .bf16⟩
  | .local _ .vmem, ⟨9, _⟩ => ⟨S128x1, .f32⟩
  | .local _ .vmem, ⟨10, _⟩ => ⟨S128x1, .f32⟩
  | .local _ .vmem, ⟨11, _⟩ => ⟨S1x8192, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S64x128, .bf16⟩
  | .local _ .vmem, ⟨17, _⟩ => ⟨S64x128, .bf16⟩
  | .local _ .vmem, ⟨18, _⟩ => ⟨S8192x128, .bf16⟩
  | .local _ .vmem, ⟨19, _⟩ => ⟨S64x1, .f32⟩
  | .local _ .vmem, ⟨20, _⟩ => ⟨S64x1, .f32⟩
  | .local _ .vmem, ⟨21, _⟩ => ⟨S1x8192, .f32⟩
  | .local _ .vmem, ⟨22, _⟩ => ⟨S64x1, .f32⟩
  | .local _ .vmem, ⟨23, _⟩ => ⟨S64x1, .f32⟩
  | .local _ .vmem, ⟨24, _⟩ => ⟨S1x8192, .f32⟩
  | .local _ .vmem, ⟨25, _⟩ => ⟨S1x1, .f32⟩
  | .local _ .vmem, ⟨26, _⟩ => ⟨S64x16, .bf16⟩
  | .local _ .vmem, ⟨27, _⟩ => ⟨S64x16, .bf16⟩
  | .local _ .vmem, ⟨28, _⟩ => ⟨S8192x16, .bf16⟩
  | .local _ .vmem, ⟨29, _⟩ => ⟨S64x1, .f32⟩
  | .local _ .vmem, ⟨30, _⟩ => ⟨S64x1, .f32⟩
  | .local _ .vmem, ⟨31, _⟩ => ⟨S1x8192, .f32⟩
  | .local _ .vmem, ⟨32, _⟩ => ⟨S64x1, .f32⟩
  | .local _ .vmem, ⟨33, _⟩ => ⟨S64x1, .f32⟩
  | .local _ .vmem, ⟨34, _⟩ => ⟨S1x8192, .f32⟩
  | .local _ .vmem, ⟨35, _⟩ => ⟨S1x1, .f32⟩
  | .local _ .vmem, ⟨36, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg13_0 : Ref sig .tc := ⟨.vmem, 35, rfl⟩
abbrev cc1_stg14_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem9_0 : DmaSem sig := 29
abbrev cc1_sem9_1 : DmaSem sig := 30
abbrev cc1_sem10_0 : DmaSem sig := 31
abbrev cc1_sem11_0 : DmaSem sig := 32
abbrev cc1_sem11_1 : DmaSem sig := 33
abbrev cc1_sem12_0 : DmaSem sig := 34
abbrev cc1_sem13_0 : DmaSem sig := 35
abbrev cc1_sem14_0 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8192x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x8192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S64x16 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S8192x16 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S64x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x8192 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S64x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x8192 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

class Facts₀ : Prop where
  bitsLt_bf16_f32 : FTy.bits .bf16 < FTy.bits .f32
  reducesTo_S8192x128_S8192_d1 : S8192x128.ReducesTo [1] S8192
  h_S_ : 0 < S_.numel
  reducesTo_S8192x16_S8192_d1 : S8192x16.ReducesTo [1] S8192
  shapeCasts_S8192_S8192x1 : S8192.ShapeCasts S8192x1
  shapeCasts_S8192_S1x8192 : S8192.ShapeCasts S1x8192
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  reducesTo_S8192x1_S_d0_1 : S8192x1.ReducesTo [0, 1] S_
  bcast_S_S8192x1 : S_.BroadcastsInDim S8192x1 (![] : Fin 0 → Fin S8192x1.rank)
  shapeCasts_S8192x1_S1x8192 : S8192x1.ShapeCasts S1x8192
  shapeCasts_S_S1x1 : S_.ShapeCasts S1x1
  inb_S1x1_S1x1_0_0 : ∀ a, (![0, 0] : Fin 2 → Nat) a + S1x1.size a ≤ S1x1.size a
  h_S1x1 : 0 < S1x1.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  broadcasts_S1x8192_S64x8192 : S1x8192.Broadcasts S64x8192
  shapeCasts_S1x1_S1x1 : S1x1.ShapeCasts S1x1
  broadcasts_S1x1_S64x8192 : S1x1.Broadcasts S64x8192
  inb_S64x16_S64x16_0_0 : ∀ a, (![0, 0] : Fin 2 → Nat) a + S64x16.size a ≤ S64x16.size a
  h_S64x16 : 0 < S64x16.numel
  shapeCasts_S64x16_S64x16 : S64x16.ShapeCasts S64x16
  reduces_S64x8192_S64 : S64x8192.Reduces [1] S64
  shapeCasts_S64_S64x1 : S64.ShapeCasts S64x1
  reduces_S64x1_S1 : S64x1.Reduces [0] S1
  shapeCasts_S1_S1x1 : S1.ShapeCasts S1x1
  shapeCasts_S1x1_S_ : S1x1.ShapeCasts S_
  reducesTo_S128_S_d0 : S128.ReducesTo [0] S_
  dot_S128x128_S8192x128_S128x8192_1_1_0_0_n_n_wf : DotDims.WF S128x128 S8192x128 S128x8192 [1] [1] [0] [0] [] []
  dot_S128x16_S8192x16_S128x8192_1_1_0_0_n_n_wf : DotDims.WF S128x16 S8192x16 S128x8192 [1] [1] [0] [0] [] []
  dot_S64x128_S8192x128_S64x8192_1_1_0_0_n_n_wf : DotDims.WF S64x128 S8192x128 S64x8192 [1] [1] [0] [0] [] []
  dot_S64x16_S8192x16_S64x8192_1_1_0_0_n_n_wf : DotDims.WF S64x16 S8192x16 S64x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .bf16 = 32 ∨ (Rect.block (s := S8192x128) S128x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S8192x16.size a
  hwx0_4 : ∀ i : grid0.Coords, EltTy.bits .bf16 = 32 ∨ (Rect.block (s := S8192x16) S128x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192x16.size a ≤ S8192x16.size a
  hwx0_5 : ∀ i : grid0.Coords, EltTy.bits .bf16 = 32 ∨ (Rect.block (s := S8192x16) S8192x16.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S8192x1.size a
  hwx0_6 : ∀ i : grid0.Coords, EltTy.bits .f32 = 32 ∨ (Rect.block (s := S8192x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8192.size a ≤ S1x8192.size a
  hwx0_7 : ∀ i : grid0.Coords, EltTy.bits .f32 = 32 ∨ (Rect.block (s := S1x8192) S1x8192.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S8192x1.size a
  hwx0_8 : ∀ i : grid0.Coords, EltTy.bits .f32 = 32 ∨ (Rect.block (s := S8192x1) S128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S8192x1.size a
  hwx0_9 : ∀ i : grid0.Coords, EltTy.bits .f32 = 32 ∨ (Rect.block (s := S8192x1) S128x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S8192x128.size a
  hwx1_0 : ∀ i : grid1.Coords, EltTy.bits .bf16 = 32 ∨ (Rect.block (s := S8192x128) S64x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S8192x1.size a
  hwx1_2 : ∀ i : grid1.Coords, EltTy.bits .f32 = 32 ∨ (Rect.block (s := S8192x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S8192x1.size a
  hwx1_4 : ∀ i : grid1.Coords, EltTy.bits .f32 = 32 ∨ (Rect.block (s := S8192x1) S64x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x8192.size a ≤ S1x8192.size a
  hwx1_5 : ∀ i : grid1.Coords, EltTy.bits .f32 = 32 ∨ (Rect.block (s := S1x8192) S1x8192.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S64x16.size a ≤ S8192x16.size a
  hwx1_7 : ∀ i : grid1.Coords, EltTy.bits .bf16 = 32 ∨ (Rect.block (s := S8192x16) S64x16.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8192x16.size a ≤ S8192x16.size a
  hwx1_8 : ∀ i : grid1.Coords, EltTy.bits .bf16 = 32 ∨ (Rect.block (s := S8192x16) S8192x16.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S64x1.size a ≤ S8192x1.size a
  hwx1_9 : ∀ i : grid1.Coords, EltTy.bits .f32 = 32 ∨ (Rect.block (s := S8192x1) S64x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x8192.size a ≤ S1x8192.size a
  hwx1_10 : ∀ i : grid1.Coords, EltTy.bits .f32 = 32 ∨ (Rect.block (s := S1x8192) S1x8192.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S64x1.size a ≤ S8192x1.size a
  hwx1_11 : ∀ i : grid1.Coords, EltTy.bits .f32 = 32 ∨ (Rect.block (s := S8192x1) S64x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x8192.size a ≤ S1x8192.size a
  hwx1_12 : ∀ i : grid1.Coords, EltTy.bits .f32 = 32 ∨ (Rect.block (s := S1x8192) S1x8192.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x1.size a ≤ S1x1.size a
  hwx1_13 : ∀ i : grid1.Coords, EltTy.bits .f32 = 32 ∨ (Rect.block (s := S1x1) S1x1.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x1.size a ≤ S1x1.size a
  hwx1_14 : ∀ i : grid1.Coords, EltTy.bits .f32 = 32 ∨ (Rect.block (s := S1x1) S1x1.size (cc1_transform_14 i) (hinb1_14 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf
def dot_S128x16_S8192x16_S128x8192_1_1_0_0_n_n : DotDims S128x16 S8192x16 S128x8192 where
  lhsContracting := [1]
  rhsContracting := [1]
  lhsNonContracting := [0]
  rhsNonContracting := [0]
  lhsBatch := []
  rhsBatch := []
  wf := dot_S128x16_S8192x16_S128x8192_1_1_0_0_n_n_wf
def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S64x16_S8192x16_S64x8192_1_1_0_0_n_n : DotDims S64x16 S8192x16 S64x8192 where
  lhsContracting := [1]
  rhsContracting := [1]
  lhsNonContracting := [0]
  rhsNonContracting := [0]
  lhsBatch := []
  rhsBatch := []
  wf := dot_S64x16_S8192x16_S64x8192_1_1_0_0_n_n_wf

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8192x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S128x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x8192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10_0) S128x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_1) S128x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S64x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x8192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S64x16.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1) S8192x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8) S64x1.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v9) S1x8192.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v16) S64x1.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v18) S1x8192.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v22) S1x1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v23) S1x1.size cc1_transform_14 reads1_14 true true 1 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x16 : Shape := ⟨2, ![8192, 16]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S16x8192 : Shape := ⟨2, ![16, 8192]⟩

abbrev nBuf : Space → Nat
  | .hbm => 101
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x16, .f32⟩
  | .hbm, ⟨2, _⟩ => ⟨S128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S128x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x16, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S1x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S16x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S1x8192, .f32⟩
  | .hbm, ⟨56, _⟩ => ⟨S_, .f32⟩
  | .hbm, ⟨57, _⟩ => ⟨S1x8192, .f32⟩
  | .hbm, ⟨58, _⟩ => ⟨S1x8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S1x8192, .f32⟩
  | .hbm, ⟨78, _⟩ => ⟨S_, .f32⟩
  | .hbm, ⟨79, _⟩ => ⟨S1x8192, .f32⟩
  | .hbm, ⟨80, _⟩ => ⟨S1x8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S128, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_v53 : Ref sig .tc := ⟨.hbm, 71, rfl⟩
abbrev main_cst_14 : Ref sig .tc := ⟨.hbm, 72, rfl⟩
abbrev main_v54 : Ref sig .tc := ⟨.hbm, 73, rfl⟩
abbrev main_v55 : Ref sig .tc := ⟨.hbm, 74, rfl⟩
abbrev main_cst_15 : Ref sig .tc := ⟨.hbm, 75, rfl⟩
abbrev main_v56 : Ref sig .tc := ⟨.hbm, 76, rfl⟩
abbrev main_v57 : Ref sig .tc := ⟨.hbm, 77, rfl⟩
abbrev main_cst_16 : Ref sig .tc := ⟨.hbm, 78, rfl⟩
abbrev main_v58 : Ref sig .tc := ⟨.hbm, 79, rfl⟩
abbrev main_v59 : Ref sig .tc := ⟨.hbm, 80, rfl⟩
abbrev main_cst_17 : Ref sig .tc := ⟨.hbm, 81, rfl⟩
abbrev main_v60 : Ref sig .tc := ⟨.hbm, 82, rfl⟩
abbrev main_cst_18 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_19 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_20 : Ref sig .tc := ⟨.hbm, 96, rfl⟩
abbrev main_v72 : Ref sig .tc := ⟨.hbm, 97, rfl⟩
abbrev main_cst_21 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x16_S8192_d1 : S8192x16.ReducesTo [1] S8192
  transposes_S8192x16_S16x8192_1_0 : S8192x16.Transposes [1, 0] S16x8192
  reducesTo_S8192x8192_S8192_d1 : S8192x8192.ReducesTo [1] S8192
  bcast_S_S8192x1 : S_.BroadcastsInDim S8192x1 (![] : Fin 0 → Fin S8192x1.rank)
  reducesTo_S8192x8192_S8192_d0 : S8192x8192.ReducesTo [0] S8192
  bcast_S_S1x8192 : S_.BroadcastsInDim S1x8192 (![] : Fin 0 → Fin S1x8192.rank)
  reducesTo_S8192x8192_S_d0_1 : S8192x8192.ReducesTo [0, 1] S_
  reducesTo_S128_S_d0 : S128.ReducesTo [0] S_
  dot_S8192x128_S128x8192_S8192x8192_1_0_0_1_n_n_wf : DotDims.WF S8192x128 S128x8192 S8192x8192 [1] [0] [0] [1] [] []
  dot_S8192x16_S16x8192_S8192x8192_1_0_0_1_n_n_wf : DotDims.WF S8192x16 S16x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.KI.Data.lean ====
/-
  The data both regions' frames and value proofs are stated over.

  Region 0 (grid of 64 points, 128 rows each) reads the row block and the whole of x and of y, the squared norms as
  a column block and as a whole row, and leaves in each of its two outputs the block's row sums of the Gaussian
  kernel matrix. Region 1 (128 points, 64 rows each) reads the same, the row means as a column block and as a whole
  row, and the total mean, and adds the block's sum of products of the two centred kernel matrices to its 1 x 1
  output, which it resets at the first point and carries from point to point.

  Stated here: each window's block at a point as read off the array the region finds; what the body leaves in each
  output's staging buffer as a function of the input blocks (and, in region 1, of what the point before left); the
  proof data of each pipeline; and the contents of the core's buffers at each boundary of @main, folded from launch.
-/
import proofs.«175792_j13073880449542_1_alg».proof.Proof.Gen.KernelIdeal.Launch
import proofs.«175792_j13073880449542_1_alg».proof.Proof.Gen.KernelIdeal.Skeleton
import proofs.«175792_j13073880449542_1_alg».proof.Proof.Gen.KernelIdeal.Points
import proofs.«175792_j13073880449542_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the core's buffer contents when a region is entered
variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x output's block after the body: the row sums of exp(-d²/128) over the block's 128 rows against all 8192. -/
def out0_8 (x0 : Vec F S128x128 .bf16) (x1 : Vec F S8192x128 .bf16) (x2 : Vec F S128x1 .f32) (x3 : Vec F S1x8192 .f32) : Vec F S128x1 .f32 :=
  k0_pay2 x0 x1 x2 x3

/-- The y output's block after the body: the same with y and exp(-d²/32). -/
def out0_9 (x4 : Vec F S128x16 .bf16) (x5 : Vec F S8192x16 .bf16) (x6 : Vec F S128x1 .f32) (x7 : Vec F S1x8192 .f32) : Vec F S128x1 .f32 :=
  k0_pay1 (k0_pay3 x4 x5) (k0_pay4 x6) (k0_pay5 x7)

/-- Region 0's proof data on core `c`: the arrays as found; each input's staging buffer at its block, each output's at
    its row sums; x and y, each handed to two windows, held by each at one half of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t)
    | ⟨9, _⟩ => out0_9 (iblk0 V c 4 t) (iblk0 V c 5 t) (iblk0 V c 6 t) (iblk0 V c 7 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare.left
    | ⟨5, _⟩ => fullShare.right
    | ⟨6, _⟩ => fullShare
    | ⟨7, _⟩ => fullShare
    | ⟨8, _⟩ => fullShare
    | ⟨9, _⟩ => fullShare
  owed _ := 0

theorem A_eq0 (c : Dev nD) (w : Fin cfg0.W) : (dat0 V c).A w = V c (Pipeline.arrRef spec0 w) := by
  dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's step on the 1 x 1 output: what it held plus the block's sum of products of the centred matrices. -/
def step1 (prev : Vec F S1x1 .f32) (x0 : Vec F S64x128 .bf16) (x1 : Vec F S8192x128 .bf16) (x2 : Vec F S64x1 .f32) (x3 : Vec F S1x8192 .f32)
    (x4 : Vec F S64x1 .f32) (x5 : Vec F S1x8192 .f32) (x6 : Vec F S1x1 .f32) (x7 : Vec F S64x16 .bf16) (x8 : Vec F S8192x16 .bf16)
    (x9 : Vec F S64x1 .f32) (x10 : Vec F S1x8192 .f32) (x11 : Vec F S64x1 .f32) (x12 : Vec F S1x8192 .f32) (x13 : Vec F S1x1 .f32) : Vec F S1x1 .f32 :=
  k1_pay3 (k1_pay2 x0 x1 x2 x3 x4 x5 x6) x7 x8 x9 x10 x11 x12 x13 prev

/-- What the 1 x 1 output's staging buffer holds after the body at position `n`: at the first point the step over the
    zero the body has just stored, afterwards the step over what the point before left. -/
def acc1 (c : Dev nD) : (n : ℕ) → n < cfg1.N → Vec F S1x1 .f32
  | 0, hn => step1 (k1_pay1 (F := F)) (iblk1 V c 0 ⟨0, hn⟩) (iblk1 V c 1 ⟨0, hn⟩) (iblk1 V c 2 ⟨0, hn⟩) (iblk1 V c 3 ⟨0, hn⟩) (iblk1 V c 4 ⟨0, hn⟩)
      (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩)
      (iblk1 V c 11 ⟨0, hn⟩) (iblk1 V c 12 ⟨0, hn⟩) (iblk1 V c 13 ⟨0, hn⟩)
  | n + 1, hn => step1 (acc1 c n (Nat.lt_of_succ_lt hn)) (iblk1 V c 0 ⟨n + 1, hn⟩) (iblk1 V c 1 ⟨n + 1, hn⟩) (iblk1 V c 2 ⟨n + 1, hn⟩)
      (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩)
      (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩)
      (iblk1 V c 13 ⟨n + 1, hn⟩)

/-- Region 1's proof data on core `c`: each input's staging buffer at its block, the output's at the running sum. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => acc1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare.left
    | ⟨8, _⟩ => fullShare.right
    | ⟨9, _⟩ => fullShare
    | ⟨10, _⟩ => fullShare
    | ⟨11, _⟩ => fullShare
    | ⟨12, _⟩ => fullShare
    | ⟨13, _⟩ => fullShare
    | ⟨14, _⟩ => fullShare
  owed _ := 0

theorem A_eq1 (c : Dev nD) (w : Fin cfg1.W) : (dat1 V c).A w = V c (Pipeline.arrRef spec1 w) := by
  dsimp only [dat1]

end Regions

/-! ## The buffers' contents at each boundary of @main -/

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-- At launch. -/
abbrev W0 (c : Dev nD) : Valuation τ sig (Elt F) := fun b => m (c, b)
/-- After the first host stretch (region 0's entry). -/
abbrev W1 (c : Dev nD) : Valuation τ sig (Elt F) := StableHlo.after hostOps0 (W0 m c)
/-- After region 0: its two output arrays at what its write-backs leave. -/
def W2 (c : Dev nD) : Valuation τ sig (Elt F) :=
  Function.update (Function.update (W1 m c) main_v10_0 ((dat0 (atTc (W1 m)) c).arrAt 8 cfg0.N)) main_v10_1 ((dat0 (atTc (W1 m)) c).arrAt 9 cfg0.N)
/-- After the second host stretch (region 1's entry). -/
abbrev W3 (c : Dev nD) : Valuation τ sig (Elt F) := StableHlo.after hostOps1 (W2 m c)
/-- After region 1: its output array at what its one write-back leaves. -/
def W4 (c : Dev nD) : Valuation τ sig (Elt F) :=
  Function.update (W3 m c) main_v23 ((dat1 (atTc (W3 m)) c).arrAt 14 cfg1.N)
/-- After the last host stretch. -/
abbrev W5 (c : Dev nD) : Valuation τ sig (Elt F) := StableHlo.after hostOps2 (W4 m c)

end Cert.KernelIdeal.Fr

end
-- ==== Proof.KI.RunCond.lean ====
/- The run of @main from the two regions' records, with the result buffer read off the last boundary beside the
   arguments: what the value claim takes where the frame claim takes the arguments alone. -/
import proofs.«175792_j13073880449542_1_alg».proof.Proof.KI.Data

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)

variable {F : FTy → Type} [FloatOps F]
variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run of @main given the two regions' records, with the RESULT read as well: for any user algebra, level assignment,
    launch dues and ghost resources, any rest states `E`, any contents the regions leave (`outs`) and any proof data, GIVEN
    per region a segment record entered from the thread state before it and left at the one after it, every weakly fair
    execution of @main from memory `m` with zero counters terminates, and every final memory holds the result buffer at the
    last boundary's contents `V5 m outs c main_v29` and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v29) = V5 m outs c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => s.mem ((c.tc : Thread nD τ).loc main_v29) = V5 m outs c main_v29 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨h (Proc.devRef .tc main_v29) (Finset.mem_filter.mpr ⟨StableHlo.devRef_mem_tcRefs main_v29, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c)⟩
    · iexact HSI

end Cert.KernelIdeal.Fr

end
-- ==== Proof.KI.Body0.lean ====
/- Region 0's body, run at every grid point: it loads its eight input blocks, computes, and stores each output's block whole. -/
import proofs.«175792_j13073880449542_1_alg».proof.Proof.KI.Data
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Body0

/-! ## Whole-block loads and stores

Every access of the body is through the rectangle that starts at the buffer's origin and has the buffer's own
extents: a load through it reads the contents as they are, and one store through it leaves exactly its payload,
whatever the buffer held before. -/

/-- The two-axis offset of a rectangle that starts at the buffer's origin. -/
theorem origin2 : (![0, 0] : Fin 2 → Nat) = fun _ => 0 := funext fun a => by fin_cases a <;> rfl

/-- A load through the whole-buffer rectangle reads the buffer's contents. -/
theorem readAt_whole {sg : RefSig} {κ : Kind} {sp : Space} {S : Shape} {e : EltTy} (v : View sg κ sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f := by
  rw [View.readAt_eq_ld, View.ld_unit_zero hz]

/-- After one store through the whole-buffer rectangle the buffer reads as the stored payload. -/
theorem read_whole_store {sg : RefSig} {κ : Kind} {sp : Space} {S : Shape} {e : EltTy} (v : View sg κ sp S e) (f : v.ty.Contents (Elt F))
    {off : Fin S.rank → Nat} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-! ## The body on whole staging buffers -/

set_option maxHeartbeats 1000000 in
/-- Run on ten whole buffers, the eight inputs' reading `x0 … x7` and the two outputs' holding anything, the body
    returns the inputs' as they were, the first output's at the row sums of the x kernel matrix of the loaded blocks
    and the second's at those of the y kernel matrix. Each output buffer is loaded once before it is stored; the
    loaded value goes nowhere. -/
theorem kernel_run (c : Dev nD) (E : Set ℕ) (i : grid0.Coords)
    (a1 : Memref sig .tc .vmem S128x128 .bf16) (h1 : a1.IsWhole) (a2 : Memref sig .tc .vmem S8192x128 .bf16) (h2 : a2.IsWhole)
    (a3 : Memref sig .tc .vmem S128x1 .f32) (h3 : a3.IsWhole) (a4 : Memref sig .tc .vmem S1x8192 .f32) (h4 : a4.IsWhole)
    (a5 : Memref sig .tc .vmem S128x16 .bf16) (h5 : a5.IsWhole) (a6 : Memref sig .tc .vmem S8192x16 .bf16) (h6 : a6.IsWhole)
    (a7 : Memref sig .tc .vmem S128x1 .f32) (h7 : a7.IsWhole) (a8 : Memref sig .tc .vmem S1x8192 .f32) (h8 : a8.IsWhole)
    (a9 : Memref sig .tc .vmem S128x1 .f32) (h9 : a9.IsWhole) (a10 : Memref sig .tc .vmem S128x1 .f32) (h10 : a10.IsWhole)
    (x0 : Vec F S128x128 .bf16) (x1 : Vec F S8192x128 .bf16) (x2 : Vec F S128x1 .f32) (x3 : Vec F S1x8192 .f32)
    (x4 : Vec F S128x16 .bf16) (x5 : Vec F S8192x16 .bf16) (x6 : Vec F S128x1 .f32) (x7 : Vec F S1x8192 .f32)
    (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ owns (c : Thread nD τ) a6 fullShare x5
        ∗ owns (c : Thread nD τ) a7 fullShare x6 ∗ owns (c : Thread nD τ) a8 fullShare x7
        ∗ (∃ d, owns (c : Thread nD τ) a9 fullShare d) ∗ (∃ d, owns (c : Thread nD τ) a10 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare x4 ∗ owns (c : Thread nD τ) a6 fullShare x5
            ∗ owns (c : Thread nD τ) a7 fullShare x6 ∗ owns (c : Thread nD τ) a8 fullShare x7
            ∗ owns (c : Thread nD τ) a9 fullShare (out0_8 x0 x1 x2 x3)
            ∗ owns (c : Thread nD τ) a10 fullShare (out0_9 x4 x5 x6 x7)) -∗ K ⟨⟩))
      ⊢ wp frame (wpE (defs₀ (F := F)) Variants.none c none) E (cc0__stats_kernel i a1 h1 a2 h2 a3 h3 a4 h4 a5 h5 a6 h6 a7 h7 a8 h8 a9 h9 a10 h10) K := by
  simp only [cc0__stats_kernel_eq_skeleton]; unfold cc0__stats_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, Hk⟩
  subst e1 e2 e3 e4 e5 e6 e7 e8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_whole_store a9.view f9 origin2 inb_S128x1_S128x1_0_0 _).trans ?_
    unfold out0_8
    rw [readAt_whole a1.view f1 origin2, readAt_whole a2.view f2 origin2, readAt_whole a3.view f3 origin2, readAt_whole a4.view f4 origin2]
  · iexists _; isplitr
    swap; · iexact H10
    ipureintro
    refine (read_whole_store a10.view f10 origin2 inb_S128x1_S128x1_0_0 _).trans ?_
    dsimp only
    unfold out0_9
    rw [readAt_whole a5.view f5 origin2, readAt_whole a6.view f6 origin2, readAt_whole a7.view f7 origin2, readAt_whole a8.view f8 origin2]

/-! ## What the body finds in each input window's buffer

An input window's buffer holds the window's block of its array at every point: where the pipeline fetched it, because
the fetch filled the whole buffer with the block; where it did not (the whole-array windows 1, 3, 5, 7 after the
first point), because the block's index has not moved and the body left the buffer as it found it. -/

theorem after_0 (c : Dev nD) (t : Fin cfg0.N) : (dat0 V c).after 0 t = iblk0 V c 0 t := by dsimp only [dat0]
theorem after_1 (c : Dev nD) (t : Fin cfg0.N) : (dat0 V c).after 1 t = iblk0 V c 1 t := by dsimp only [dat0]
theorem after_2 (c : Dev nD) (t : Fin cfg0.N) : (dat0 V c).after 2 t = iblk0 V c 2 t := by dsimp only [dat0]
theorem after_3 (c : Dev nD) (t : Fin cfg0.N) : (dat0 V c).after 3 t = iblk0 V c 3 t := by dsimp only [dat0]
theorem after_4 (c : Dev nD) (t : Fin cfg0.N) : (dat0 V c).after 4 t = iblk0 V c 4 t := by dsimp only [dat0]
theorem after_5 (c : Dev nD) (t : Fin cfg0.N) : (dat0 V c).after 5 t = iblk0 V c 5 t := by dsimp only [dat0]
theorem after_6 (c : Dev nD) (t : Fin cfg0.N) : (dat0 V c).after 6 t = iblk0 V c 6 t := by dsimp only [dat0]
theorem after_7 (c : Dev nD) (t : Fin cfg0.N) : (dat0 V c).after 7 t = iblk0 V c 7 t := by dsimp only [dat0]
theorem after_8 (c : Dev nD) (t : Fin cfg0.N) :
    (dat0 V c).after 8 t = out0_8 (iblk0 V c 0 t) (iblk0 V c 1 t) (iblk0 V c 2 t) (iblk0 V c 3 t) := by dsimp only [dat0]
theorem after_9 (c : Dev nD) (t : Fin cfg0.N) :
    (dat0 V c).after 9 t = out0_9 (iblk0 V c 4 t) (iblk0 V c 5 t) (iblk0 V c 6 t) (iblk0 V c 7 t) := by dsimp only [dat0]

theorem before_0 (c : Dev nD) (t : Fin cfg0.N) (d) : (dat0 V c).before 0 t d = iblk0 V c 0 t :=
  ((dat0 V c).before_in_eq_fetched 0 rfl (fun _ => rfl) (fun _ _ _ => rfl)
    (fun t => by rw [after_0]; unfold Dat.blockOf iblk0; rw [A_eq0]; try rfl) t d).trans
    (by unfold Dat.fetched Dat.blockOf iblk0; rw [A_eq0]; try rfl)
theorem before_1 (c : Dev nD) (t : Fin cfg0.N) (d) : (dat0 V c).before 1 t d = iblk0 V c 1 t :=
  ((dat0 V c).before_in_eq_fetched 1 rfl (fun _ => rfl) (fun _ _ _ => rfl)
    (fun t => by rw [after_1]; unfold Dat.blockOf iblk0; rw [A_eq0]; try rfl) t d).trans
    (by unfold Dat.fetched Dat.blockOf iblk0; rw [A_eq0]; try rfl)
theorem before_2 (c : Dev nD) (t : Fin cfg0.N) (d) : (dat0 V c).before 2 t d = iblk0 V c 2 t :=
  ((dat0 V c).before_in_eq_fetched 2 rfl (fun _ => rfl) (fun _ _ _ => rfl)
    (fun t => by rw [after_2]; unfold Dat.blockOf iblk0; rw [A_eq0]; try rfl) t d).trans
    (by unfold Dat.fetched Dat.blockOf iblk0; rw [A_eq0]; try rfl)
theorem before_3 (c : Dev nD) (t : Fin cfg0.N) (d) : (dat0 V c).before 3 t d = iblk0 V c 3 t :=
  ((dat0 V c).before_in_eq_fetched 3 rfl (fun _ => rfl) (fun _ _ _ => rfl)
    (fun t => by rw [after_3]; unfold Dat.blockOf iblk0; rw [A_eq0]; try rfl) t d).trans
    (by unfold Dat.fetched Dat.blockOf iblk0; rw [A_eq0]; try rfl)
theorem before_4 (c : Dev nD) (t : Fin cfg0.N) (d) : (dat0 V c).before 4 t d = iblk0 V c 4 t :=
  ((dat0 V c).before_in_eq_fetched 4 rfl (fun _ => rfl) (fun _ _ _ => rfl)
    (fun t => by rw [after_4]; unfold Dat.blockOf iblk0; rw [A_eq0]; try rfl) t d).trans
    (by unfold Dat.fetched Dat.blockOf iblk0; rw [A_eq0]; try rfl)
theorem before_5 (c : Dev nD) (t : Fin cfg0.N) (d) : (dat0 V c).before 5 t d = iblk0 V c 5 t :=
  ((dat0 V c).before_in_eq_fetched 5 rfl (fun _ => rfl) (fun _ _ _ => rfl)
    (fun t => by rw [after_5]; unfold Dat.blockOf iblk0; rw [A_eq0]; try rfl) t d).trans
    (by unfold Dat.fetched Dat.blockOf iblk0; rw [A_eq0]; try rfl)
theorem before_6 (c : Dev nD) (t : Fin cfg0.N) (d) : (dat0 V c).before 6 t d = iblk0 V c 6 t :=
  ((dat0 V c).before_in_eq_fetched 6 rfl (fun _ => rfl) (fun _ _ _ => rfl)
    (fun t => by rw [after_6]; unfold Dat.blockOf iblk0; rw [A_eq0]; try rfl) t d).trans
    (by unfold Dat.fetched Dat.blockOf iblk0; rw [A_eq0]; try rfl)
theorem before_7 (c : Dev nD) (t : Fin cfg0.N) (d) : (dat0 V c).before 7 t d = iblk0 V c 7 t :=
  ((dat0 V c).before_in_eq_fetched 7 rfl (fun _ => rfl) (fun _ _ _ => rfl)
    (fun t => by rw [after_7]; unfold Dat.blockOf iblk0; rw [A_eq0]; try rfl) t d).trans
    (by unfold Dat.fetched Dat.blockOf iblk0; rw [A_eq0]; try rfl)

/-! ## The body at a point of the grid -/

/-- What the pipeline hands the body at point `t`: its invariant, what the core owes, and each window's current
    buffer at what it then holds. -/
def handed (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What the body hands back: the same invariant and debts, and each buffer at what the proof data say it leaves. -/
def returned (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- At any point the input buffers hold their blocks, so the body's run on whole buffers applies to them; the
    invariant and the core's debts pass through unread. -/
theorem body_at (c : Dev nD) (t : Fin cfg0.N) :
    handed V c t ⊢ wp frame (wpE (defs₀ (F := F)) Variants.none c none) Set.univ (bodyAt0 t) (fun _ => returned V c t) := by
  unfold handed returned bodyAt0
  simp only [before_0, before_1, before_2, before_3, before_4, before_5, before_6, before_7]
  rw [show (dat0 V c).Φ t.succ = (dat0 V c).Φ t.castSucc from rfl,
    show (dat0 V c).owesAt () t.succ = (dat0 V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernel_run c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Body0

/-- The pipeline's obligation on region 0's body, at every point. -/
theorem body_obligation0 (c : Dev nD) : BodyObligation (dat0 (F := F) V c) (defs₀ (F := F)) Variants.none () Set.univ := by
  intro t
  rw [bigSep_W0, bigSep_W0]
  exact Body0.body_at V c t

end Cert.KernelIdeal.Fr

end
-- ==== Proof.KI.Body1.lean ====
/- Region 1's body, run at every grid point: at the first point it stores a zero into the 1 x 1 output first; at every point it loads its fourteen input blocks and the output, and stores the output plus the block's contribution. -/
import proofs.«175792_j13073880449542_1_alg».proof.Proof.KI.Data
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch: is this the first grid point? -/

/-- The condition the body branches on, as a chain of words over the grid coordinate: "coordinate 0 equals zero",
    widened to 32 bits and compared with zero again. -/
abbrev firstPt1 (i : grid1.Coords) : Prop :=
  (Scalar.cmpi .ne (Scalar.extui (Scalar.cmpi .eq (BitVec.ofNat 32 (i 0).val) 0#32)) 0#32) = 1#1

/-- Over the 128 points of the grid it holds at point 0 and at no other. -/
theorem firstPt1_iff : ∀ t : Fin cfg1.N, firstPt1 (grid1.coords t) ↔ t.val = 0 :=
  (by decide +kernel : ∀ t : Fin grid1.N, firstPt1 (grid1.coords t) ↔ t.val = 0)

/-! ## Whole-block accesses of the 1 x 1 output -/

/-- Every access of the body is through the rectangle at offsets (0, 0) of the buffer's own extents. -/
theorem zeroOffsets1 : (![0, 0] : Fin 2 → Nat) = fun _ => 0 := funext fun a => by fin_cases a <;> rfl

/-- One store of the whole 1 x 1 block covers it; -/
theorem acc_covered_once (p : Vec F S1x1 .f32) (y : S1x1.Idx) :
    ∃ pc ∈ ([⟨Rect.unit (s := S1x1) ![0, 0] S1x1.size inb_S1x1_S1x1_0_0, p⟩] : List (View.Piece (Elt F) S1x1 .f32)), y ∈ pc.1.set :=
  ⟨_, List.mem_singleton_self _, View.mem_set_unit_zero zeroOffsets1 inb_S1x1_S1x1_0_0 y⟩

/-- so do two, the later (listed first) alone. -/
theorem acc_covered_twice (p q : Vec F S1x1 .f32) (y : S1x1.Idx) :
    ∃ pc ∈ ([⟨Rect.unit (s := S1x1) ![0, 0] S1x1.size inb_S1x1_S1x1_0_0, p⟩, ⟨Rect.unit (s := S1x1) ![0, 0] S1x1.size inb_S1x1_S1x1_0_0, q⟩] :
      List (View.Piece (Elt F) S1x1 .f32)), y ∈ pc.1.set :=
  ⟨_, List.mem_cons_self .., View.mem_set_unit_zero zeroOffsets1 inb_S1x1_S1x1_0_0 y⟩

/-! ## The body's triple at a later point and at the first -/

set_option maxHeartbeats 1000000 in
/-- AT A LATER POINT the branch is not taken. On whole staging memrefs, the fourteen inputs' at contents `x0 … x13` and
    the output's at `prev`, the body runs to a continuation that holds the inputs' as they were and the output's at
    one step over `prev`: the one store into the output covers its block, its payload is the step of the loaded blocks,
    and each load of a whole block reads the block. -/
theorem run1_later (c : Dev nD) (i : grid1.Coords) (hc : ¬firstPt1 i) (E : Set ℕ)
    (a1 : Memref sig .tc .vmem S64x128 .bf16) (h1 : a1.IsWhole) (a2 : Memref sig .tc .vmem S8192x128 .bf16) (h2 : a2.IsWhole) (a3 : Memref sig .tc .vmem S64x1 .f32) (h3 : a3.IsWhole) (a4 : Memref sig .tc .vmem S1x8192 .f32) (h4 : a4.IsWhole) (a5 : Memref sig .tc .vmem S64x1 .f32) (h5 : a5.IsWhole) (a6 : Memref sig .tc .vmem S1x8192 .f32) (h6 : a6.IsWhole) (a7 : Memref sig .tc .vmem S1x1 .f32) (h7 : a7.IsWhole) (a8 : Memref sig .tc .vmem S64x16 .bf16) (h8 : a8.IsWhole) (a9 : Memref sig .tc .vmem S8192x16 .bf16) (h9 : a9.IsWhole) (a10 : Memref sig .tc .vmem S64x1 .f32) (h10 : a10.IsWhole) (a11 : Memref sig .tc .vmem S1x8192 .f32) (h11 : a11.IsWhole) (a12 : Memref sig .tc .vmem S64x1 .f32) (h12 : a12.IsWhole) (a13 : Memref sig .tc .vmem S1x8192 .f32) (h13 : a13.IsWhole) (a14 : Memref sig .tc .vmem S1x1 .f32) (h14 : a14.IsWhole) (a15 : Memref sig .tc .vmem S1x1 .f32) (h15 : a15.IsWhole)
    (x0 : Vec F S64x128 .bf16) (x1 : Vec F S8192x128 .bf16) (x2 : Vec F S64x1 .f32) (x3 : Vec F S1x8192 .f32) (x4 : Vec F S64x1 .f32) (x5 : Vec F S1x8192 .f32) (x6 : Vec F S1x1 .f32) (x7 : Vec F S64x16 .bf16) (x8 : Vec F S8192x16 .bf16) (x9 : Vec F S64x1 .f32) (x10 : Vec F S1x8192 .f32) (x11 : Vec F S64x1 .f32) (x12 : Vec F S1x8192 .f32) (x13 : Vec F S1x1 .f32) (prev : Vec F S1x1 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ owns (c : Thread nD τ) a15 fullShare prev
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ owns (c : Thread nD τ) a15 fullShare (step1 prev x0 x1 x2 x3 x4 x5 x6 x7 x8 x9 x10 x11 x12 x13)) -∗ K ⟨⟩))
      ⊢ wp frame (wpE (defs₀ (F := F)) Variants.none c none) E (cc1__hsic_kernel i a1 h1 a2 h2 a3 h3 a4 h4 a5 h5 a6 h6 a7 h7 a8 h8 a9 h9 a10 h10 a11 h11 a12 h12 a13 h13 a14 h14 a15 h15) K := by
  simp only [cc1__hsic_kernel_eq_skeleton]; unfold cc1__hsic_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  obtain rfl := h1.eq_unread e0; obtain rfl := h2.eq_unread e1; obtain rfl := h3.eq_unread e2; obtain rfl := h4.eq_unread e3; obtain rfl := h5.eq_unread e4; obtain rfl := h6.eq_unread e5; obtain rfl := h7.eq_unread e6; obtain rfl := h8.eq_unread e7; obtain rfl := h9.eq_unread e8; obtain rfl := h10.eq_unread e9; obtain rfl := h11.eq_unread e10; obtain rfl := h12.eq_unread e11; obtain rfl := h13.eq_unread e12; obtain rfl := h14.eq_unread e13; obtain rfl := h15.eq_unread e14
  sl_exec (disch := first | exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  isplitl [H7]
  · iexists _; isplitr; · ipureintro; exact h8.read_unread _
    iexact H7
  isplitl [H8]
  · iexists _; isplitr; · ipureintro; exact h9.read_unread _
    iexact H8
  isplitl [H9]
  · iexists _; isplitr; · ipureintro; exact h10.read_unread _
    iexact H9
  isplitl [H10]
  · iexists _; isplitr; · ipureintro; exact h11.read_unread _
    iexact H10
  isplitl [H11]
  · iexists _; isplitr; · ipureintro; exact h12.read_unread _
    iexact H11
  isplitl [H12]
  · iexists _; isplitr; · ipureintro; exact h13.read_unread _
    iexact H12
  isplitl [H13]
  · iexists _; isplitr; · ipureintro; exact h14.read_unread _
    iexact H13
  iexists _; isplitr
  swap; · iexact H14
  ipureintro
  rw [View.read_writes_eq_canon _ _ _ (acc_covered_once _)]
  sl_unfold_words
  rw [View.canon_unit_zero zeroOffsets1]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S64x128) zeroOffsets1, View.ld_unit_zero (S := S8192x128) zeroOffsets1, View.ld_unit_zero (S := S64x1) zeroOffsets1, View.ld_unit_zero (S := S1x8192) zeroOffsets1, View.ld_unit_zero (S := S1x1) zeroOffsets1, View.ld_unit_zero (S := S64x16) zeroOffsets1, View.ld_unit_zero (S := S8192x16) zeroOffsets1]
  rfl

set_option maxHeartbeats 1000000 in
/-- AT THE FIRST POINT the branch is taken: the body stores the zero block into the output, whatever it held, before
    anything else. The later load of the output reads that zero back, so the last store's payload is one step over the
    zero; being the later of two whole-block stores it is what the buffer ends with. -/
theorem run1_first (c : Dev nD) (i : grid1.Coords) (hc : firstPt1 i) (E : Set ℕ)
    (a1 : Memref sig .tc .vmem S64x128 .bf16) (h1 : a1.IsWhole) (a2 : Memref sig .tc .vmem S8192x128 .bf16) (h2 : a2.IsWhole) (a3 : Memref sig .tc .vmem S64x1 .f32) (h3 : a3.IsWhole) (a4 : Memref sig .tc .vmem S1x8192 .f32) (h4 : a4.IsWhole) (a5 : Memref sig .tc .vmem S64x1 .f32) (h5 : a5.IsWhole) (a6 : Memref sig .tc .vmem S1x8192 .f32) (h6 : a6.IsWhole) (a7 : Memref sig .tc .vmem S1x1 .f32) (h7 : a7.IsWhole) (a8 : Memref sig .tc .vmem S64x16 .bf16) (h8 : a8.IsWhole) (a9 : Memref sig .tc .vmem S8192x16 .bf16) (h9 : a9.IsWhole) (a10 : Memref sig .tc .vmem S64x1 .f32) (h10 : a10.IsWhole) (a11 : Memref sig .tc .vmem S1x8192 .f32) (h11 : a11.IsWhole) (a12 : Memref sig .tc .vmem S64x1 .f32) (h12 : a12.IsWhole) (a13 : Memref sig .tc .vmem S1x8192 .f32) (h13 : a13.IsWhole) (a14 : Memref sig .tc .vmem S1x1 .f32) (h14 : a14.IsWhole) (a15 : Memref sig .tc .vmem S1x1 .f32) (h15 : a15.IsWhole)
    (x0 : Vec F S64x128 .bf16) (x1 : Vec F S8192x128 .bf16) (x2 : Vec F S64x1 .f32) (x3 : Vec F S1x8192 .f32) (x4 : Vec F S64x1 .f32) (x5 : Vec F S1x8192 .f32) (x6 : Vec F S1x1 .f32) (x7 : Vec F S64x16 .bf16) (x8 : Vec F S8192x16 .bf16) (x9 : Vec F S64x1 .f32) (x10 : Vec F S1x8192 .f32) (x11 : Vec F S64x1 .f32) (x12 : Vec F S1x8192 .f32) (x13 : Vec F S1x1 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ (∃ d, owns (c : Thread nD τ) a15 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ owns (c : Thread nD τ) a15 fullShare (step1 (k1_pay1 (F := F)) x0 x1 x2 x3 x4 x5 x6 x7 x8 x9 x10 x11 x12 x13)) -∗ K ⟨⟩))
      ⊢ wp frame (wpE (defs₀ (F := F)) Variants.none c none) E (cc1__hsic_kernel i a1 h1 a2 h2 a3 h3 a4 h4 a5 h5 a6 h6 a7 h7 a8 h8 a9 h9 a10 h10 a11 h11 a12 h12 a13 h13 a14 h14 a15 h15) K := by
  simp only [cc1__hsic_kernel_eq_skeleton]; unfold cc1__hsic_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, Hk⟩
  obtain rfl := h1.eq_unread e0; obtain rfl := h2.eq_unread e1; obtain rfl := h3.eq_unread e2; obtain rfl := h4.eq_unread e3; obtain rfl := h5.eq_unread e4; obtain rfl := h6.eq_unread e5; obtain rfl := h7.eq_unread e6; obtain rfl := h8.eq_unread e7; obtain rfl := h9.eq_unread e8; obtain rfl := h10.eq_unread e9; obtain rfl := h11.eq_unread e10; obtain rfl := h12.eq_unread e11; obtain rfl := h13.eq_unread e12; obtain rfl := h14.eq_unread e13
  sl_exec (disch := first | exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  isplitl [H7]
  · iexists _; isplitr; · ipureintro; exact h8.read_unread _
    iexact H7
  isplitl [H8]
  · iexists _; isplitr; · ipureintro; exact h9.read_unread _
    iexact H8
  isplitl [H9]
  · iexists _; isplitr; · ipureintro; exact h10.read_unread _
    iexact H9
  isplitl [H10]
  · iexists _; isplitr; · ipureintro; exact h11.read_unread _
    iexact H10
  isplitl [H11]
  · iexists _; isplitr; · ipureintro; exact h12.read_unread _
    iexact H11
  isplitl [H12]
  · iexists _; isplitr; · ipureintro; exact h13.read_unread _
    iexact H12
  isplitl [H13]
  · iexists _; isplitr; · ipureintro; exact h14.read_unread _
    iexact H13
  iexists _; isplitr
  swap; · iexact H14
  ipureintro
  sl_unfold_words
  rw [View.read_writes_eq_canon _ _ _ (acc_covered_twice _ _)]
  rw [View.canon_cons_unit_zero (S := S1x1) zeroOffsets1, View.readCov_unit_zero (S := S1x1) _ zeroOffsets1]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S64x128) zeroOffsets1, View.ld_unit_zero (S := S8192x128) zeroOffsets1, View.ld_unit_zero (S := S64x1) zeroOffsets1, View.ld_unit_zero (S := S1x8192) zeroOffsets1, View.ld_unit_zero (S := S1x1) zeroOffsets1, View.ld_unit_zero (S := S64x16) zeroOffsets1, View.ld_unit_zero (S := S8192x16) zeroOffsets1]
  rfl

/-! ## What each staging buffer holds when the body is called -/

/-- What the body leaves in an input's buffer is the block it found there. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = acc1 V c t.val t.isLt := by dsimp only [dat1]

/-- Each input's current staging buffer holds the window's block at every point, fetched there or not: where it is
    not fetched the block index has not moved, and the body left the block in place at the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl)
    (fun t => by rw [after1_13]; unfold Dat.blockOf iblk1; rw [A_eq1]; try rfl) t d).trans
    (by unfold Dat.fetched Dat.blockOf iblk1; rw [A_eq1]; try rfl)

/-- At a later point the output's staging buffer holds what the body left at the point before: the buffer is written
    back at the last point only, so nothing came between. -/
theorem before1_14_later (c : Dev nD) (t : Fin cfg1.N) (h0 : t.val ≠ 0) (d) :
    (dat1 V c).before 14 t d = acc1 V c (t.val - 1) (Nat.lt_of_le_of_lt (Nat.sub_le _ _) t.isLt) := by
  have hN : t.val < 128 := lt_of_lt_of_eq t.isLt (show cfg1.N = 128 from N_1)
  rw [Dat.before_out_kept _ 14 rfl t h0 (Bool.eq_false_iff.mpr fun h => by have := (flush1_14 _).mp h; dsimp only at this; omega)
    (fun _ => rfl) (fun _ _ => rfl)]
  dsimp only [dat1]

/-! ## The running sum, point by point -/

/-- At the first point the running sum is one step over the zero block. -/
theorem acc1_first (c : Dev nD) (t : Fin cfg1.N) (h0 : t.val = 0) :
    acc1 V c t.val t.isLt = step1 (k1_pay1 (F := F)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by
  obtain ⟨n, hn⟩ := t
  cases n with
  | zero => exact rfl
  | succ n => exact absurd h0 (Nat.succ_ne_zero n)

/-- At a later point it is one step over the running sum of the point before. -/
theorem acc1_later (c : Dev nD) (t : Fin cfg1.N) (h0 : t.val ≠ 0) :
    acc1 V c t.val t.isLt = step1 (acc1 V c (t.val - 1) (Nat.lt_of_le_of_lt (Nat.sub_le _ _) t.isLt)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by
  obtain ⟨n, hn⟩ := t
  cases n with
  | zero => exact absurd rfl h0
  | succ n => exact rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

set_option maxHeartbeats 1600000 in
/-- The body at any point: the inputs' buffers hold their blocks; at the first point the output's buffer holds
    anything and the body resets it, at a later point it holds the running sum of the point before; either way the
    body leaves the running sum of this point. The invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  by_cases h0 : t.val = 0
  · rw [acc1_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run1_first c (grid1.coords t) ((firstPt1_iff t).mpr h0) Set.univ _ _ _ _ _ _ _ _ _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [acc1_later V c t h0]
    simp only [before1_14_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run1_later c (grid1.coords t) (fun h => h0 ((firstPt1_iff t).mp h)) Set.univ _ _ _ _ _ _ _ _ _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The pipeline's obligation on region 1's body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Launch.lean ====
/- The run of @main: three host stretches around the two regions, from launch to return.

   Each region is handed x and y twice, through two windows each (a row block and the whole array), so the windows'
   arrays are not distinct buffers. Each such buffer's full share is dealt in two halves to its two windows when the
   region is entered and collected again when it is left; every other array is held whole by its one window. Around
   that, a core carries its unscoped buffers at the contents of the boundary it stands at, its generator register and
   its dues (none), and the run is the conditional run at these choices. -/
import proofs.«175792_j13073880449542_1_alg».proof.Proof.KI.RunCond
import proofs.«175792_j13073880449542_1_alg».proof.Proof.KI.Body0
import proofs.«175792_j13073880449542_1_alg».proof.Proof.KI.Body1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Windows regrouped by the array they sit on -/

/-- A family over a set of indices is, regrouped along a map `f`, a family over the map's values: at each value the
    indices sent to it. -/
theorem bigSep_fibres {M : Type} [URA M] {I J : Type} [DecidableEq I] [DecidableEq J] (s : Finset I) (f : I → J) (Φ : I → sProp M) :
    bigSep s Φ = bigSep (s.image f) fun b => bigSep (s.filter fun i => f i = b) Φ := by
  have h : ∀ t : Finset J, bigSep (s.filter fun i => f i ∈ t) Φ = bigSep t fun b => bigSep (s.filter fun i => f i = b) Φ := by
    intro t
    induction t using Finset.induction_on with
    | empty => simp
    | insert b t hb ih =>
      rw [bigSep_insert hb, ← ih, ← bigSep_union]
      · congr 1; ext i; simp only [Finset.mem_filter, Finset.mem_insert, Finset.mem_union]; tauto
      · rw [Finset.disjoint_filter]; intro i _ h1 h2; exact hb (h1 ▸ h2)
  have h' := h (s.image f)
  rwa [Finset.filter_true_of_mem fun i hi => Finset.mem_image_of_mem f hi] at h'

/-- THE DEALING. The distinct buffers behind the windows' arrays, each whole at the full share, are the windows' arrays
    each at its own share `sh w` — given that at every such buffer the full share is the composite of the shares of the
    windows that sit on it (`hdeal`, at any contents). An equality: read one way it deals the shares out, the other way
    it collects them. -/
theorem arrBufs_dealt {gr W : ℕ} (win : Fin W → Pipeline.WinSpec sig gr) (harr : ∀ w, (win w).arr.IsWhole) (c : Dev nD)
    (sh : Fin W → PosShare TreeShare)
    (hdeal : ∀ b ∈ Finset.univ.image (Pipeline.arrRef win), ∀ f : Buf (Elt F) ((c.tc : Thread nD τ).loc b),
      ((c.tc : Thread nD τ).loc b ↦{fullShare} f : sProp 𝕄)
        = bigSep (Finset.univ.filter fun w => Pipeline.arrRef win w = b) fun w => ((c.tc : Thread nD τ).loc b ↦{sh w} f : sProp 𝕄))
    (V : (b : Ref sig .tc) → Buf (Elt F) ((c.tc : Thread nD τ).loc b)) :
    (Pipeline.arrBufs (Ix := Unit) (Name := ℕ) (U := UR sig nD τ) (Lvl := ℕ) win c V : sProp 𝕄)
      = bigSep Finset.univ fun w => ((win w).arr.view.loc (c.tc : Thread nD τ) ↦[(win w).arr.view.set]{sh w} V (Pipeline.arrRef win w) : sProp 𝕄) := by
  classical
  unfold Pipeline.arrBufs
  rw [bigSep_fibres Finset.univ (Pipeline.arrRef win) fun w => ((win w).arr.view.loc (c.tc : Thread nD τ) ↦[(win w).arr.view.set]{sh w} V (Pipeline.arrRef win w) : sProp 𝕄)]
  refine bigSep_congr fun b hb => ?_
  rw [hdeal b hb (V b)]
  refine bigSep_congr fun w hw => ?_
  obtain rfl := (Finset.mem_filter.mp hw).2
  rw [(harr w).set_eq_univ]

/-- One window on a buffer holds it at the full share. -/
theorem deal_one {W : ℕ} {sh : Fin W → PosShare TreeShare} {S : Finset (Fin W)} {ℓ : Loc nD τ sig} (f : Buf (Elt F) ℓ) (k : Fin W)
    (hS : S = {k}) (hk : sh k = fullShare) :
    (ℓ ↦{fullShare} f : sProp 𝕄) = bigSep S fun w => (ℓ ↦{sh w} f : sProp 𝕄) := by
  rw [hS, bigSep_singleton, hk]

/-- Two windows on a buffer hold it at the two halves of the full share, which compose to it. -/
theorem deal_two {W : ℕ} {sh : Fin W → PosShare TreeShare} {S : Finset (Fin W)} {ℓ : Loc nD τ sig} (f : Buf (Elt F) ℓ) (k k' : Fin W)
    (hne : k ≠ k') (hS : S = {k, k'}) (hk : sh k = fullShare.left) (hk' : sh k' = fullShare.right) :
    (ℓ ↦{fullShare} f : sProp 𝕄) = bigSep S fun w => (ℓ ↦{sh w} f : sProp 𝕄) := by
  rw [hS, bigSep_insert (Finset.notMem_singleton.mpr hne), bigSep_singleton, hk, hk']
  have h : (ℓ ↦{fullShare} f : sProp 𝕄) ⊣⊢ iprop((ℓ ↦{fullShare.left} f) ∗ ℓ ↦{fullShare.right} f) :=
    pointsTo_share (PosShare.mem_left_op_right fullShare)
  exact equiv_iff.mp ⟨h.1, h.2⟩

section Regions
variable (V : (c : Dev nD) → (b : Ref sig .tc) → Buf (Elt F) ((c : Thread nD τ).loc b))

/-! ## Region 0: x (windows 0, 1) and y (windows 4, 5) each handed to two windows -/

/-- The buffers behind region 0's ten windows are eight. -/
theorem arrs0 : Finset.univ.image (Pipeline.arrRef spec0) = {main_v0, main_v6, main_v7, main_v1, main_v8, main_v9, main_v10_0, main_v10_1} := by decide

/-- At each of them the full share is the composite of the shares region 0's proof data give the windows on it. -/
theorem deal0 (c : Dev nD) : ∀ b ∈ Finset.univ.image (Pipeline.arrRef spec0), ∀ f : Buf (Elt F) ((c.tc : Thread nD τ).loc b),
      ((c.tc : Thread nD τ).loc b ↦{fullShare} f : sProp 𝕄)
        = bigSep (Finset.univ.filter fun w => Pipeline.arrRef spec0 w = b) fun w => ((c.tc : Thread nD τ).loc b ↦{(dat0 V c).share w} f : sProp 𝕄) := by
  intro b hb
  rw [arrs0] at hb
  simp only [Finset.mem_insert, Finset.mem_singleton] at hb
  rcases hb with rfl | rfl | rfl | rfl | rfl | rfl | rfl | rfl <;> intro f
  · exact deal_two f 0 1 (by decide) (by decide) rfl rfl
  · exact deal_one f 2 (by decide) rfl
  · exact deal_one f 3 (by decide) rfl
  · exact deal_two f 4 5 (by decide) (by decide) rfl rfl
  · exact deal_one f 6 (by decide) rfl
  · exact deal_one f 7 (by decide) rfl
  · exact deal_one f 8 (by decide) rfl
  · exact deal_one f 9 (by decide) rfl

/-- Region 0's arrays at contents read off a valuation `V'` are the eight buffers whole at `V'`. -/
theorem arrays0_eq (c : Dev nD) (V' : (b : Ref sig .tc) → Buf (Elt F) ((c.tc : Thread nD τ).loc b))
    (G : (w : Fin cfg0.W) → Buf (Elt F) ((cfg0.win w).arr.view.loc (c.tc : Thread nD τ))) (hG : ∀ w, G w = V' (Pipeline.arrRef spec0 w)) :
    (dat0 V c).arrays G = (Pipeline.arrBufs (Ix := Unit) (Name := ℕ) (U := UR sig nD τ) (Lvl := ℕ) spec0 c V' : sProp 𝕄) := by
  rw [arrBufs_dealt spec0 arr_whole0 c (dat0 V c).share (deal0 V c) V']
  unfold Dat.arrays
  exact bigSep_congr fun w _ => by rw [hG w]

/-- ENTRY of region 0: the core's unscoped buffers at `V c` are region 0's arrays at the entry contents, x and y dealt
    in halves to their two windows, and the unscoped rest. -/
theorem entry0 (c : Dev nD) :
    (unscopedBufs c (V c) : sProp 𝕄) ⊢ iprop((dat0 V c).arrays ((dat0 V c).arrAt · 0) ∗ Pipeline.unscopedRest spec0 c (V c)) := by
  have h1 : (unscopedBufs c (V c) : sProp 𝕄) = iprop(Pipeline.arrBufs spec0 c (V c) ∗ Pipeline.unscopedRest spec0 c (V c)) :=
    Pipeline.unscopedBufs_split₀ cfgs 0 winFacts₀0.arr_unscoped c (V c)
  rw [h1, ← arrays0_eq V c (V c) (fun w => (dat0 V c).arrAt w 0) fun w => A_eq0 V c w]

/-- EXIT of region 0: its arrays at what the write-backs leave, the halves of x and of y collected, and the unscoped rest
    are the core's unscoped buffers at any valuation that has the arrays so and agrees with `V c` off them. -/
theorem exit0 (c : Dev nD) (V' : (b : Ref sig .tc) → Buf (Elt F) ((c.tc : Thread nD τ).loc b))
    (hF : ∀ w, (dat0 V c).arrAt w cfg0.N = V' (Pipeline.arrRef spec0 w))
    (hrest : ∀ b, b ∉ Finset.univ.image (Pipeline.arrRef spec0) → V' b = V c b) :
    iprop((dat0 V c).arrays ((dat0 V c).arrAt · cfg0.N) ∗ Pipeline.unscopedRest spec0 c (V c)) ⊢ (unscopedBufs c V' : sProp 𝕄) := by
  have h1 : (unscopedBufs c V' : sProp 𝕄) = iprop(Pipeline.arrBufs spec0 c V' ∗ Pipeline.unscopedRest spec0 c V') :=
    Pipeline.unscopedBufs_split₀ cfgs 0 winFacts₀0.arr_unscoped c V'
  rw [h1, arrays0_eq V c V' (fun w => (dat0 V c).arrAt w cfg0.N) hF]
  refine sep_mono .rfl (Entails.of_eq ?_)
  unfold Pipeline.unscopedRest
  exact bigSep_congr fun b hb => by rw [hrest b (Finset.mem_sdiff.mp hb).2]

end Regions

section Regions1
variable (V : (c : Dev nD) → (b : Ref sig .tc) → Buf (Elt F) ((c : Thread nD τ).loc b))

/-! ## Region 1: x (windows 0, 1) and y (windows 7, 8) each handed to two windows -/

/-- The buffers behind region 1's fifteen windows are thirteen. -/
theorem arrs1 : Finset.univ.image (Pipeline.arrRef spec1)
    = {main_v0, main_v6, main_v7, main_v14, main_v17, main_v20, main_v1, main_v8, main_v9, main_v16, main_v18, main_v22, main_v23} := by decide

/-- At each of them the full share is the composite of the shares region 1's proof data give the windows on it. -/
theorem deal1 (c : Dev nD) : ∀ b ∈ Finset.univ.image (Pipeline.arrRef spec1), ∀ f : Buf (Elt F) ((c.tc : Thread nD τ).loc b),
      ((c.tc : Thread nD τ).loc b ↦{fullShare} f : sProp 𝕄)
        = bigSep (Finset.univ.filter fun w => Pipeline.arrRef spec1 w = b) fun w => ((c.tc : Thread nD τ).loc b ↦{(dat1 V c).share w} f : sProp 𝕄) := by
  intro b hb
  rw [arrs1] at hb
  simp only [Finset.mem_insert, Finset.mem_singleton] at hb
  rcases hb with rfl | rfl | rfl | rfl | rfl | rfl | rfl | rfl | rfl | rfl | rfl | rfl | rfl <;> intro f
  · exact deal_two f 0 1 (by decide) (by decide) rfl rfl
  · exact deal_one f 2 (by decide) rfl
  · exact deal_one f 3 (by decide) rfl
  · exact deal_one f 4 (by decide) rfl
  · exact deal_one f 5 (by decide) rfl
  · exact deal_one f 6 (by decide) rfl
  · exact deal_two f 7 8 (by decide) (by decide) rfl rfl
  · exact deal_one f 9 (by decide) rfl
  · exact deal_one f 10 (by decide) rfl
  · exact deal_one f 11 (by decide) rfl
  · exact deal_one f 12 (by decide) rfl
  · exact deal_one f 13 (by decide) rfl
  · exact deal_one f 14 (by decide) rfl

/-- Region 1's arrays at contents read off a valuation `V'` are the thirteen buffers whole at `V'`. -/
theorem arrays1_eq (c : Dev nD) (V' : (b : Ref sig .tc) → Buf (Elt F) ((c.tc : Thread nD τ).loc b))
    (G : (w : Fin cfg1.W) → Buf (Elt F) ((cfg1.win w).arr.view.loc (c.tc : Thread nD τ))) (hG : ∀ w, G w = V' (Pipeline.arrRef spec1 w)) :
    (dat1 V c).arrays G = (Pipeline.arrBufs (Ix := Unit) (Name := ℕ) (U := UR sig nD τ) (Lvl := ℕ) spec1 c V' : sProp 𝕄) := by
  rw [arrBufs_dealt spec1 arr_whole1 c (dat1 V c).share (deal1 V c) V']
  unfold Dat.arrays
  exact bigSep_congr fun w _ => by rw [hG w]

/-- ENTRY of region 1: the core's unscoped buffers at `V c` are region 1's arrays at the entry contents, x and y dealt
    in halves to their two windows, and the unscoped rest. -/
theorem entry1 (c : Dev nD) :
    (unscopedBufs c (V c) : sProp 𝕄) ⊢ iprop((dat1 V c).arrays ((dat1 V c).arrAt · 0) ∗ Pipeline.unscopedRest spec1 c (V c)) := by
  have h1 : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [h1, ← arrays1_eq V c (V c) (fun w => (dat1 V c).arrAt w 0) fun w => A_eq1 V c w]

/-- EXIT of region 1: its arrays at what the one write-back leaves, the halves of x and of y collected, and the unscoped
    rest are the core's unscoped buffers at any valuation that has the arrays so and agrees with `V c` off them. -/
theorem exit1 (c : Dev nD) (V' : (b : Ref sig .tc) → Buf (Elt F) ((c.tc : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) := by
  have h1 : (unscopedBufs c V' : sProp 𝕄) = iprop(Pipeline.arrBufs spec1 c V' ∗ Pipeline.unscopedRest spec1 c V') :=
    Pipeline.unscopedBufs_split₀ cfgs 1 winFacts₀1.arr_unscoped c V'
  rw [h1, arrays1_eq V c V' (fun w => (dat1 V c).arrAt w cfg1.N) hF]
  refine sep_mono .rfl (Entails.of_eq ?_)
  unfold Pipeline.unscopedRest
  exact bigSep_congr fun b hb => by rw [hrest b (Finset.mem_sdiff.mp hb).2]

end Regions1

/-! # The run -/

variable (m : (ℓ : Loc nD τ sig) → Buf (Elt F) ℓ)

/-! ## What a region's exit contents hold at its arrays, and off them -/

theorem W2_out0 (c : Dev nD) : W2 m c main_v10_0 = (dat0 (atTc (W1 m)) c).arrAt 8 cfg0.N := by
  unfold W2
  rw [Function.update_of_ne (StableHlo.devRef_ne_of_ne (show main_v10_0 ≠ main_v10_1 by decide)), Function.update_self]
theorem W2_out1 (c : Dev nD) : W2 m c main_v10_1 = (dat0 (atTc (W1 m)) c).arrAt 9 cfg0.N := by
  unfold W2
  rw [Function.update_self]
/-- Region 0 writes its two outputs only. -/
theorem W2_of (c : Dev nD) (r : Ref sig .tc) (h0 : r ≠ main_v10_0) (h1 : r ≠ main_v10_1) : W2 m c r = W1 m c r := by
  unfold W2
  rw [Function.update_of_ne (StableHlo.devRef_ne_of_ne h1), Function.update_of_ne (StableHlo.devRef_ne_of_ne h0)]
/-- An input window's array leaves region 0 as it entered. -/
theorem W2_in (c : Dev nD) (w : Fin cfg0.W) (hin : (cfg0.win w).isOut = false) (h0 : Pipeline.arrRef spec0 w ≠ main_v10_0)
    (h1 : Pipeline.arrRef spec0 w ≠ main_v10_1) : (dat0 (atTc (W1 m)) c).arrAt w cfg0.N = W2 m c (Pipeline.arrRef spec0 w) :=
  ((dat0 (atTc (W1 m)) c).arrAt_in w hin _).trans ((A_eq0 (atTc (W1 m)) c w).trans (W2_of m c _ h0 h1).symm)
/-- Every array of region 0 leaves it at the contents after region 0. -/
theorem hF0 (c : Dev nD) (w : Fin cfg0.W) : (dat0 (atTc (W1 m)) c).arrAt w cfg0.N = W2 m c (Pipeline.arrRef spec0 w) := by
  by_cases h8 : w = 8
  · subst h8; exact (W2_out0 m c).symm
  by_cases h9 : w = 9
  · subst h9; exact (W2_out1 m c).symm
  exact W2_in m c w (by revert w; decide) (by revert w; decide) (by revert w; decide)
/-- and every other unscoped buffer is as it entered. -/
theorem hrest0 (c : Dev nD) (b : Ref sig .tc) (hb : b ∉ Finset.univ.image (Pipeline.arrRef spec0)) : W2 m c b = W1 m c b :=
  W2_of m c b (fun e => hb (Finset.mem_image.mpr ⟨8, Finset.mem_univ _, e.symm⟩)) (fun e => hb (Finset.mem_image.mpr ⟨9, Finset.mem_univ _, e.symm⟩))

theorem W4_out (c : Dev nD) : W4 m c main_v23 = (dat1 (atTc (W3 m)) c).arrAt 14 cfg1.N := by
  unfold W4
  rw [Function.update_self]
/-- Region 1 writes its one output only. -/
theorem W4_of (c : Dev nD) (r : Ref sig .tc) (h : r ≠ main_v23) : W4 m c r = W3 m c r := by
  unfold W4
  rw [Function.update_of_ne (StableHlo.devRef_ne_of_ne h)]
/-- An input window's array leaves region 1 as it entered. -/
theorem W4_in (c : Dev nD) (w : Fin cfg1.W) (hin : (cfg1.win w).isOut = false) (h : Pipeline.arrRef spec1 w ≠ main_v23) :
    (dat1 (atTc (W3 m)) c).arrAt w cfg1.N = W4 m c (Pipeline.arrRef spec1 w) :=
  ((dat1 (atTc (W3 m)) c).arrAt_in w hin _).trans ((A_eq1 (atTc (W3 m)) c w).trans (W4_of m c _ h).symm)
/-- Every array of region 1 leaves it at the contents after region 1. -/
theorem hF1 (c : Dev nD) (w : Fin cfg1.W) : (dat1 (atTc (W3 m)) c).arrAt w cfg1.N = W4 m c (Pipeline.arrRef spec1 w) := by
  by_cases h14 : w = 14
  · subst h14; exact (W4_out m c).symm
  exact W4_in m c w (by revert w; decide) (by revert w; decide)
/-- and every other unscoped buffer is as it entered. -/
theorem hrest1 (c : Dev nD) (b : Ref sig .tc) (hb : b ∉ Finset.univ.image (Pipeline.arrRef spec1)) : W4 m c b = W3 m c b :=
  W4_of m c b (fun e => hb (Finset.mem_image.mpr ⟨14, Finset.mem_univ _, e.symm⟩))

/-! ## The regions' outputs named, and the boundaries' contents as the conditional run writes them -/

/-- What the regions leave in the buffers they may change: after region 1 the contents after region 1, before it those
    after region 0. -/
def outs : Outs (F := F) := fun J r c => (if J = 4 then W4 m c else W2 m c) r

theorem outs_two (r : Ref sig .tc) (c : Dev nD) : outs m 2 r c = W2 m c r := by
  unfold outs
  rw [if_neg (by decide)]
theorem outs_four (r : Ref sig .tc) (c : Dev nD) : outs m 4 r c = W4 m c r := by
  unfold outs
  rw [if_pos rfl]

theorem V1_eq (c : Dev nD) : V1 m c = W1 m c := rfl
theorem V2_eq (c : Dev nD) : V2 m (outs m) c = W2 m c := by
  unfold V2
  rw [outs_two, outs_two, W2_out0, W2_out1, V1_eq]
  unfold W2
  with_reducible rfl
theorem V3_eq (c : Dev nD) : V3 m (outs m) c = W3 m c := by
  unfold V3
  rw [V2_eq]
theorem V4_eq (c : Dev nD) : V4 m (outs m) c = W4 m c := by
  unfold V4
  rw [V3_eq, outs_four, W4_out]
  unfold W4
  with_reducible rfl
theorem V5_eq (c : Dev nD) : V5 m (outs m) c = W5 m c := by
  unfold V5
  rw [V4_eq]

/-! ## The rest of a core's thread state, and a region's protocol around it -/

/-- Each pipeline's proof data, at its region's entry contents. -/
def pdats : (p : Fin 2) → (c : Dev nD) → Dat τ (Elt F) Unit ℕ (UR sig nD τ) ℕ (cfgs p) c
  | ⟨0, _⟩ => fun c => dat0 (atTc (W1 m)) c
  | ⟨1, _⟩ => fun c => dat1 (atTc (W3 m)) c

/-- No core waits on another: no level is assigned. -/
abbrev L₀ : GSem nD τ sig → Finset Unit := fun _ => ∅
abbrev lv₀ : GSem nD τ sig → Unit → ℕ := fun _ _ => 0

/-- Beside its unscoped buffers a core holds, between two items of @main, its generator register at some state and its
    dues, which are none. -/
abbrev rest (c : Dev nD) : sProp 𝕄 :=
  iprop((∃ r, prngReg c r) ∗ ∃ W, owes (c : Thread nD τ) (0 : CellTallies nD τ sig Unit) W)

/-- A pipeline without tables holds none. -/
theorem prefHeld_none (c : Dev nD) (q : Fin (Pipeline.Prefetch.none (sig := sig)).K → PosShare TreeShare)
    (v : (Pipeline.Prefetch.none (sig := sig)).Contents (Elt F)) :
    (Pipeline.prefHeld (Ix := Unit) (Name := ℕ) (U := UR sig nD τ) (Lvl := ℕ) Pipeline.Prefetch.none c q v : sProp 𝕄) = BI.emp := by
  unfold Pipeline.prefHeld
  rw [show (Finset.univ : Finset (Fin (Pipeline.Prefetch.none (sig := sig)).K)) = ∅ from rfl, bigSep_empty]

section Protocol
variable {cfg : Cfg sig Λ₀} {c : Dev nD} (dat : Dat τ (Elt F) Unit ℕ (UR sig nD τ) ℕ cfg c)

/-- Owing nothing, whatever pairs are recorded, is owing the tallies of a point at which the proof data owe nothing and
    bound the recorded pairs by nothing. -/
theorem owesAt_of_none (t : Fin (cfg.N + 1)) (howed : dat.owed t = 0) (hrec : dat.recorded t = Set.univ) :
    (iprop(∃ W, owes (c : Thread nD τ) (0 : CellTallies nD τ sig Unit) W) : sProp 𝕄) ⊢ dat.owesAt () t := by
  show _ ⊢ iprop(∃ W, ⌜↑W ⊆ dat.bound () t⌝ ∗ owes (c : Thread nD τ) (dat.owed t) W)
  rw [howed]
  iintro ⟨%W, HO⟩
  iexists W
  isplitr
  · ipureintro; exact fun x _ => Or.inl (hrec ▸ Set.mem_univ x)
  iexact HO

/-- and back. -/
theorem none_of_owesAt (t : Fin (cfg.N + 1)) (howed : dat.owed t = 0) :
    dat.owesAt () t ⊢ (iprop(∃ W, owes (c : Thread nD τ) (0 : CellTallies nD τ sig Unit) W) : sProp 𝕄) := by
  show iprop(∃ W, ⌜↑W ⊆ dat.bound () t⌝ ∗ owes (c : Thread nD τ) (dat.owed t) W) ⊢ _
  rw [howed]
  iintro ⟨%W, -, HO⟩
  iexists W
  iexact HO

/-- ENTRY of a region without tables or semaphores of its own, around `rest`: given how the unscoped buffers at `V` make
    the arrays and a remainder `Z` (`harr`), the thread state makes what the pipeline is entered with — the generator
    register set aside for the body's invariant, the dues at the first tallies. -/
theorem region_entry (V : Valuation τ sig (Elt F)) (Z lev : sProp 𝕄)
    (harr : StableHlo.held (c : Thread nD τ) (Pipeline.ucRefs τ sig) V ⊢ iprop(dat.arrays (dat.arrAt · 0) ∗ Z))
    (howed : dat.owed 0 = 0) (hrec : dat.recorded 0 = Set.univ)
    (q : Fin (Pipeline.Prefetch.none (sig := sig)).K → PosShare TreeShare) (v : (Pipeline.Prefetch.none (sig := sig)).Contents (Elt F)) :
    iprop((StableHlo.held (c : Thread nD τ) (Pipeline.ucRefs τ sig) V ∗ rest c) ∗ BI.emp ∗ lev)
      ⊢ |={Set.univ}=> iprop(dat.arrays (dat.arrAt · 0) ∗ Pipeline.prefHeld Pipeline.Prefetch.none c q v ∗ dat.owesAt () 0
          ∗ (∃ r, prngReg c r) ∗ Z) := by
  rw [prefHeld_none]
  iintro ⟨⟨Hheld, Hgen, Hdue⟩, -, -⟩
  ihave Hsplit := harr $$ Hheld
  icases Hsplit with ⟨Harr, HZ⟩
  ihave Hdue' := (owesAt_of_none dat 0 howed hrec) $$ Hdue
  imodintro
  isplitl [Harr]; · iexact Harr
  isplitr; · iempintro
  isplitl [Hdue']; · iexact Hdue'
  isplitl [Hgen]; · iexact Hgen
  iexact HZ

/-- EXIT of such a region: given how the arrays at their last contents and `Z` make the unscoped buffers at `V'`
    (`hjoin`), what the pipeline leaves makes the thread state at `V'`. -/
theorem region_exit (V' : Valuation τ sig (Elt F)) (Z : sProp 𝕄)
    (hjoin : iprop(dat.arrays (dat.arrAt · cfg.N) ∗ Z) ⊢ StableHlo.held (c : Thread nD τ) (Pipeline.ucRefs τ sig) V')
    (howed : dat.owed (Fin.last cfg.N) = 0) :
    iprop(dat.arrays (dat.arrAt · cfg.N) ∗ dat.owesAt () (Fin.last cfg.N) ∗ (∃ r, prngReg c r) ∗ Z)
      ⊢ |={Set.univ}=> iprop(StableHlo.held (c : Thread nD τ) (Pipeline.ucRefs τ sig) V' ∗ rest c) := by
  iintro ⟨Harr, Hdue, Hgen, HZ⟩
  ihave Hheld := hjoin $$ [Harr HZ]
  · isplitl [Harr]; · iexact Harr
    iexact HZ
  ihave Hdue' := (none_of_owesAt dat (Fin.last cfg.N) howed) $$ Hdue
  imodintro
  isplitl [Hheld]; · iexact Hheld
  isplitl [Hgen]; · iexact Hgen
  iexact Hdue'

end Protocol

/-- The generator register and the scoped buffers no window stages make the class invariant the bodies are proved
    under; tables, there being none, are let go. -/
theorem classInv_in {gr W : ℕ} (win : Fin W → Pipeline.WinSpec sig gr) (c : Dev nD) (T : sProp 𝕄) :
    iprop((∃ r, prngReg c r) ∗ T ∗ Pipeline.scopedRest win c) ⊢ (Pipeline.ΦA (U := UR sig nD τ) win c : sProp 𝕄) := by
  unfold Pipeline.ΦA
  iintro ⟨Hgen, -, Hsc⟩
  isplitl [Hsc]; · iexact Hsc
  iexact Hgen

/-- and it gives them back. -/
theorem classInv_out {gr W : ℕ} (win : Fin W → Pipeline.WinSpec sig gr) (c : Dev nD) :
    (Pipeline.ΦA (U := UR sig nD τ) win c : sProp 𝕄)
      ⊢ iprop((∃ r, prngReg c r) ∗ Pipeline.ownSems0 (fun k : PEmpty => k.elim) c ∗ Pipeline.scopedRest win c) := by
  rw [Pipeline.ownSems0_none]
  unfold Pipeline.ΦA
  iintro ⟨Hsc, Hgen⟩
  isplitl [Hgen]; · iexact Hgen
  isplitr; · iempintro
  iexact Hsc

/-! ## The regions as segments -/

set_option backward.isDefEq.respectTransparency.types false in
/-- REGION 0 between the contents after the first host stretch and those after region 0: x and y dealt in halves to their
    two windows at entry and collected at exit, the generator register lent to the bodies' invariant, nothing owed, no
    semaphore of the kernel's own. -/
def reg0 : Pipeline.RegionSeg (pcfgs (F := F)) adm (pdats m) () defs₀ Variants.none L₀ lv₀ 0 where
  win := winFacts₀0
  block_pos := block_pos0
  stage_whole := stage_whole0
  K := PEmpty
  osem k := k.elim
  ho := Pipeline.OwnSemFacts.none _
  hbody c := (body_obligation0 (atTc (W1 m)) c).loose
  hwaits := Pipeline.hwaits_of_owed_zero _ _ _ _ L₀ lv₀ 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    refine region_entry (dat0 (atTc (W1 m)) c) (W1 m c) _ _ ?_ rfl rfl _ _
    have h := entry0 (atTc (W1 m)) c
    rwa [Pipeline.unscopedBufs_held] at h
  hin c := classInv_in spec0 c _
  hout c := classInv_out spec0 c
  hexit c := by
    refine region_exit (dat0 (atTc (W1 m)) c) (W2 m c) _ ?_ rfl
    have h := exit0 (atTc (W1 m)) c (atTc (W2 m) c) (hF0 m c) (hrest0 m c)
    rwa [Pipeline.unscopedBufs_held] at h

set_option backward.isDefEq.respectTransparency.types false in
/-- REGION 1 between the contents after the second host stretch and those after region 1, likewise. -/
def reg1 : Pipeline.RegionSeg (pcfgs (F := F)) adm (pdats m) () defs₀ Variants.none L₀ lv₀ 1 where
  win := winFacts₀1
  block_pos := block_pos1
  stage_whole := stage_whole1
  K := PEmpty
  osem k := k.elim
  ho := Pipeline.OwnSemFacts.none _
  hbody c := (body_obligation1 (atTc (W3 m)) c).loose
  hwaits := Pipeline.hwaits_of_owed_zero _ _ _ _ L₀ lv₀ 1 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec1 c (atTc (W3 m) c)
  hentry c := by
    rw [Pipeline.ownSems0_none]
    refine region_entry (dat1 (atTc (W3 m)) c) (W3 m c) _ _ ?_ rfl rfl _ _
    have h := entry1 (atTc (W3 m)) c
    rwa [Pipeline.unscopedBufs_held] at h
  hin c := classInv_in spec1 c _
  hout c := classInv_out spec1 c
  hexit c := by
    refine region_exit (dat1 (atTc (W3 m)) c) (W4 m c) _ ?_ rfl
    have h := exit1 (atTc (W3 m)) c (atTc (W4 m) c) (hF1 m c) (hrest1 m c)
    rwa [Pipeline.unscopedBufs_held] at h

/-! ## From launch to return -/

variable (ρ : Dev nD → PrngReg)

/-- The launch's ghost element is the pipeline library's own, and no core is given anything else. -/
theorem launch_ghost :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  · iempintro

/-- Every weakly fair execution of @main terminates, nothing faulting, with the result buffer at the last boundary's
    contents and every argument as launched. -/
theorem run_result : θ_run defs (onTc (τ := τ) (main (F := F))) ⟨m, fun _ => 0, ρ⟩ (fun r => ∀ c : Dev nD,
      r.2.mem ((c.tc : Thread nD τ).loc main_v29) = W5 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_)
    (run_cond m emb₁ () Variants.none L₀ lv₀ (fun _ _ => rfl) ρ (outs m) (pdats m) 0 (fun _ => iprop(emp))
      (initOf (Pipeline.cells cfgs cellOf_inj) (Pipeline.launchToks cfgs cellOf_inj)) launch_ghost (fun _ => rest)
      (Pipeline.initEach L₀ lv₀ fun c => ?_) (fun c => ?_)
      (reg0 m) (fun c => .rfl) (fun c => ?_) (reg1 m) (fun c => ?_) (fun c => ?_))
  · -- the last boundary's contents, as the conditional run names them
    have e := V5_eq m c
    rw [← e]
    exact h c
  · -- at launch a core owes nothing and has recorded nothing
    iintro ⟨⟨-, Hdue, -, Hgen, -⟩, -⟩
    imodintro
    isplitl [Hgen]; · iexists _; iexact Hgen
    iexists ∅; iexact Hdue
  · iintro ⟨-, Hdue⟩; iexact Hdue
  · rw [V2_eq]; exact .rfl
  · rw [V3_eq]; exact .rfl
  · rw [V4_eq]; exact .rfl

/-- The frame: it terminates, nothing faulting, every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Fr

end
-- ==== Proof.Spec.lean ====
/-
  The two programs' result as formulas on the extended reals, and the law that joins them.

  Both compute   -( ∑ i j, Cx i j * Cy i j ) + ρ * ∑ k, |β k|   where C is a Gaussian kernel matrix
  G i j = exp(-max(‖z i‖² + ‖z j‖² - 2 ⟨z i, z j⟩, 0) / (2σ²)) centred by its row mean, its column mean and its total
  mean. The kernel multiplies the squared distance by the word for -1/(2σ²) where the reference negates it and
  divides by the word for 2σ²; and the kernel takes the column mean of column j to be the row mean of row j, which
  it is because G is symmetric. Sums are re-associated freely: addition of extended reals is commutative and
  associative. No finiteness is used.
-/
import Idealize.ShloMosaic.PureOps.Ideal
import Idealize.ShloMosaic.PureOps.Ideal.Laws
import Idealize.ShloMosaic.Lib.ValueIdx

noncomputable section

namespace Cert.Spec

open Idealize.ShloMosaic

/-! ## The words the programs share or pair -/

/-- 2.0 -/
abbrev two : EReal := Ideal.ofBits .f32 0x40000000#32
/-- -1/128, the kernel's scale for x (σ = 8) -/
abbrev sX : EReal := Ideal.ofBits .f32 0xBC000000#32
/-- -1/32, the kernel's scale for y (σ = 4) -/
abbrev sY : EReal := Ideal.ofBits .f32 0xBD000000#32
/-- 128.0, the reference's divisor for x -/
abbrev vX : EReal := Ideal.ofBits .f32 0x43000000#32
/-- 32.0, the reference's divisor for y -/
abbrev vY : EReal := Ideal.ofBits .f32 0x42000000#32
/-- 8192.0 -/
abbrev nn : EReal := Ideal.ofBits .f32 0x46000000#32
/-- 8192.0 * 8192.0 -/
abbrev nn2 : EReal := Ideal.ofBits .f32 0x4C800000#32
/-- 0.001 as f32 -/
abbrev rho : EReal := Ideal.ofBits .f32 0x3A83126F#32

variable {n : ℕ}

/-! ## The pieces -/

/-- The squared norm of row `i`. -/
def sq {d : ℕ} (z : Fin n → Fin d → EReal) (i : Fin n) : EReal := ∑ k : Fin d, z i k * z i k

/-- The inner product of rows `i` and `j`. -/
def gram {d : ℕ} (z : Fin n → Fin d → EReal) (i j : Fin n) : EReal := ∑ k : Fin d, z i k * z j k

/-- One entry of a Gaussian kernel matrix from a column of squared norms, a row of squared norms and the inner
    products, the squared distance clamped at zero and MULTIPLIED by the scale `s` (the kernel's form). -/
def gauss (s : EReal) (col row : Fin n → EReal) (G : Fin n → Fin n → EReal) (i j : Fin n) : EReal :=
  Ideal.exp (max (col i + row j - two * G i j) 0 * s)

/-- The Gaussian kernel matrix of the rows of `z`, in the kernel's form. -/
def gaussK {d : ℕ} (s : EReal) (z : Fin n → Fin d → EReal) (i j : Fin n) : EReal :=
  gauss s (sq z) (sq z) (gram z) i j

/-- The same in the reference's form: the clamped squared distance NEGATED and DIVIDED by `v`. -/
def gaussR {d : ℕ} (v : EReal) (z : Fin n → Fin d → EReal) (i j : Fin n) : EReal :=
  Ideal.exp (Ideal.div (-(max (sq z i + sq z j - two * gram z i j) 0)) v)

def rowSum (K : Fin n → Fin n → EReal) (i : Fin n) : EReal := ∑ j : Fin n, K i j
def colSum (K : Fin n → Fin n → EReal) (j : Fin n) : EReal := ∑ i : Fin n, K i j

/-- Centred as the kernel does it: the row mean of row `i`, the row mean of row `j` in place of column `j`'s mean,
    the total as the sum of the row sums. -/
def centK (K : Fin n → Fin n → EReal) (i j : Fin n) : EReal :=
  K i j - Ideal.div (rowSum K i) nn - Ideal.div (rowSum K j) nn + Ideal.div (∑ i' : Fin n, rowSum K i') nn2

/-- Centred as the reference does it. -/
def centR (K : Fin n → Fin n → EReal) (i j : Fin n) : EReal :=
  K i j - Ideal.div (rowSum K i) nn - Ideal.div (colSum K j) nn + Ideal.div (∑ i' : Fin n, ∑ j' : Fin n, K i' j') nn2

/-- The absolute value as the ideal instance reads it. -/
def absE (x : EReal) : EReal := max x (-x)

/-- The kernel's result. -/
def lossK {dx dy f : ℕ} (x : Fin n → Fin dx → EReal) (y : Fin n → Fin dy → EReal) (b : Fin f → EReal) : EReal :=
  -(∑ i : Fin n, ∑ j : Fin n, centK (gaussK sX x) i j * centK (gaussK sY y) i j) + rho * ∑ k : Fin f, absE (b k)

/-- The reference's result. -/
def lossR {dx dy f : ℕ} (x : Fin n → Fin dx → EReal) (y : Fin n → Fin dy → EReal) (b : Fin f → EReal) : EReal :=
  -(∑ i : Fin n, ∑ j : Fin n, centR (gaussR vX x) i j * centR (gaussR vY y) i j) + rho * ∑ k : Fin f, absE (b k)

end Cert.Spec

end
-- ==== Proof.KI.Val0.lean ====
/- What region 0 leaves in its two output arrays, at the extended reals: row sums of the Gaussian kernel matrices. -/
import proofs.«175792_j13073880449542_1_alg».proof.Proof.KI.Data
import proofs.«175792_j13073880449542_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Fr Idealize.ShloMosaic.ValueIdx

variable (V : (c : Dev nD) → (b : Ref sig .tc) → Buf (Elt Ideal) ((c : Thread nD τ).loc b))

/-! ## The two contractions: a row of the block against a row of the whole array -/

theorem gramX_lhs_row (i : S128x8192.Idx) (q : dot_S128x128_S8192x128_S128x8192_1_1_0_0_n_n.contr.Idx) :
    (dot_S128x128_S8192x128_S128x8192_1_1_0_0_n_n.lhsIdx i q 0).val = (i 0).val := by
  unfold DotDims.lhsIdx
  rw [dif_neg (show ¬(0 : Fin S128x128.rank) ∈ dot_S128x128_S8192x128_S128x8192_1_1_0_0_n_n.lhsBatch by decide),
    dif_pos (show (0 : Fin S128x128.rank) ∈ dot_S128x128_S8192x128_S128x8192_1_1_0_0_n_n.lhsNonContracting by decide)]
  rfl
theorem gramX_lhs_inner (i : S128x8192.Idx) (q : dot_S128x128_S8192x128_S128x8192_1_1_0_0_n_n.contr.Idx) :
    (dot_S128x128_S8192x128_S128x8192_1_1_0_0_n_n.lhsIdx i q 1).val = (q ⟨0, by decide⟩).val :=
  dot_S128x128_S8192x128_S128x8192_1_1_0_0_n_n.lhsIdx_val_of_single rfl i q
theorem gramX_rhs_row (i : S128x8192.Idx) (q : dot_S128x128_S8192x128_S128x8192_1_1_0_0_n_n.contr.Idx) :
    (dot_S128x128_S8192x128_S128x8192_1_1_0_0_n_n.rhsIdx i q 0).val = (i 1).val := by
  unfold DotDims.rhsIdx
  rw [dif_neg (show ¬(0 : Fin S8192x128.rank) ∈ dot_S128x128_S8192x128_S128x8192_1_1_0_0_n_n.rhsBatch by decide),
    dif_pos (show (0 : Fin S8192x128.rank) ∈ dot_S128x128_S8192x128_S128x8192_1_1_0_0_n_n.rhsNonContracting by decide)]
  rfl
theorem gramX_rhs_inner (i : S128x8192.Idx) (q : dot_S128x128_S8192x128_S128x8192_1_1_0_0_n_n.contr.Idx) :
    (dot_S128x128_S8192x128_S128x8192_1_1_0_0_n_n.rhsIdx i q 1).val = (q ⟨0, by decide⟩).val :=
  dot_S128x128_S8192x128_S128x8192_1_1_0_0_n_n.rhsIdx_val_of_single rfl i q

/-- The matrix unit's product of the x block with the whole of x, into a zero accumulator, at (p, j): the inner
    product of row p of the block with row j of the whole. -/
theorem gramX_apply (A : FVec Ideal S128x128 .bf16) (B : FVec Ideal S8192x128 .bf16) (p : Fin 128) (j : Fin 8192) :
    FloatOps.matmul dot_S128x128_S8192x128_S128x8192_1_1_0_0_n_n none A B (constant S128x8192 .f32 0x00000000#32) (ix2 p j)
      = ∑ k : Fin 128, A (ix2 p k) * B (ix2 j k) := by
  rw [Ideal.matmul_constant_zero_apply, ← Equiv.sum_comp (contrEquiv1 dot_S128x128_S8192x128_S128x8192_1_1_0_0_n_n 128 rfl rfl).symm]
  refine Finset.sum_congr rfl fun k _ => ?_
  have hk := contrEquiv1_symm_val dot_S128x128_S8192x128_S128x8192_1_1_0_0_n_n 128 rfl rfl k
  have el : dot_S128x128_S8192x128_S128x8192_1_1_0_0_n_n.lhsIdx (ix2 p j) ((contrEquiv1 dot_S128x128_S8192x128_S128x8192_1_1_0_0_n_n 128 rfl rfl).symm k) = ix2 p k :=
    funext fun a => Fin.ext (by
      match a with
      | ⟨0, _⟩ => exact gramX_lhs_row _ _
      | ⟨1, _⟩ => exact (gramX_lhs_inner _ _).trans hk)
  have er : dot_S128x128_S8192x128_S128x8192_1_1_0_0_n_n.rhsIdx (ix2 p j) ((contrEquiv1 dot_S128x128_S8192x128_S128x8192_1_1_0_0_n_n 128 rfl rfl).symm k) = ix2 j k :=
    funext fun a => Fin.ext (by
      match a with
      | ⟨0, _⟩ => exact gramX_rhs_row _ _
      | ⟨1, _⟩ => exact (gramX_rhs_inner _ _).trans hk)
  rw [el, er]

theorem gramY_lhs_row (i : S128x8192.Idx) (q : dot_S128x16_S8192x16_S128x8192_1_1_0_0_n_n.contr.Idx) :
    (dot_S128x16_S8192x16_S128x8192_1_1_0_0_n_n.lhsIdx i q 0).val = (i 0).val := by
  unfold DotDims.lhsIdx
  rw [dif_neg (show ¬(0 : Fin S128x16.rank) ∈ dot_S128x16_S8192x16_S128x8192_1_1_0_0_n_n.lhsBatch by decide),
    dif_pos (show (0 : Fin S128x16.rank) ∈ dot_S128x16_S8192x16_S128x8192_1_1_0_0_n_n.lhsNonContracting by decide)]
  rfl
theorem gramY_lhs_inner (i : S128x8192.Idx) (q : dot_S128x16_S8192x16_S128x8192_1_1_0_0_n_n.contr.Idx) :
    (dot_S128x16_S8192x16_S128x8192_1_1_0_0_n_n.lhsIdx i q 1).val = (q ⟨0, by decide⟩).val :=
  dot_S128x16_S8192x16_S128x8192_1_1_0_0_n_n.lhsIdx_val_of_single rfl i q
theorem gramY_rhs_row (i : S128x8192.Idx) (q : dot_S128x16_S8192x16_S128x8192_1_1_0_0_n_n.contr.Idx) :
    (dot_S128x16_S8192x16_S128x8192_1_1_0_0_n_n.rhsIdx i q 0).val = (i 1).val := by
  unfold DotDims.rhsIdx
  rw [dif_neg (show ¬(0 : Fin S8192x16.rank) ∈ dot_S128x16_S8192x16_S128x8192_1_1_0_0_n_n.rhsBatch by decide),
    dif_pos (show (0 : Fin S8192x16.rank) ∈ dot_S128x16_S8192x16_S128x8192_1_1_0_0_n_n.rhsNonContracting by decide)]
  rfl
theorem gramY_rhs_inner (i : S128x8192.Idx) (q : dot_S128x16_S8192x16_S128x8192_1_1_0_0_n_n.contr.Idx) :
    (dot_S128x16_S8192x16_S128x8192_1_1_0_0_n_n.rhsIdx i q 1).val = (q ⟨0, by decide⟩).val :=
  dot_S128x16_S8192x16_S128x8192_1_1_0_0_n_n.rhsIdx_val_of_single rfl i q

/-- The same product for y: row p of the y block against row j of the whole of y, over the 16 features. -/
theorem gramY_apply (A : FVec Ideal S128x16 .bf16) (B : FVec Ideal S8192x16 .bf16) (p : Fin 128) (j : Fin 8192) :
    FloatOps.matmul dot_S128x16_S8192x16_S128x8192_1_1_0_0_n_n none A B (constant S128x8192 .f32 0x00000000#32) (ix2 p j)
      = ∑ k : Fin 16, A (ix2 p k) * B (ix2 j k) := by
  rw [Ideal.matmul_constant_zero_apply, ← Equiv.sum_comp (contrEquiv1 dot_S128x16_S8192x16_S128x8192_1_1_0_0_n_n 16 rfl rfl).symm]
  refine Finset.sum_congr rfl fun k _ => ?_
  have hk := contrEquiv1_symm_val dot_S128x16_S8192x16_S128x8192_1_1_0_0_n_n 16 rfl rfl k
  have el : dot_S128x16_S8192x16_S128x8192_1_1_0_0_n_n.lhsIdx (ix2 p j) ((contrEquiv1 dot_S128x16_S8192x16_S128x8192_1_1_0_0_n_n 16 rfl rfl).symm k) = ix2 p k :=
    funext fun a => Fin.ext (by
      match a with
      | ⟨0, _⟩ => exact gramY_lhs_row _ _
      | ⟨1, _⟩ => exact (gramY_lhs_inner _ _).trans hk)
  have er : dot_S128x16_S8192x16_S128x8192_1_1_0_0_n_n.rhsIdx (ix2 p j) ((contrEquiv1 dot_S128x16_S8192x16_S128x8192_1_1_0_0_n_n 16 rfl rfl).symm k) = ix2 j k :=
    funext fun a => Fin.ext (by
      match a with
      | ⟨0, _⟩ => exact gramY_rhs_row _ _
      | ⟨1, _⟩ => exact (gramY_rhs_inner _ _).trans hk)
  rw [el, er]

/-! ## The body's payload at a row of the block -/

/-- The lane sum's source index over row p at lane j is (p, j). -/
theorem lane_lift (p : Fin 128) (j : Fin 8192) : reduces_S128x8192_S128.lift (ix1 p) j = ix2 p j :=
  funext fun a => Fin.ext (by
    match a with
    | ⟨0, _⟩ => rfl
    | ⟨1, _⟩ => rfl)

/-- The sum along the lanes into a zero word, at row p: the sum over all 8192 lanes of the source at (p, j). -/
theorem lane_sum_apply (src : FVec Ideal S128x8192 .f32) (p : Fin 128) :
    multiReduction (F := Ideal) .add [1] S128 src 0x00000000#32 reduces_S128x8192_S128 (.inl rfl) rfl (ix1 p)
      = ∑ j : Fin 8192, src (ix2 p j) :=
  (Ideal.multiReduction_add_single src 0x00000000#32 reduces_S128x8192_S128 (.inl rfl) rfl (ix1 p)).trans
    (Finset.sum_congr rfl fun j _ => congrArg src (lane_lift p j))

/-- A one-axis vector recast as a column reads, at (p, 0), the vector at p. -/
theorem column_cast_apply {α : Type} (v : S128.Idx → α) (p : Fin 128) :
    shapeCast S128x1 v shapeCasts_S128_S128x1 (ix2 p (0 : Fin 1)) = v (ix1 p) := by
  refine shapeCast_apply v shapeCasts_S128_S128x1 (ix2 p (0 : Fin 1)) (ix1 p) ?_
  rw [Shape.rowMajor_val_one, Shape.rowMajor_val_two]
  show p.val = p.val * 1 + 0
  omega

/-- The column of squared norms broadcast along the lanes reads, at (p, j), the column at (p, 0). -/
theorem column_bcast_apply {α : Type} (v : S128x1.Idx → α) (p : Fin 128) (j : Fin 8192) :
    broadcastTo S128x8192 v broadcasts_S128x1_S128x8192 (ix2 p j) = v (ix2 p (0 : Fin 1)) := by
  refine broadcastTo_apply v broadcasts_S128x1_S128x8192 (ix2 p j) (ix2 p (0 : Fin 1)) fun a => ?_
  match a with
  | ⟨0, _⟩ => rfl
  | ⟨1, _⟩ => rfl

/-- The row of squared norms broadcast along the rows reads, at (p, j), the row at (0, j). -/
theorem row_bcast_apply {α : Type} (v : S1x8192.Idx → α) (p : Fin 128) (j : Fin 8192) :
    broadcastTo S128x8192 v broadcasts_S1x8192_S128x8192 (ix2 p j) = v (ix2 (0 : Fin 1) j) := by
  refine broadcastTo_apply v broadcasts_S1x8192_S128x8192 (ix2 p j) (ix2 (0 : Fin 1) j) fun a => ?_
  match a with
  | ⟨0, _⟩ => rfl
  | ⟨1, _⟩ => rfl

/-- Row p of what the body leaves in the x output's block: the sum over all 8192 lanes of the Gaussian entry. -/
theorem statsX_apply (x0 : Vec Ideal S128x128 .bf16) (x1 : Vec Ideal S8192x128 .bf16) (x2 : Vec Ideal S128x1 .f32)
    (x3 : Vec Ideal S1x8192 .f32) (p : Fin 128) :
    k0_pay2 x0 x1 x2 x3 (ix2 p (0 : Fin 1))
      = ∑ j : Fin 8192, Ideal.exp (max (x2 (ix2 p (0 : Fin 1)) + x3 (ix2 (0 : Fin 1) j)
          - Cert.Spec.two * ∑ k : Fin 128, x0 (ix2 p k) * x1 (ix2 j k)) 0 * Cert.Spec.sX) := by
  unfold k0_pay2
  dsimp only
  refine (column_cast_apply _ p).trans ?_
  refine (lane_sum_apply _ p).trans ?_
  refine Finset.sum_congr rfl fun j _ => ?_
  refine congrArg Ideal.exp ?_
  show max (broadcastTo S128x8192 (shapeCast S128x1 x2 shapeCasts_S128x1_S128x1) broadcasts_S128x1_S128x8192 (ix2 p j)
        + broadcastTo S128x8192 (shapeCast S1x8192 x3 shapeCasts_S1x8192_S1x8192) broadcasts_S1x8192_S128x8192 (ix2 p j)
        - Cert.Spec.two * FloatOps.matmul (F := Ideal) (φ₁ := .bf16) (φ₂ := .bf16) dot_S128x128_S8192x128_S128x8192_1_1_0_0_n_n none
            (shapeCast S128x128 x0 shapeCasts_S128x128_S128x128) (shapeCast S8192x128 x1 shapeCasts_S8192x128_S8192x128)
            (constant (F := Ideal) S128x8192 .f32 0x00000000#32) (ix2 p j))
      (Ideal.ofBits .f32 0x00000000#32) * Cert.Spec.sX = _
  rw [shapeCast_self, shapeCast_self, shapeCast_self, shapeCast_self, column_bcast_apply, row_bcast_apply, gramX_apply,
    Ideal.ofBits_zero_f32]

/-- Row p of what the body leaves in the y output's block: the same sum over y's 16 features with y's scale. -/
theorem statsY_apply (x4 : Vec Ideal S128x16 .bf16) (x5 : Vec Ideal S8192x16 .bf16) (x6 : Vec Ideal S128x1 .f32)
    (x7 : Vec Ideal S1x8192 .f32) (p : Fin 128) :
    k0_pay1 (k0_pay3 x4 x5) (k0_pay4 x6) (k0_pay5 x7) (ix2 p (0 : Fin 1))
      = ∑ j : Fin 8192, Ideal.exp (max (x6 (ix2 p (0 : Fin 1)) + x7 (ix2 (0 : Fin 1) j)
          - Cert.Spec.two * ∑ k : Fin 16, x4 (ix2 p k) * x5 (ix2 j k)) 0 * Cert.Spec.sY) := by
  unfold k0_pay1 k0_pay3 k0_pay4 k0_pay5
  dsimp only
  refine (column_cast_apply _ p).trans ?_
  refine (lane_sum_apply _ p).trans ?_
  refine Finset.sum_congr rfl fun j _ => ?_
  refine congrArg Ideal.exp ?_
  show max (broadcastTo S128x8192 (shapeCast S128x1 x6 shapeCasts_S128x1_S128x1) broadcasts_S128x1_S128x8192 (ix2 p j)
        + broadcastTo S128x8192 (shapeCast S1x8192 x7 shapeCasts_S1x8192_S1x8192) broadcasts_S1x8192_S128x8192 (ix2 p j)
        - Cert.Spec.two * FloatOps.matmul (F := Ideal) (φ₁ := .bf16) (φ₂ := .bf16) dot_S128x16_S8192x16_S128x8192_1_1_0_0_n_n none
            (shapeCast S128x16 x4 shapeCasts_S128x16_S128x16) (shapeCast S8192x16 x5 shapeCasts_S8192x16_S8192x16)
            (constant (F := Ideal) S128x8192 .f32 0x00000000#32) (ix2 p j))
      (Ideal.ofBits .f32 0x00000000#32) * Cert.Spec.sY = _
  rw [shapeCast_self, shapeCast_self, shapeCast_self, shapeCast_self, column_bcast_apply, row_bcast_apply, gramY_apply,
    Ideal.ofBits_zero_f32]

/-! ## Each input block read where the output's rows say -/

/-- The printed index maps over the grid: the row-block windows sit at block (t, 0), the whole-array windows at (0, 0). -/
theorem blocks_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Window 0's block at point t is rows 128 t .. 128 t + 127 of x. -/
theorem xrows_apply (c : Dev nD) (t : Fin cfg0.N) (p : Fin 128) (k : Fin 128) (r : Fin 8192) (hr : r.val = 128 * t.val + p.val) :
    (iblk0 (F := Ideal) V c 0 t : Vec Ideal S128x128 .bf16) (ix2 p k) = (V c main_v0 : S8192x128.Idx → EReal) (ix2 r k) := by
  obtain ⟨⟨h0, h1⟩, -⟩ := blocks_at t
  unfold iblk0
  rw [View.read_apply]
  show V c main_v0 _ = V c main_v0 _
  congr 1
  funext a
  apply Fin.ext
  match a with
  | ⟨0, _⟩ => show win0_0.index t (0 : Fin 2) * 128 + 1 * p.val = r.val; rw [h0, hr]; omega
  | ⟨1, _⟩ => show win0_0.index t (1 : Fin 2) * 128 + 1 * k.val = k.val; rw [h1]; omega

/-- Window 1's block at every point is the whole of x. -/
theorem xall_apply (c : Dev nD) (t : Fin cfg0.N) (j : Fin 8192) (k : Fin 128) :
    (iblk0 (F := Ideal) V c 1 t : Vec Ideal S8192x128 .bf16) (ix2 j k) = (V c main_v0 : S8192x128.Idx → EReal) (ix2 j k) := by
  obtain ⟨-, ⟨h0, h1⟩, -⟩ := blocks_at t
  unfold iblk0
  rw [View.read_apply]
  show V c main_v0 _ = V c main_v0 _
  congr 1
  funext a
  apply Fin.ext
  match a with
  | ⟨0, _⟩ => show win0_1.index t (0 : Fin 2) * 8192 + 1 * j.val = j.val; rw [h0]; omega
  | ⟨1, _⟩ => show win0_1.index t (1 : Fin 2) * 128 + 1 * k.val = k.val; rw [h1]; omega

/-- Window 2's block at point t is rows 128 t .. 128 t + 127 of the column of x's squared norms. -/
theorem xcol_apply (c : Dev nD) (t : Fin cfg0.N) (p : Fin 128) (r : Fin 8192) (hr : r.val = 128 * t.val + p.val) :
    (iblk0 (F := Ideal) V c 2 t : Vec Ideal S128x1 .f32) (ix2 p (0 : Fin 1)) = (V c main_v6 : S8192x1.Idx → EReal) (ix2 r (0 : Fin 1)) := by
  obtain ⟨-, -, ⟨h0, h1⟩, -⟩ := blocks_at t
  unfold iblk0
  rw [View.read_apply]
  show V c main_v6 _ = V c main_v6 _
  congr 1
  funext a
  apply Fin.ext
  match a with
  | ⟨0, _⟩ => show win0_2.index t (0 : Fin 2) * 128 + 1 * p.val = r.val; rw [h0, hr]; omega
  | ⟨1, _⟩ => show win0_2.index t (1 : Fin 2) * 1 + 1 * 0 = 0; rw [h1]

/-- Window 3's block at every point is the whole row of x's squared norms. -/
theorem xrow_apply (c : Dev nD) (t : Fin cfg0.N) (j : Fin 8192) :
    (iblk0 (F := Ideal) V c 3 t : Vec Ideal S1x8192 .f32) (ix2 (0 : Fin 1) j) = (V c main_v7 : S1x8192.Idx → EReal) (ix2 (0 : Fin 1) j) := by
  obtain ⟨-, -, -, ⟨h0, h1⟩, -⟩ := blocks_at t
  unfold iblk0
  rw [View.read_apply]
  show V c main_v7 _ = V c main_v7 _
  congr 1
  funext a
  apply Fin.ext
  match a with
  | ⟨0, _⟩ => show win0_3.index t (0 : Fin 2) * 1 + 1 * 0 = 0; rw [h0]
  | ⟨1, _⟩ => show win0_3.index t (1 : Fin 2) * 8192 + 1 * j.val = j.val; rw [h1]; omega

/-- Window 4's block at point t is rows 128 t .. 128 t + 127 of y. -/
theorem yrows_apply (c : Dev nD) (t : Fin cfg0.N) (p : Fin 128) (k : Fin 16) (r : Fin 8192) (hr : r.val = 128 * t.val + p.val) :
    (iblk0 (F := Ideal) V c 4 t : Vec Ideal S128x16 .bf16) (ix2 p k) = (V c main_v1 : S8192x16.Idx → EReal) (ix2 r k) := by
  obtain ⟨-, -, -, -, ⟨h0, h1⟩, -⟩ := blocks_at t
  unfold iblk0
  rw [View.read_apply]
  show V c main_v1 _ = V c main_v1 _
  congr 1
  funext a
  apply Fin.ext
  match a with
  | ⟨0, _⟩ => show win0_4.index t (0 : Fin 2) * 128 + 1 * p.val = r.val; rw [h0, hr]; omega
  | ⟨1, _⟩ => show win0_4.index t (1 : Fin 2) * 16 + 1 * k.val = k.val; rw [h1]; omega

/-- Window 5's block at every point is the whole of y. -/
theorem yall_apply (c : Dev nD) (t : Fin cfg0.N) (j : Fin 8192) (k : Fin 16) :
    (iblk0 (F := Ideal) V c 5 t : Vec Ideal S8192x16 .bf16) (ix2 j k) = (V c main_v1 : S8192x16.Idx → EReal) (ix2 j k) := by
  obtain ⟨-, -, -, -, -, ⟨h0, h1⟩, -⟩ := blocks_at t
  unfold iblk0
  rw [View.read_apply]
  show V c main_v1 _ = V c main_v1 _
  congr 1
  funext a
  apply Fin.ext
  match a with
  | ⟨0, _⟩ => show win0_5.index t (0 : Fin 2) * 8192 + 1 * j.val = j.val; rw [h0]; omega
  | ⟨1, _⟩ => show win0_5.index t (1 : Fin 2) * 16 + 1 * k.val = k.val; rw [h1]; omega

/-- Window 6's block at point t is rows 128 t .. 128 t + 127 of the column of y's squared norms. -/
theorem ycol_apply (c : Dev nD) (t : Fin cfg0.N) (p : Fin 128) (r : Fin 8192) (hr : r.val = 128 * t.val + p.val) :
    (iblk0 (F := Ideal) V c 6 t : Vec Ideal S128x1 .f32) (ix2 p (0 : Fin 1)) = (V c main_v8 : S8192x1.Idx → EReal) (ix2 r (0 : Fin 1)) := by
  obtain ⟨-, -, -, -, -, -, ⟨h0, h1⟩, -⟩ := blocks_at t
  unfold iblk0
  rw [View.read_apply]
  show V c main_v8 _ = V c main_v8 _
  congr 1
  funext a
  apply Fin.ext
  match a with
  | ⟨0, _⟩ => show win0_6.index t (0 : Fin 2) * 128 + 1 * p.val = r.val; rw [h0, hr]; omega
  | ⟨1, _⟩ => show win0_6.index t (1 : Fin 2) * 1 + 1 * 0 = 0; rw [h1]

/-- Window 7's block at every point is the whole row of y's squared norms. -/
theorem yrow_apply (c : Dev nD) (t : Fin cfg0.N) (j : Fin 8192) :
    (iblk0 (F := Ideal) V c 7 t : Vec Ideal S1x8192 .f32) (ix2 (0 : Fin 1) j) = (V c main_v9 : S1x8192.Idx → EReal) (ix2 (0 : Fin 1) j) := by
  obtain ⟨-, -, -, -, -, -, -, ⟨h0, h1⟩, -⟩ := blocks_at t
  unfold iblk0
  rw [View.read_apply]
  show V c main_v9 _ = V c main_v9 _
  congr 1
  funext a
  apply Fin.ext
  match a with
  | ⟨0, _⟩ => show win0_7.index t (0 : Fin 2) * 1 + 1 * 0 = 0; rw [h0]
  | ⟨1, _⟩ => show win0_7.index t (1 : Fin 2) * 8192 + 1 * j.val = j.val; rw [h1]; omega

/-! ## From the blocks to the arrays -/

/-- The row sums of x's Gaussian kernel matrix, as one function of the output array's index. -/
def rowSumsX (c : Dev nD) : S8192x1.Idx → EReal := fun i =>
  ∑ j : Fin 8192, Cert.Spec.gauss Cert.Spec.sX (fun i => V c main_v6 (ix2 i (0 : Fin 1))) (fun j => V c main_v7 (ix2 (0 : Fin 1) j))
    (Cert.Spec.gram fun i (k : Fin 128) => V c main_v0 (ix2 i k)) (i 0) j

/-- What point t writes back into the x output is block t of the row sums. -/
theorem flushedX_eq (c : Dev nD) (t : Fin cfg0.N) :
    (dat0 (F := Ideal) V c).flushed 8 t = ((cfg0.win 8).blk t).view.read (Elt Ideal) (rowSumsX V c) := by
  obtain ⟨-, -, -, -, -, -, -, -, ⟨h0, h1⟩, -⟩ := blocks_at t
  have hN : cfg0.N = 64 := N_0
  have ht : t.val < 64 := hN ▸ t.isLt
  show (cfg0.win 8).cut (grid0.coords t) ((dat0 (F := Ideal) V c).after 8 t) = _
  funext y
  obtain ⟨p, q, rfl⟩ : ∃ (p : Fin 128) (q : Fin 1), y = ix2 p q := ⟨y 0, y 1, eq_ix2 y⟩
  obtain rfl : q = 0 := Subsingleton.elim _ _
  rw [View.read_apply]
  have hp : p.val < 128 := p.isLt
  have he : ((cfg0.win 8).blk t).view.emb (ix2 p (0 : Fin 1)) = (ix2 (⟨128 * t.val + p.val, by omega⟩ : Fin 8192) (0 : Fin 1) : S8192x1.Idx) := by
    funext a
    apply Fin.ext
    match a with
    | ⟨0, _⟩ => show win0_8.index t (0 : Fin 2) * 128 + 1 * p.val = 128 * t.val + p.val; rw [h0]; omega
    | ⟨1, _⟩ => show win0_8.index t (1 : Fin 2) * 1 + 1 * 0 = 0; rw [h1]
  show k0_pay2 (iblk0 (F := Ideal) V c 0 t) (iblk0 (F := Ideal) V c 1 t) (iblk0 (F := Ideal) V c 2 t) (iblk0 (F := Ideal) V c 3 t) (ix2 p (0 : Fin 1))
    = rowSumsX V c (((cfg0.win 8).blk t).view.emb (ix2 p (0 : Fin 1)))
  rw [he]
  refine (statsX_apply (iblk0 (F := Ideal) V c 0 t) (iblk0 (F := Ideal) V c 1 t) (iblk0 (F := Ideal) V c 2 t) (iblk0 (F := Ideal) V c 3 t) p).trans ?_
  refine Finset.sum_congr rfl fun j _ => ?_
  have e2 := xcol_apply V c t p ⟨128 * t.val + p.val, by omega⟩ rfl
  have e3 := xrow_apply V c t j
  have e0 : ∀ k : Fin 128, (iblk0 (F := Ideal) V c 0 t : Vec Ideal S128x128 .bf16) (ix2 p k) = (V c main_v0 : S8192x128.Idx → EReal) (ix2 (⟨128 * t.val + p.val, by omega⟩ : Fin 8192) k) :=
    fun k => xrows_apply V c t p k ⟨128 * t.val + p.val, by omega⟩ rfl
  have e1 : ∀ k : Fin 128, (iblk0 (F := Ideal) V c 1 t : Vec Ideal S8192x128 .bf16) (ix2 j k) = (V c main_v0 : S8192x128.Idx → EReal) (ix2 j k) :=
    fun k => xall_apply V c t j k
  unfold Cert.Spec.gauss Cert.Spec.gram
  exact congrArg Ideal.exp (congrArg (· * Cert.Spec.sX) (congrArg (max · 0) (congrArg₂ (· - ·) (congrArg₂ (· + ·) e2 e3)
    (congrArg (Cert.Spec.two * ·) (Finset.sum_congr rfl fun k _ => congrArg₂ (· * ·) (e0 k) (e1 k))))))

/-- Every row of the x output is in the block of the point that its index over 128 names. -/
theorem coverX (i : S8192x1.Idx) : ∃ t : Fin cfg0.N, (cfg0.win 8).flush t = true ∧ i ∈ ((cfg0.win 8).blk t).view.set := by
  have hN : cfg0.N = 64 := N_0
  have hi0 : (i 0).val < 8192 := (i 0).isLt
  have hi1 : (i 1).val < 1 := (i 1).isLt
  have hlt : (i 0).val / 128 < cfg0.N := by rw [hN]; omega
  obtain ⟨-, -, -, -, -, -, -, -, ⟨h0, h1⟩, -⟩ := blocks_at ⟨(i 0).val / 128, hlt⟩
  refine ⟨⟨(i 0).val / 128, hlt⟩, flush0_8 _, ?_⟩
  show i ∈ ((View.whole main_v10_0).slice (win0_8.rect ⟨(i 0).val / 128, hlt⟩)).set
  rw [View.set_slice_whole, Rect.mem_set_unit]
  intro a
  match a with
  | ⟨0, _⟩ =>
    show win0_8.index ⟨(i 0).val / 128, hlt⟩ (0 : Fin 2) * 128 ≤ (i 0).val ∧ (i 0).val < win0_8.index ⟨(i 0).val / 128, hlt⟩ (0 : Fin 2) * 128 + 128
    rw [h0]
    show (i 0).val / 128 * 128 ≤ (i 0).val ∧ (i 0).val < (i 0).val / 128 * 128 + 128
    omega
  | ⟨1, _⟩ =>
    show win0_8.index ⟨(i 0).val / 128, hlt⟩ (1 : Fin 2) * 1 ≤ (i 1).val ∧ (i 1).val < win0_8.index ⟨(i 0).val / 128, hlt⟩ (1 : Fin 2) * 1 + 1
    rw [h1]
    omega

/-- The x output after region 0 is the row sums. -/
theorem finalX (c : Dev nD) : (dat0 (F := Ideal) V c).arrAt 8 cfg0.N = rowSumsX V c :=
  (dat0 (F := Ideal) V c).arrAt_eq_of_cover 8 (rowSumsX V c) (fun t _ => flushedX_eq V c t) (coverX)

/-- The row sums of y's Gaussian kernel matrix, as one function of the output array's index. -/
def rowSumsY (c : Dev nD) : S8192x1.Idx → EReal := fun i =>
  ∑ j : Fin 8192, Cert.Spec.gauss Cert.Spec.sY (fun i => V c main_v8 (ix2 i (0 : Fin 1))) (fun j => V c main_v9 (ix2 (0 : Fin 1) j))
    (Cert.Spec.gram fun i (k : Fin 16) => V c main_v1 (ix2 i k)) (i 0) j

/-- What point t writes back into the y output is block t of y's row sums. -/
theorem flushedY_eq (c : Dev nD) (t : Fin cfg0.N) :
    (dat0 (F := Ideal) V c).flushed 9 t = ((cfg0.win 9).blk t).view.read (Elt Ideal) (rowSumsY V c) := by
  obtain ⟨-, -, -, -, -, -, -, -, -, ⟨h0, h1⟩⟩ := blocks_at t
  have hN : cfg0.N = 64 := N_0
  have ht : t.val < 64 := hN ▸ t.isLt
  show (cfg0.win 9).cut (grid0.coords t) ((dat0 (F := Ideal) V c).after 9 t) = _
  funext y
  obtain ⟨p, q, rfl⟩ : ∃ (p : Fin 128) (q : Fin 1), y = ix2 p q := ⟨y 0, y 1, eq_ix2 y⟩
  obtain rfl : q = 0 := Subsingleton.elim _ _
  rw [View.read_apply]
  have hp : p.val < 128 := p.isLt
  have he : ((cfg0.win 9).blk t).view.emb (ix2 p (0 : Fin 1)) = (ix2 (⟨128 * t.val + p.val, by omega⟩ : Fin 8192) (0 : Fin 1) : S8192x1.Idx) := by
    funext a
    apply Fin.ext
    match a with
    | ⟨0, _⟩ => show win0_9.index t (0 : Fin 2) * 128 + 1 * p.val = 128 * t.val + p.val; rw [h0]; omega
    | ⟨1, _⟩ => show win0_9.index t (1 : Fin 2) * 1 + 1 * 0 = 0; rw [h1]
  show k0_pay1 (k0_pay3 (iblk0 (F := Ideal) V c 4 t) (iblk0 (F := Ideal) V c 5 t)) (k0_pay4 (iblk0 (F := Ideal) V c 6 t)) (k0_pay5 (iblk0 (F := Ideal) V c 7 t)) (ix2 p (0 : Fin 1))
    = rowSumsY V c (((cfg0.win 9).blk t).view.emb (ix2 p (0 : Fin 1)))
  rw [he]
  refine (statsY_apply (iblk0 (F := Ideal) V c 4 t) (iblk0 (F := Ideal) V c 5 t) (iblk0 (F := Ideal) V c 6 t) (iblk0 (F := Ideal) V c 7 t) p).trans ?_
  refine Finset.sum_congr rfl fun j _ => ?_
  have e2 := ycol_apply V c t p ⟨128 * t.val + p.val, by omega⟩ rfl
  have e3 := yrow_apply V c t j
  have e0 : ∀ k : Fin 16, (iblk0 (F := Ideal) V c 4 t : Vec Ideal S128x16 .bf16) (ix2 p k) = (V c main_v1 : S8192x16.Idx → EReal) (ix2 (⟨128 * t.val + p.val, by omega⟩ : Fin 8192) k) :=
    fun k => yrows_apply V c t p k ⟨128 * t.val + p.val, by omega⟩ rfl
  have e1 : ∀ k : Fin 16, (iblk0 (F := Ideal) V c 5 t : Vec Ideal S8192x16 .bf16) (ix2 j k) = (V c main_v1 : S8192x16.Idx → EReal) (ix2 j k) :=
    fun k => yall_apply V c t j k
  unfold Cert.Spec.gauss Cert.Spec.gram
  exact congrArg Ideal.exp (congrArg (· * Cert.Spec.sY) (congrArg (max · 0) (congrArg₂ (· - ·) (congrArg₂ (· + ·) e2 e3)
    (congrArg (Cert.Spec.two * ·) (Finset.sum_congr rfl fun k _ => congrArg₂ (· * ·) (e0 k) (e1 k))))))

/-- Every row of the y output is in the block of the point that its index over 128 names. -/
theorem coverY (i : S8192x1.Idx) : ∃ t : Fin cfg0.N, (cfg0.win 9).flush t = true ∧ i ∈ ((cfg0.win 9).blk t).view.set := by
  have hN : cfg0.N = 64 := N_0
  have hi0 : (i 0).val < 8192 := (i 0).isLt
  have hi1 : (i 1).val < 1 := (i 1).isLt
  have hlt : (i 0).val / 128 < cfg0.N := by rw [hN]; omega
  obtain ⟨-, -, -, -, -, -, -, -, -, ⟨h0, h1⟩⟩ := blocks_at ⟨(i 0).val / 128, hlt⟩
  refine ⟨⟨(i 0).val / 128, hlt⟩, flush0_9 _, ?_⟩
  show i ∈ ((View.whole main_v10_1).slice (win0_9.rect ⟨(i 0).val / 128, hlt⟩)).set
  rw [View.set_slice_whole, Rect.mem_set_unit]
  intro a
  match a with
  | ⟨0, _⟩ =>
    show win0_9.index ⟨(i 0).val / 128, hlt⟩ (0 : Fin 2) * 128 ≤ (i 0).val ∧ (i 0).val < win0_9.index ⟨(i 0).val / 128, hlt⟩ (0 : Fin 2) * 128 + 128
    rw [h0]
    show (i 0).val / 128 * 128 ≤ (i 0).val ∧ (i 0).val < (i 0).val / 128 * 128 + 128
    omega
  | ⟨1, _⟩ =>
    show win0_9.index ⟨(i 0).val / 128, hlt⟩ (1 : Fin 2) * 1 ≤ (i 1).val ∧ (i 1).val < win0_9.index ⟨(i 0).val / 128, hlt⟩ (1 : Fin 2) * 1 + 1
    rw [h1]
    omega

/-- The y output after region 0 is y's row sums. -/
theorem finalY (c : Dev nD) : (dat0 (F := Ideal) V c).arrAt 9 cfg0.N = rowSumsY V c :=
  (dat0 (F := Ideal) V c).arrAt_eq_of_cover 9 (rowSumsY V c) (fun t _ => flushedY_eq V c t) (coverY)

/-! ## Region 0's two outputs at a row -/

/-- Row `r` of the x output after region 0: the sum over all 8192 columns of the Gaussian entry built from the column
    of squared norms (window 2's array), the row of squared norms (window 3's) and the inner products of x's rows. -/
theorem arrAt0_8 (c : Dev nD) (r : Fin 8192) :
    (dat0 (F := Ideal) V c).arrAt 8 cfg0.N (ix2 r (0 : Fin 1))
      = ∑ j : Fin 8192, Cert.Spec.gauss Cert.Spec.sX (fun i => V c main_v6 (ix2 i (0 : Fin 1))) (fun j => V c main_v7 (ix2 (0 : Fin 1) j))
          (Cert.Spec.gram fun i (k : Fin 128) => V c main_v0 (ix2 i k)) r j := by
  rw [finalX V c]
  rfl

/-- The same for y. -/
theorem arrAt0_9 (c : Dev nD) (r : Fin 8192) :
    (dat0 (F := Ideal) V c).arrAt 9 cfg0.N (ix2 r (0 : Fin 1))
      = ∑ j : Fin 8192, Cert.Spec.gauss Cert.Spec.sY (fun i => V c main_v8 (ix2 i (0 : Fin 1))) (fun j => V c main_v9 (ix2 (0 : Fin 1) j))
          (Cert.Spec.gram fun i (k : Fin 16) => V c main_v1 (ix2 i k)) r j := by
  rw [finalY V c]
  rfl

end Cert.KernelIdeal.Val

end
-- ==== Proof.KI.Val1.lean ====
/- What region 1 leaves in its 1 x 1 output array, at the extended reals: the sum over all entries of the product of the two centred matrices. -/
import proofs.«175792_j13073880449542_1_alg».proof.Proof.KI.Data
import proofs.«175792_j13073880449542_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Fr Idealize.ShloMosaic.ValueIdx

variable (V : (c : Dev nD) → (b : Ref sig .tc) → Buf (Elt Ideal) ((c : Thread nD τ).loc b))

/-- The x factor at (i, j) as region 1 computes it from the arrays it finds. -/
def facX (c : Dev nD) (i j : Fin 8192) : EReal :=
  Cert.Spec.gauss Cert.Spec.sX (fun i => V c main_v6 (ix2 i (0 : Fin 1))) (fun j => V c main_v7 (ix2 (0 : Fin 1) j))
      (Cert.Spec.gram fun i (k : Fin 128) => V c main_v0 (ix2 i k)) i j
    - V c main_v14 (ix2 i (0 : Fin 1)) - V c main_v17 (ix2 (0 : Fin 1) j) + V c main_v20 (ix2 (0 : Fin 1) (0 : Fin 1))

/-- The y factor. -/
def facY (c : Dev nD) (i j : Fin 8192) : EReal :=
  Cert.Spec.gauss Cert.Spec.sY (fun i => V c main_v8 (ix2 i (0 : Fin 1))) (fun j => V c main_v9 (ix2 (0 : Fin 1) j))
      (Cert.Spec.gram fun i (k : Fin 16) => V c main_v1 (ix2 i k)) i j
    - V c main_v16 (ix2 i (0 : Fin 1)) - V c main_v18 (ix2 (0 : Fin 1) j) + V c main_v22 (ix2 (0 : Fin 1) (0 : Fin 1))

namespace R1

/-! ## The two inner products: row p of the left block against row j of the right array -/

theorem lhs128_row (j : S64x8192.Idx) (q : dot_S64x128_S8192x128_S64x8192_1_1_0_0_n_n.contr.Idx) :
    (dot_S64x128_S8192x128_S64x8192_1_1_0_0_n_n.lhsIdx j q 0).val = (j 0).val := by
  unfold DotDims.lhsIdx
  rw [dif_neg (show ¬(0 : Fin S64x128.rank) ∈ dot_S64x128_S8192x128_S64x8192_1_1_0_0_n_n.lhsBatch by decide),
    dif_pos (show (0 : Fin S64x128.rank) ∈ dot_S64x128_S8192x128_S64x8192_1_1_0_0_n_n.lhsNonContracting by decide)]
  rfl
theorem lhs128_inner (j : S64x8192.Idx) (q : dot_S64x128_S8192x128_S64x8192_1_1_0_0_n_n.contr.Idx) :
    (dot_S64x128_S8192x128_S64x8192_1_1_0_0_n_n.lhsIdx j q 1).val = (q ⟨0, by decide⟩).val :=
  dot_S64x128_S8192x128_S64x8192_1_1_0_0_n_n.lhsIdx_val_of_single rfl j q
theorem rhs128_row (j : S64x8192.Idx) (q : dot_S64x128_S8192x128_S64x8192_1_1_0_0_n_n.contr.Idx) :
    (dot_S64x128_S8192x128_S64x8192_1_1_0_0_n_n.rhsIdx j q 0).val = (j 1).val := by
  unfold DotDims.rhsIdx
  rw [dif_neg (show ¬(0 : Fin S8192x128.rank) ∈ dot_S64x128_S8192x128_S64x8192_1_1_0_0_n_n.rhsBatch by decide),
    dif_pos (show (0 : Fin S8192x128.rank) ∈ dot_S64x128_S8192x128_S64x8192_1_1_0_0_n_n.rhsNonContracting by decide)]
  rfl
theorem rhs128_inner (j : S64x8192.Idx) (q : dot_S64x128_S8192x128_S64x8192_1_1_0_0_n_n.contr.Idx) :
    (dot_S64x128_S8192x128_S64x8192_1_1_0_0_n_n.rhsIdx j q 1).val = (q ⟨0, by decide⟩).val :=
  dot_S64x128_S8192x128_S64x8192_1_1_0_0_n_n.rhsIdx_val_of_single rfl j q

/-- The 128-deep product into a zero accumulator at (p, j): row p of the left operand against row j of the right one. -/
theorem gram128_apply (A : FVec Ideal S64x128 .bf16) (B : FVec Ideal S8192x128 .bf16) (p : Fin 64) (j : Fin 8192) :
    matmul dot_S64x128_S8192x128_S64x8192_1_1_0_0_n_n none A B (constant S64x8192 .f32 0x00000000#32) (ix2 p j)
      = ∑ k : Fin 128, A (ix2 p k) * B (ix2 j k) := by
  refine (Ideal.matmul_constant_zero_apply dot_S64x128_S8192x128_S64x8192_1_1_0_0_n_n none A B (ix2 p j)).trans ?_
  rw [← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 p j) ((contrEquiv1 dot_S64x128_S8192x128_S64x8192_1_1_0_0_n_n 128 rfl rfl).symm k) = ix2 p k :=
    funext fun a => Fin.ext (by
      match a with
      | ⟨0, _⟩ => exact lhs128_row _ _
      | ⟨1, _⟩ => exact (lhs128_inner _ _).trans hk)
  have er : dot_S64x128_S8192x128_S64x8192_1_1_0_0_n_n.rhsIdx (ix2 p j) ((contrEquiv1 dot_S64x128_S8192x128_S64x8192_1_1_0_0_n_n 128 rfl rfl).symm k) = ix2 j k :=
    funext fun a => Fin.ext (by
      match a with
      | ⟨0, _⟩ => exact rhs128_row _ _
      | ⟨1, _⟩ => exact (rhs128_inner _ _).trans hk)
  exact congrArg₂ (· * ·) (congrArg A el) (congrArg B er)

theorem lhs16_row (j : S64x8192.Idx) (q : dot_S64x16_S8192x16_S64x8192_1_1_0_0_n_n.contr.Idx) :
    (dot_S64x16_S8192x16_S64x8192_1_1_0_0_n_n.lhsIdx j q 0).val = (j 0).val := by
  unfold DotDims.lhsIdx
  rw [dif_neg (show ¬(0 : Fin S64x16.rank) ∈ dot_S64x16_S8192x16_S64x8192_1_1_0_0_n_n.lhsBatch by decide),
    dif_pos (show (0 : Fin S64x16.rank) ∈ dot_S64x16_S8192x16_S64x8192_1_1_0_0_n_n.lhsNonContracting by decide)]
  rfl
theorem lhs16_inner (j : S64x8192.Idx) (q : dot_S64x16_S8192x16_S64x8192_1_1_0_0_n_n.contr.Idx) :
    (dot_S64x16_S8192x16_S64x8192_1_1_0_0_n_n.lhsIdx j q 1).val = (q ⟨0, by decide⟩).val :=
  dot_S64x16_S8192x16_S64x8192_1_1_0_0_n_n.lhsIdx_val_of_single rfl j q
theorem rhs16_row (j : S64x8192.Idx) (q : dot_S64x16_S8192x16_S64x8192_1_1_0_0_n_n.contr.Idx) :
    (dot_S64x16_S8192x16_S64x8192_1_1_0_0_n_n.rhsIdx j q 0).val = (j 1).val := by
  unfold DotDims.rhsIdx
  rw [dif_neg (show ¬(0 : Fin S8192x16.rank) ∈ dot_S64x16_S8192x16_S64x8192_1_1_0_0_n_n.rhsBatch by decide),
    dif_pos (show (0 : Fin S8192x16.rank) ∈ dot_S64x16_S8192x16_S64x8192_1_1_0_0_n_n.rhsNonContracting by decide)]
  rfl
theorem rhs16_inner (j : S64x8192.Idx) (q : dot_S64x16_S8192x16_S64x8192_1_1_0_0_n_n.contr.Idx) :
    (dot_S64x16_S8192x16_S64x8192_1_1_0_0_n_n.rhsIdx j q 1).val = (q ⟨0, by decide⟩).val :=
  dot_S64x16_S8192x16_S64x8192_1_1_0_0_n_n.rhsIdx_val_of_single rfl j q

/-- The 16-deep product likewise. -/
theorem gram16_apply (A : FVec Ideal S64x16 .bf16) (B : FVec Ideal S8192x16 .bf16) (p : Fin 64) (j : Fin 8192) :
    matmul dot_S64x16_S8192x16_S64x8192_1_1_0_0_n_n none A B (constant S64x8192 .f32 0x00000000#32) (ix2 p j)
      = ∑ k : Fin 16, A (ix2 p k) * B (ix2 j k) := by
  refine (Ideal.matmul_constant_zero_apply dot_S64x16_S8192x16_S64x8192_1_1_0_0_n_n none A B (ix2 p j)).trans ?_
  rw [← Equiv.sum_comp (contrEquiv1 dot_S64x16_S8192x16_S64x8192_1_1_0_0_n_n 16 rfl rfl).symm]
  refine Finset.sum_congr rfl fun k _ => ?_
  have hk := contrEquiv1_symm_val dot_S64x16_S8192x16_S64x8192_1_1_0_0_n_n 16 rfl rfl k
  have el : dot_S64x16_S8192x16_S64x8192_1_1_0_0_n_n.lhsIdx (ix2 p j) ((contrEquiv1 dot_S64x16_S8192x16_S64x8192_1_1_0_0_n_n 16 rfl rfl).symm k) = ix2 p k :=
    funext fun a => Fin.ext (by
      match a with
      | ⟨0, _⟩ => exact lhs16_row _ _
      | ⟨1, _⟩ => exact (lhs16_inner _ _).trans hk)
  have er : dot_S64x16_S8192x16_S64x8192_1_1_0_0_n_n.rhsIdx (ix2 p j) ((contrEquiv1 dot_S64x16_S8192x16_S64x8192_1_1_0_0_n_n 16 rfl rfl).symm k) = ix2 j k :=
    funext fun a => Fin.ext (by
      match a with
      | ⟨0, _⟩ => exact rhs16_row _ _
      | ⟨1, _⟩ => exact (rhs16_inner _ _).trans hk)
  exact congrArg₂ (· * ·) (congrArg A el) (congrArg B er)

/-! ## Columns, rows and single entries spread over a block; sums along an axis kept as a unit axis -/

section Layout
variable {α : Type}

/-- An `[a, 1]` column spread to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array spread to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The sum along the lanes of a 64 x 8192 array, at row `p`. -/
theorem laneSum_apply (src : FVec Ideal S64x8192 .f32) (h : S64x8192.Reduces [1] S64) (hφ : FKind.Formats .f32)
    (hacc : (0x00000000#32 : BitVec 32) = FKind.add.neutral .f32 hφ) (p : Fin 64) :
    multiReduction .add [1] S64 src 0x00000000#32 h hφ hacc (ix1 p) = ∑ j : Fin 8192, src (ix2 p j) := by
  refine (Ideal.multiReduction_add_single src 0x00000000#32 h hφ hacc (ix1 p)).trans ?_
  refine Finset.sum_congr rfl fun j _ => congrArg src ?_
  funext a
  apply Fin.ext
  match a with
  | ⟨0, _⟩ => rfl
  | ⟨1, _⟩ => rfl

/-- The sum down the one column of a 64 x 1 array. -/
theorem colSum_apply (src : FVec Ideal S64x1 .f32) (h : S64x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ p : Fin 64, src (ix2 p (0 : Fin 1)) := by
  refine (Ideal.multiReduction_add_single src 0x00000000#32 h hφ hacc (ix1 u)).trans ?_
  refine Finset.sum_congr rfl fun p _ => congrArg src ?_
  funext a
  apply Fin.ext
  match a with
  | ⟨0, _⟩ => rfl
  | ⟨1, _⟩ =>
    show (u : ℕ) = 0
    omega

/-- The exponential of an array, at an index. -/
theorem exp_apply {s : Shape} {φ : FTy} (a : FVec Ideal s φ) (i : s.Idx) : exp a i = Ideal.exp (a i) := rfl

/-! ## The body's two payloads at an index -/

/-- The centred x matrix's block at (p, j): from the block's rows of x and of the squared norms and row means, the whole
    of x, of the squared norms and of the row means as rows, and the total mean. -/
theorem pay2_apply (x0 : Vec Ideal S64x128 .bf16) (x1 : Vec Ideal S8192x128 .bf16) (x2 : Vec Ideal S64x1 .f32) (x3 : Vec Ideal S1x8192 .f32)
    (x4 : Vec Ideal S64x1 .f32) (x5 : Vec Ideal S1x8192 .f32) (x6 : Vec Ideal S1x1 .f32) (p : Fin 64) (j : Fin 8192) :
    k1_pay2 x0 x1 x2 x3 x4 x5 x6 (ix2 p j)
      = Ideal.exp (max (x2 (ix2 p (0 : Fin 1)) + x3 (ix2 (0 : Fin 1) j) - Cert.Spec.two * ∑ k : Fin 128, x0 (ix2 p k) * x1 (ix2 j k)) 0 * Cert.Spec.sX)
        - x4 (ix2 p (0 : Fin 1)) - x5 (ix2 (0 : Fin 1) j) + x6 (ix2 (0 : Fin 1) (0 : Fin 1)) := by
  unfold k1_pay2
  simp only [shapeCast_self, addf_apply, subf_apply, mulf_apply, maximumf_apply, exp_apply, broadcast_apply,
    broadcastTo_a1_ab_apply, broadcastTo_1b_ab_apply, broadcastTo_11_ab_apply, gram128_apply, Ideal.ofBits_def, Ideal.ofBits_zero_f32]

/-- The step's payload at its one entry: what the output held plus the sum, over the block's 64 rows and all 8192
    columns, of the centred x entry times the centred y entry. -/
theorem pay3_apply (v34 : FVec Ideal S64x8192 .f32) (x7 : Vec Ideal S64x16 .bf16) (x8 : Vec Ideal S8192x16 .bf16) (x9 : Vec Ideal S64x1 .f32)
    (x10 : Vec Ideal S1x8192 .f32) (x11 : Vec Ideal S64x1 .f32) (x12 : Vec Ideal S1x8192 .f32) (x13 : Vec Ideal S1x1 .f32)
    (prev : Vec Ideal S1x1 .f32) :
    k1_pay3 v34 x7 x8 x9 x10 x11 x12 x13 prev (ix2 (0 : Fin 1) (0 : Fin 1))
      = prev (ix2 (0 : Fin 1) (0 : Fin 1)) + ∑ p : Fin 64, ∑ j : Fin 8192, v34 (ix2 p j) *
          (Ideal.exp (max (x9 (ix2 p (0 : Fin 1)) + x10 (ix2 (0 : Fin 1) j) - Cert.Spec.two * ∑ k : Fin 16, x7 (ix2 p k) * x8 (ix2 j k)) 0 * Cert.Spec.sY)
            - x11 (ix2 p (0 : Fin 1)) - x12 (ix2 (0 : Fin 1) j) + x13 (ix2 (0 : Fin 1) (0 : Fin 1))) := by
  unfold k1_pay3
  simp only [shapeCast_self]
  refine (addf_apply _ _ _).trans ?_
  refine congrArg (prev (ix2 (0 : Fin 1) (0 : Fin 1)) + ·) ?_
  refine (shapeCast_a_1a_apply _ _ (0 : Fin 1) (0 : Fin 1)).trans ?_
  refine (colSum_apply _ _ _ _ (0 : Fin 1)).trans ?_
  refine Finset.sum_congr rfl fun p _ => ?_
  refine (shapeCast_a_a1_apply _ _ p (0 : Fin 1)).trans ?_
  refine (laneSum_apply _ _ _ _ p).trans ?_
  refine Finset.sum_congr rfl fun j _ => ?_
  simp only [addf_apply, subf_apply, mulf_apply, maximumf_apply, exp_apply, broadcast_apply,
    broadcastTo_a1_ab_apply, broadcastTo_1b_ab_apply, broadcastTo_11_ab_apply, gram16_apply, Ideal.ofBits_def, Ideal.ofBits_zero_f32]

/-- The zero the first point stores, at its one entry. -/
theorem pay1_apply : (k1_pay1 (F := Ideal)) (ix2 (0 : Fin 1) (0 : Fin 1)) = 0 := by
  show Ideal.ofBits .f32 0x00000000#32 = 0
  exact Ideal.ofBits_zero_f32

/-- One point's step at the output's one entry: what it held plus the sum over the block's 64 rows and all 8192 columns
    of the product of the two centred entries. -/
theorem step1_apply (prev : Vec Ideal S1x1 .f32) (x0 : Vec Ideal S64x128 .bf16) (x1 : Vec Ideal S8192x128 .bf16) (x2 : Vec Ideal S64x1 .f32)
    (x3 : Vec Ideal S1x8192 .f32) (x4 : Vec Ideal S64x1 .f32) (x5 : Vec Ideal S1x8192 .f32) (x6 : Vec Ideal S1x1 .f32)
    (x7 : Vec Ideal S64x16 .bf16) (x8 : Vec Ideal S8192x16 .bf16) (x9 : Vec Ideal S64x1 .f32) (x10 : Vec Ideal S1x8192 .f32)
    (x11 : Vec Ideal S64x1 .f32) (x12 : Vec Ideal S1x8192 .f32) (x13 : Vec Ideal S1x1 .f32) :
    step1 prev x0 x1 x2 x3 x4 x5 x6 x7 x8 x9 x10 x11 x12 x13 (ix2 (0 : Fin 1) (0 : Fin 1))
      = prev (ix2 (0 : Fin 1) (0 : Fin 1)) + ∑ p : Fin 64, ∑ j : Fin 8192,
          (Ideal.exp (max (x2 (ix2 p (0 : Fin 1)) + x3 (ix2 (0 : Fin 1) j) - Cert.Spec.two * ∑ k : Fin 128, x0 (ix2 p k) * x1 (ix2 j k)) 0 * Cert.Spec.sX)
            - x4 (ix2 p (0 : Fin 1)) - x5 (ix2 (0 : Fin 1) j) + x6 (ix2 (0 : Fin 1) (0 : Fin 1)))
          * (Ideal.exp (max (x9 (ix2 p (0 : Fin 1)) + x10 (ix2 (0 : Fin 1) j) - Cert.Spec.two * ∑ k : Fin 16, x7 (ix2 p k) * x8 (ix2 j k)) 0 * Cert.Spec.sY)
            - x11 (ix2 p (0 : Fin 1)) - x12 (ix2 (0 : Fin 1) j) + x13 (ix2 (0 : Fin 1) (0 : Fin 1))) := by
  unfold step1
  refine (pay3_apply _ x7 x8 x9 x10 x11 x12 x13 prev).trans ?_
  refine congrArg (prev (ix2 (0 : Fin 1) (0 : Fin 1)) + ·) ?_
  refine Finset.sum_congr rfl fun p _ => Finset.sum_congr rfl fun j _ => ?_
  rw [pay2_apply]

/-! ## Regrouping the 128 blocks of 64 rows into the 8192 rows -/

/-- Row `p` of row block `n`. -/
def rowOf (n : ℕ) (hn : n < 128) (p : Fin 64) : Fin 8192 := ⟨64 * n + p.val, by have := p.isLt; omega⟩

/-- A sum over the 128 blocks of the sums over each block's 64 rows is the sum over all 8192 rows. -/
theorem sum_rowOf (g : Fin 8192 → EReal) : ∑ t : Fin 128, ∑ p : Fin 64, g (rowOf t.val t.isLt p) = ∑ i : Fin 8192, g i := by
  rw [← Fintype.sum_prod_type' (f := fun (t : Fin 128) (p : Fin 64) => g (rowOf t.val t.isLt p))]
  exact Fintype.sum_equiv (finProdFinEquiv : Fin 128 × Fin 64 ≃ Fin 8192) _ _ fun x =>
    congrArg g (Fin.ext (by show 64 * x.1.val + x.2.val = x.2.val + 64 * x.1.val; omega))

/-! ## Region 1's input blocks, read off the arrays the region finds

At point `t` a row-block window holds rows `64 t … 64 t + 63` of its array: its block index there is `(t, 0)`. The other
windows hold their whole array at every point: their block index is `(0, 0)` at each of the 128 points. -/

theorem lt128 (t : Fin cfg1.N) : t.val < 128 := lt_of_lt_of_eq t.isLt N_1

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx1_7 : ∀ t : Fin cfg1.N, win1_7.index t (0 : Fin 2) = t.val ∧ win1_7.index t (1 : Fin 2) = 0 :=
  (by decide +kernel : ∀ t : Fin grid1.N, win1_7.index t (0 : Fin 2) = t.val ∧ win1_7.index t (1 : Fin 2) = 0)
theorem idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx1_9 : ∀ t : Fin cfg1.N, win1_9.index t (0 : Fin 2) = t.val ∧ win1_9.index t (1 : Fin 2) = 0 :=
  (by decide +kernel : ∀ t : Fin grid1.N, win1_9.index t (0 : Fin 2) = t.val ∧ win1_9.index t (1 : Fin 2) = 0)
theorem idx1_10 : ∀ t : Fin cfg1.N, win1_10.index t (0 : Fin 2) = 0 ∧ win1_10.index t (1 : Fin 2) = 0 :=
  (by decide +kernel : ∀ t : Fin grid1.N, win1_10.index t (0 : Fin 2) = 0 ∧ win1_10.index t (1 : Fin 2) = 0)
theorem idx1_11 : ∀ t : Fin cfg1.N, win1_11.index t (0 : Fin 2) = t.val ∧ win1_11.index t (1 : Fin 2) = 0 :=
  (by decide +kernel : ∀ t : Fin grid1.N, win1_11.index t (0 : Fin 2) = t.val ∧ win1_11.index t (1 : Fin 2) = 0)
theorem idx1_12 : ∀ t : Fin cfg1.N, win1_12.index t (0 : Fin 2) = 0 ∧ win1_12.index t (1 : Fin 2) = 0 :=
  (by decide +kernel : ∀ t : Fin grid1.N, win1_12.index t (0 : Fin 2) = 0 ∧ win1_12.index t (1 : Fin 2) = 0)
theorem idx1_13 : ∀ t : Fin cfg1.N, win1_13.index t (0 : Fin 2) = 0 ∧ win1_13.index t (1 : Fin 2) = 0 :=
  (by decide +kernel : ∀ t : Fin grid1.N, win1_13.index t (0 : Fin 2) = 0 ∧ win1_13.index t (1 : Fin 2) = 0)
theorem idx1_14 : ∀ t : Fin cfg1.N, win1_14.index t (0 : Fin 2) = 0 ∧ win1_14.index t (1 : Fin 2) = 0 :=
  (by decide +kernel : ∀ t : Fin grid1.N, win1_14.index t (0 : Fin 2) = 0 ∧ win1_14.index t (1 : Fin 2) = 0)

/-- The x rows of the point's block. -/
abbrev xRows (c : Dev nD) (t : Fin cfg1.N) : Vec Ideal S64x128 .bf16 := iblk1 V c 0 t
/-- The whole of x. -/
abbrev xAll (c : Dev nD) (t : Fin cfg1.N) : Vec Ideal S8192x128 .bf16 := iblk1 V c 1 t
/-- The block's squared norms of x, as a column. -/
abbrev xSqCol (c : Dev nD) (t : Fin cfg1.N) : Vec Ideal S64x1 .f32 := iblk1 V c 2 t
/-- All squared norms of x, as a row. -/
abbrev xSqRow (c : Dev nD) (t : Fin cfg1.N) : Vec Ideal S1x8192 .f32 := iblk1 V c 3 t
/-- The block's row means of the x matrix, as a column. -/
abbrev xMeanCol (c : Dev nD) (t : Fin cfg1.N) : Vec Ideal S64x1 .f32 := iblk1 V c 4 t
/-- All row means of the x matrix, as a row. -/
abbrev xMeanRow (c : Dev nD) (t : Fin cfg1.N) : Vec Ideal S1x8192 .f32 := iblk1 V c 5 t
/-- The total mean of the x matrix. -/
abbrev xMeanAll (c : Dev nD) (t : Fin cfg1.N) : Vec Ideal S1x1 .f32 := iblk1 V c 6 t
/-- The y rows of the point's block. -/
abbrev yRows (c : Dev nD) (t : Fin cfg1.N) : Vec Ideal S64x16 .bf16 := iblk1 V c 7 t
/-- The whole of y. -/
abbrev yAll (c : Dev nD) (t : Fin cfg1.N) : Vec Ideal S8192x16 .bf16 := iblk1 V c 8 t
/-- The block's squared norms of y, as a column. -/
abbrev ySqCol (c : Dev nD) (t : Fin cfg1.N) : Vec Ideal S64x1 .f32 := iblk1 V c 9 t
/-- All squared norms of y, as a row. -/
abbrev ySqRow (c : Dev nD) (t : Fin cfg1.N) : Vec Ideal S1x8192 .f32 := iblk1 V c 10 t
/-- The block's row means of the y matrix, as a column. -/
abbrev yMeanCol (c : Dev nD) (t : Fin cfg1.N) : Vec Ideal S64x1 .f32 := iblk1 V c 11 t
/-- All row means of the y matrix, as a row. -/
abbrev yMeanRow (c : Dev nD) (t : Fin cfg1.N) : Vec Ideal S1x8192 .f32 := iblk1 V c 12 t
/-- The total mean of the y matrix. -/
abbrev yMeanAll (c : Dev nD) (t : Fin cfg1.N) : Vec Ideal S1x1 .f32 := iblk1 V c 13 t

theorem xRows_apply (c : Dev nD) (t : Fin cfg1.N) (p : Fin 64) (k : Fin 128) :
    xRows V c t (ix2 p k) = V c main_v0 (ix2 (rowOf t.val (lt128 t) p) k) := by
  obtain ⟨e0, e1⟩ := idx1_0 t
  show ((cfg1.win 0).blk t).view.read (Elt Ideal) (V c main_v0) (ix2 p k) = _
  rw [View.read_apply]
  show V c main_v0 (((cfg1.win 0).blk t).view.emb (ix2 p k)) = V c main_v0 (ix2 (rowOf t.val (lt128 t) p) k)
  refine congrArg (V c main_v0) ?_
  funext a; apply Fin.ext
  match a with
  | ⟨0, _⟩ => show win1_0.index t (0 : Fin 2) * 64 + 1 * p.val = 64 * t.val + p.val; omega
  | ⟨1, _⟩ => show win1_0.index t (1 : Fin 2) * 128 + 1 * k.val = k.val; omega

theorem xAll_apply (c : Dev nD) (t : Fin cfg1.N) (j : Fin 8192) (k : Fin 128) :
    xAll V c t (ix2 j k) = V c main_v0 (ix2 j k) := by
  obtain ⟨e0, e1⟩ := idx1_1 t
  show ((cfg1.win 1).blk t).view.read (Elt Ideal) (V c main_v0) (ix2 j k) = _
  rw [View.read_apply]
  show V c main_v0 (((cfg1.win 1).blk t).view.emb (ix2 j k)) = V c main_v0 (ix2 j k)
  refine congrArg (V c main_v0) ?_
  funext a; apply Fin.ext
  match a with
  | ⟨0, _⟩ => show win1_1.index t (0 : Fin 2) * 8192 + 1 * j.val = j.val; omega
  | ⟨1, _⟩ => show win1_1.index t (1 : Fin 2) * 128 + 1 * k.val = k.val; omega

theorem xSqCol_apply (c : Dev nD) (t : Fin cfg1.N) (p : Fin 64) :
    xSqCol V c t (ix2 p (0 : Fin 1)) = V c main_v6 (ix2 (rowOf t.val (lt128 t) p) (0 : Fin 1)) := by
  obtain ⟨e0, e1⟩ := idx1_2 t
  show ((cfg1.win 2).blk t).view.read (Elt Ideal) (V c main_v6) (ix2 p (0 : Fin 1)) = _
  rw [View.read_apply]
  show V c main_v6 (((cfg1.win 2).blk t).view.emb (ix2 p (0 : Fin 1))) = V c main_v6 (ix2 (rowOf t.val (lt128 t) p) (0 : Fin 1))
  refine congrArg (V c main_v6) ?_
  funext a; apply Fin.ext
  match a with
  | ⟨0, _⟩ => show win1_2.index t (0 : Fin 2) * 64 + 1 * p.val = 64 * t.val + p.val; omega
  | ⟨1, _⟩ => show win1_2.index t (1 : Fin 2) * 1 + 1 * 0 = 0; omega

theorem xSqRow_apply (c : Dev nD) (t : Fin cfg1.N) (j : Fin 8192) :
    xSqRow V c t (ix2 (0 : Fin 1) j) = V c main_v7 (ix2 (0 : Fin 1) j) := by
  obtain ⟨e0, e1⟩ := idx1_3 t
  show ((cfg1.win 3).blk t).view.read (Elt Ideal) (V c main_v7) (ix2 (0 : Fin 1) j) = _
  rw [View.read_apply]
  show V c main_v7 (((cfg1.win 3).blk t).view.emb (ix2 (0 : Fin 1) j)) = V c main_v7 (ix2 (0 : Fin 1) j)
  refine congrArg (V c main_v7) ?_
  funext a; apply Fin.ext
  match a with
  | ⟨0, _⟩ => show win1_3.index t (0 : Fin 2) * 1 + 1 * 0 = 0; omega
  | ⟨1, _⟩ => show win1_3.index t (1 : Fin 2) * 8192 + 1 * j.val = j.val; omega

theorem xMeanCol_apply (c : Dev nD) (t : Fin cfg1.N) (p : Fin 64) :
    xMeanCol V c t (ix2 p (0 : Fin 1)) = V c main_v14 (ix2 (rowOf t.val (lt128 t) p) (0 : Fin 1)) := by
  obtain ⟨e0, e1⟩ := idx1_4 t
  show ((cfg1.win 4).blk t).view.read (Elt Ideal) (V c main_v14) (ix2 p (0 : Fin 1)) = _
  rw [View.read_apply]
  show V c main_v14 (((cfg1.win 4).blk t).view.emb (ix2 p (0 : Fin 1))) = V c main_v14 (ix2 (rowOf t.val (lt128 t) p) (0 : Fin 1))
  refine congrArg (V c main_v14) ?_
  funext a; apply Fin.ext
  match a with
  | ⟨0, _⟩ => show win1_4.index t (0 : Fin 2) * 64 + 1 * p.val = 64 * t.val + p.val; omega
  | ⟨1, _⟩ => show win1_4.index t (1 : Fin 2) * 1 + 1 * 0 = 0; omega

theorem xMeanRow_apply (c : Dev nD) (t : Fin cfg1.N) (j : Fin 8192) :
    xMeanRow V c t (ix2 (0 : Fin 1) j) = V c main_v17 (ix2 (0 : Fin 1) j) := by
  obtain ⟨e0, e1⟩ := idx1_5 t
  show ((cfg1.win 5).blk t).view.read (Elt Ideal) (V c main_v17) (ix2 (0 : Fin 1) j) = _
  rw [View.read_apply]
  show V c main_v17 (((cfg1.win 5).blk t).view.emb (ix2 (0 : Fin 1) j)) = V c main_v17 (ix2 (0 : Fin 1) j)
  refine congrArg (V c main_v17) ?_
  funext a; apply Fin.ext
  match a with
  | ⟨0, _⟩ => show win1_5.index t (0 : Fin 2) * 1 + 1 * 0 = 0; omega
  | ⟨1, _⟩ => show win1_5.index t (1 : Fin 2) * 8192 + 1 * j.val = j.val; omega

theorem xMeanAll_apply (c : Dev nD) (t : Fin cfg1.N) :
    xMeanAll V c t (ix2 (0 : Fin 1) (0 : Fin 1)) = V c main_v20 (ix2 (0 : Fin 1) (0 : Fin 1)) := by
  obtain ⟨e0, e1⟩ := idx1_6 t
  show ((cfg1.win 6).blk t).view.read (Elt Ideal) (V c main_v20) (ix2 (0 : Fin 1) (0 : Fin 1)) = _
  rw [View.read_apply]
  show V c main_v20 (((cfg1.win 6).blk t).view.emb (ix2 (0 : Fin 1) (0 : Fin 1))) = V c main_v20 (ix2 (0 : Fin 1) (0 : Fin 1))
  refine congrArg (V c main_v20) ?_
  funext a; apply Fin.ext
  match a with
  | ⟨0, _⟩ => show win1_6.index t (0 : Fin 2) * 1 + 1 * 0 = 0; omega
  | ⟨1, _⟩ => show win1_6.index t (1 : Fin 2) * 1 + 1 * 0 = 0; omega

theorem yRows_apply (c : Dev nD) (t : Fin cfg1.N) (p : Fin 64) (k : Fin 16) :
    yRows V c t (ix2 p k) = V c main_v1 (ix2 (rowOf t.val (lt128 t) p) k) := by
  obtain ⟨e0, e1⟩ := idx1_7 t
  show ((cfg1.win 7).blk t).view.read (Elt Ideal) (V c main_v1) (ix2 p k) = _
  rw [View.read_apply]
  show V c main_v1 (((cfg1.win 7).blk t).view.emb (ix2 p k)) = V c main_v1 (ix2 (rowOf t.val (lt128 t) p) k)
  refine congrArg (V c main_v1) ?_
  funext a; apply Fin.ext
  match a with
  | ⟨0, _⟩ => show win1_7.index t (0 : Fin 2) * 64 + 1 * p.val = 64 * t.val + p.val; omega
  | ⟨1, _⟩ => show win1_7.index t (1 : Fin 2) * 16 + 1 * k.val = k.val; omega

theorem yAll_apply (c : Dev nD) (t : Fin cfg1.N) (j : Fin 8192) (k : Fin 16) :
    yAll V c t (ix2 j k) = V c main_v1 (ix2 j k) := by
  obtain ⟨e0, e1⟩ := idx1_8 t
  show ((cfg1.win 8).blk t).view.read (Elt Ideal) (V c main_v1) (ix2 j k) = _
  rw [View.read_apply]
  show V c main_v1 (((cfg1.win 8).blk t).view.emb (ix2 j k)) = V c main_v1 (ix2 j k)
  refine congrArg (V c main_v1) ?_
  funext a; apply Fin.ext
  match a with
  | ⟨0, _⟩ => show win1_8.index t (0 : Fin 2) * 8192 + 1 * j.val = j.val; omega
  | ⟨1, _⟩ => show win1_8.index t (1 : Fin 2) * 16 + 1 * k.val = k.val; omega

theorem ySqCol_apply (c : Dev nD) (t : Fin cfg1.N) (p : Fin 64) :
    ySqCol V c t (ix2 p (0 : Fin 1)) = V c main_v8 (ix2 (rowOf t.val (lt128 t) p) (0 : Fin 1)) := by
  obtain ⟨e0, e1⟩ := idx1_9 t
  show ((cfg1.win 9).blk t).view.read (Elt Ideal) (V c main_v8) (ix2 p (0 : Fin 1)) = _
  rw [View.read_apply]
  show V c main_v8 (((cfg1.win 9).blk t).view.emb (ix2 p (0 : Fin 1))) = V c main_v8 (ix2 (rowOf t.val (lt128 t) p) (0 : Fin 1))
  refine congrArg (V c main_v8) ?_
  funext a; apply Fin.ext
  match a with
  | ⟨0, _⟩ => show win1_9.index t (0 : Fin 2) * 64 + 1 * p.val = 64 * t.val + p.val; omega
  | ⟨1, _⟩ => show win1_9.index t (1 : Fin 2) * 1 + 1 * 0 = 0; omega

theorem ySqRow_apply (c : Dev nD) (t : Fin cfg1.N) (j : Fin 8192) :
    ySqRow V c t (ix2 (0 : Fin 1) j) = V c main_v9 (ix2 (0 : Fin 1) j) := by
  obtain ⟨e0, e1⟩ := idx1_10 t
  show ((cfg1.win 10).blk t).view.read (Elt Ideal) (V c main_v9) (ix2 (0 : Fin 1) j) = _
  rw [View.read_apply]
  show V c main_v9 (((cfg1.win 10).blk t).view.emb (ix2 (0 : Fin 1) j)) = V c main_v9 (ix2 (0 : Fin 1) j)
  refine congrArg (V c main_v9) ?_
  funext a; apply Fin.ext
  match a with
  | ⟨0, _⟩ => show win1_10.index t (0 : Fin 2) * 1 + 1 * 0 = 0; omega
  | ⟨1, _⟩ => show win1_10.index t (1 : Fin 2) * 8192 + 1 * j.val = j.val; omega

theorem yMeanCol_apply (c : Dev nD) (t : Fin cfg1.N) (p : Fin 64) :
    yMeanCol V c t (ix2 p (0 : Fin 1)) = V c main_v16 (ix2 (rowOf t.val (lt128 t) p) (0 : Fin 1)) := by
  obtain ⟨e0, e1⟩ := idx1_11 t
  show ((cfg1.win 11).blk t).view.read (Elt Ideal) (V c main_v16) (ix2 p (0 : Fin 1)) = _
  rw [View.read_apply]
  show V c main_v16 (((cfg1.win 11).blk t).view.emb (ix2 p (0 : Fin 1))) = V c main_v16 (ix2 (rowOf t.val (lt128 t) p) (0 : Fin 1))
  refine congrArg (V c main_v16) ?_
  funext a; apply Fin.ext
  match a with
  | ⟨0, _⟩ => show win1_11.index t (0 : Fin 2) * 64 + 1 * p.val = 64 * t.val + p.val; omega
  | ⟨1, _⟩ => show win1_11.index t (1 : Fin 2) * 1 + 1 * 0 = 0; omega

theorem yMeanRow_apply (c : Dev nD) (t : Fin cfg1.N) (j : Fin 8192) :
    yMeanRow V c t (ix2 (0 : Fin 1) j) = V c main_v18 (ix2 (0 : Fin 1) j) := by
  obtain ⟨e0, e1⟩ := idx1_12 t
  show ((cfg1.win 12).blk t).view.read (Elt Ideal) (V c main_v18) (ix2 (0 : Fin 1) j) = _
  rw [View.read_apply]
  show V c main_v18 (((cfg1.win 12).blk t).view.emb (ix2 (0 : Fin 1) j)) = V c main_v18 (ix2 (0 : Fin 1) j)
  refine congrArg (V c main_v18) ?_
  funext a; apply Fin.ext
  match a with
  | ⟨0, _⟩ => show win1_12.index t (0 : Fin 2) * 1 + 1 * 0 = 0; omega
  | ⟨1, _⟩ => show win1_12.index t (1 : Fin 2) * 8192 + 1 * j.val = j.val; omega

theorem yMeanAll_apply (c : Dev nD) (t : Fin cfg1.N) :
    yMeanAll V c t (ix2 (0 : Fin 1) (0 : Fin 1)) = V c main_v22 (ix2 (0 : Fin 1) (0 : Fin 1)) := by
  obtain ⟨e0, e1⟩ := idx1_13 t
  show ((cfg1.win 13).blk t).view.read (Elt Ideal) (V c main_v22) (ix2 (0 : Fin 1) (0 : Fin 1)) = _
  rw [View.read_apply]
  show V c main_v22 (((cfg1.win 13).blk t).view.emb (ix2 (0 : Fin 1) (0 : Fin 1))) = V c main_v22 (ix2 (0 : Fin 1) (0 : Fin 1))
  refine congrArg (V c main_v22) ?_
  funext a; apply Fin.ext
  match a with
  | ⟨0, _⟩ => show win1_13.index t (0 : Fin 2) * 1 + 1 * 0 = 0; omega
  | ⟨1, _⟩ => show win1_13.index t (1 : Fin 2) * 1 + 1 * 0 = 0; omega

/-! ## The running sum over the points -/

/-- The sum, over the 64 rows of block `n` and all 8192 columns, of the product of the two factors. -/
def blockSum (c : Dev nD) (n : ℕ) (hn : n < 128) : EReal :=
  ∑ p : Fin 64, ∑ j : Fin 8192, facX V c (rowOf n hn p) j * facY V c (rowOf n hn p) j

/-- One point's step over the point's blocks adds the point's block sum to what the output held. -/
theorem step_at (c : Dev nD) (t : Fin cfg1.N) (prev : Vec Ideal S1x1 .f32) :
    step1 prev (xRows V c t) (xAll V c t) (xSqCol V c t) (xSqRow V c t) (xMeanCol V c t) (xMeanRow V c t) (xMeanAll V c t)
        (yRows V c t) (yAll V c t) (ySqCol V c t) (ySqRow V c t) (yMeanCol V c t) (yMeanRow V c t) (yMeanAll V c t)
        (ix2 (0 : Fin 1) (0 : Fin 1))
      = prev (ix2 (0 : Fin 1) (0 : Fin 1)) + blockSum V c t.val (lt128 t) := by
  refine (step1_apply prev (xRows V c t) (xAll V c t) (xSqCol V c t) (xSqRow V c t) (xMeanCol V c t) (xMeanRow V c t) (xMeanAll V c t)
      (yRows V c t) (yAll V c t) (ySqCol V c t) (ySqRow V c t) (yMeanCol V c t) (yMeanRow V c t) (yMeanAll V c t)).trans ?_
  refine congrArg (prev (ix2 (0 : Fin 1) (0 : Fin 1)) + ·) ?_
  unfold blockSum
  refine Finset.sum_congr rfl fun p _ => Finset.sum_congr rfl fun j _ => ?_
  unfold facX facY Cert.Spec.gauss Cert.Spec.gram
  simp only [xRows_apply, xAll_apply, xSqCol_apply, xSqRow_apply, xMeanCol_apply, xMeanRow_apply, xMeanAll_apply,
    yRows_apply, yAll_apply, ySqCol_apply, ySqRow_apply, yMeanCol_apply, yMeanRow_apply, yMeanAll_apply]

theorem below128 {n : ℕ} (hn : n < cfg1.N) (s : Fin (n + 1)) : s.val < 128 := by
  have := s.isLt; have := lt_of_lt_of_eq hn N_1; omega

/-- After point `n` the output's staging buffer holds the sum of the block sums of points `0 … n`. -/
theorem acc1_apply (c : Dev nD) : ∀ (n : ℕ) (hn : n < cfg1.N),
    acc1 V c n hn (ix2 (0 : Fin 1) (0 : Fin 1)) = ∑ s : Fin (n + 1), blockSum V c s.val (below128 hn s)
  | 0, hn => by
    show step1 (k1_pay1 (F := Ideal)) (xRows V c ⟨0, hn⟩) (xAll V c ⟨0, hn⟩) (xSqCol V c ⟨0, hn⟩) (xSqRow V c ⟨0, hn⟩) (xMeanCol V c ⟨0, hn⟩)
        (xMeanRow V c ⟨0, hn⟩) (xMeanAll V c ⟨0, hn⟩) (yRows V c ⟨0, hn⟩) (yAll V c ⟨0, hn⟩) (ySqCol V c ⟨0, hn⟩) (ySqRow V c ⟨0, hn⟩)
        (yMeanCol V c ⟨0, hn⟩) (yMeanRow V c ⟨0, hn⟩) (yMeanAll V c ⟨0, hn⟩) (ix2 (0 : Fin 1) (0 : Fin 1)) = _
    refine (step_at V c ⟨0, hn⟩ (k1_pay1 (F := Ideal))).trans ?_
    rw [pay1_apply, zero_add]
    exact (Fin.sum_univ_one (fun s : Fin (0 + 1) => blockSum V c s.val (below128 hn s))).symm
  | n + 1, hn => by
    show step1 (acc1 V c n (Nat.lt_of_succ_lt hn)) (xRows V c ⟨n + 1, hn⟩) (xAll V c ⟨n + 1, hn⟩) (xSqCol V c ⟨n + 1, hn⟩) (xSqRow V c ⟨n + 1, hn⟩)
        (xMeanCol V c ⟨n + 1, hn⟩) (xMeanRow V c ⟨n + 1, hn⟩) (xMeanAll V c ⟨n + 1, hn⟩) (yRows V c ⟨n + 1, hn⟩) (yAll V c ⟨n + 1, hn⟩)
        (ySqCol V c ⟨n + 1, hn⟩) (ySqRow V c ⟨n + 1, hn⟩) (yMeanCol V c ⟨n + 1, hn⟩) (yMeanRow V c ⟨n + 1, hn⟩) (yMeanAll V c ⟨n + 1, hn⟩)
        (ix2 (0 : Fin 1) (0 : Fin 1)) = _
    refine (step_at V c ⟨n + 1, hn⟩ (acc1 V c n (Nat.lt_of_succ_lt hn))).trans ?_
    rw [acc1_apply c n (Nat.lt_of_succ_lt hn)]
    exact (Fin.sum_univ_castSucc (fun s : Fin (n + 1 + 1) => blockSum V c s.val (below128 hn s))).symm

theorem last_lt : 127 < cfg1.N := by rw [show cfg1.N = 128 from N_1]; decide

/-- What the output's staging buffer holds after the last point: the sum over all rows and columns. -/
theorem total_apply (c : Dev nD) :
    acc1 V c 127 last_lt (ix2 (0 : Fin 1) (0 : Fin 1)) = ∑ i : Fin 8192, ∑ j : Fin 8192, facX V c i j * facY V c i j := by
  rw [acc1_apply V c 127 last_lt]
  unfold blockSum
  exact sum_rowOf (fun i => ∑ j : Fin 8192, facX V c i j * facY V c i j)

/-! ## The output array after the region: the one write-back, at the last point, of the whole 1 x 1 array -/

/-- The last point. -/
abbrev lastPt : Fin cfg1.N := ⟨127, last_lt⟩

/-- What the array ends holding: the staging buffer's contents after the last point. -/
abbrev total (c : Dev nD) : Buf (Elt Ideal) ((c : Thread nD τ).loc main_v23) := acc1 V c 127 last_lt

/-- The one write-back writes it: the window's block is the whole array, read through zero offsets. -/
theorem flushed14_eq (c : Dev nD) (t : Fin cfg1.N) (hf : (cfg1.win 14).flush t = true) :
    (dat1 V c).flushed 14 t = ((cfg1.win 14).blk t).view.read (Elt Ideal) (total V c) := by
  have hN : cfg1.N = 128 := N_1
  have ht : t.val = 127 := by have := (flush1_14 t).mp hf; have := t.isLt; omega
  have e : (dat1 V c).after 14 t = total V c := by
    dsimp only [dat1]
    obtain ⟨n, hn⟩ := t
    have hn' : n = 127 := ht
    subst hn'
    rfl
  show (cfg1.win 14).cut (grid1.coords t) ((dat1 V c).after 14 t) = _
  rw [e]
  obtain ⟨e0, e1⟩ := idx1_14 t
  have hz' : (fun a => win1_14.index t a * main_v23.ty.shape.size a) = fun _ => 0 := funext fun a => by
    match a with
    | ⟨0, _⟩ => show win1_14.index t (0 : Fin 2) * 1 = 0; omega
    | ⟨1, _⟩ => show win1_14.index t (1 : Fin 2) * 1 = 0; omega
  exact (Memref.read_access_unit_zero (Elt Ideal) main_v23 hz' (fun a => by rw [congrFun hz' a]; simp) (total V c)).symm

/-- So the array ends holding the running sum after the last point. -/
theorem final14 (c : Dev nD) : (dat1 V c).arrAt 14 cfg1.N = total V c :=
  (dat1 V c).arrAt_eq_of_cover 14 (total V c) (flushed14_eq V c) fun i =>
    ⟨lastPt, (flush1_14 lastPt).mpr rfl, by
      obtain ⟨e0, e1⟩ := idx1_14 lastPt
      show i ∈ ((View.whole main_v23).slice (win1_14.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win1_14.index lastPt (0 : Fin 2) * 1 ≤ (i 0 : Nat) ∧ (i 0 : Nat) < win1_14.index lastPt (0 : Fin 2) * 1 + 1
        omega
      | ⟨1, _⟩ =>
        show win1_14.index lastPt (1 : Fin 2) * 1 ≤ (i 1 : Nat) ∧ (i 1 : Nat) < win1_14.index lastPt (1 : Fin 2) * 1 + 1
        omega⟩

end R1

/-- The output array after region 1: the running sum over the 128 points is the sum over all rows and columns. -/
theorem arrAt1_14 (c : Dev nD) :
    (dat1 (F := Ideal) V c).arrAt 14 cfg1.N (ix2 (0 : Fin 1) (0 : Fin 1))
      = ∑ i : Fin 8192, ∑ j : Fin 8192, facX V c i j * facY V c i j :=
  (congrFun (R1.final14 V c) (ix2 (0 : Fin 1) (0 : Fin 1))).trans (R1.total_apply V c)

end Cert.KernelIdeal.Val

end
-- ==== Proof.KI.ValHost.lean ====
/- The kernel program's result at the extended reals: the three host stretches read at an index around the two regions' values.

   The first stretch hands region 0 the arguments x and y unchanged (a change of format is the identity on extended
   reals) and their rows' squared norms, each as a column and as a row. Region 0 leaves the row sums of the two Gaussian
   kernel matrices. The second stretch divides them by 8192 (the row means, as a column and as a row) and divides their
   sum by 8192 squared (the total mean). Region 1 leaves the sum over all entries of the product of the two centred
   matrices. The last stretch negates it and adds the penalty weight times the sum of the third argument's absolute
   values. Every sum the host takes starts from the zero word, which is the extended real 0. -/
import proofs.«175792_j13073880449542_1_alg».proof.Proof.KI.Val0
import proofs.«175792_j13073880449542_1_alg».proof.Proof.KI.Val1
import Idealize.ShloMosaic.Lib.StableHlo.Run

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Fr Idealize.ShloMosaic.ValueIdx

variable (m : (ℓ : Loc nD τ sig) → Buf (Elt Ideal) ℓ)

namespace HostVal

/-! ## The host's layout operations and sums read at an index -/

section HostReads
variable {α : Type}

/-- A vector of 8192 entries cast to a column reads, at row `i`, entry `i`. -/
theorem colCast_at (v : S8192.Idx → α) (i : Fin 8192) :
    shapeCast S8192x1 v shapeCasts_S8192_S8192x1 (ix2 i (0 : Fin 1)) = v (ix1 i) :=
  shapeCast_apply v _ _ _ (by
    rw [Shape.rowMajor_val_two, Shape.rowMajor_val_one]
    show i.val = i.val * 1 + 0
    omega)

/-- The same vector cast to a row reads, at column `j`, entry `j`. -/
theorem rowCast_at (v : S8192.Idx → α) (j : Fin 8192) :
    shapeCast S1x8192 v shapeCasts_S8192_S1x8192 (ix2 (0 : Fin 1) j) = v (ix1 j) :=
  shapeCast_apply v _ _ _ (by
    rw [Shape.rowMajor_val_two, Shape.rowMajor_val_one]
    show j.val = 0 * 8192 + j.val
    omega)

/-- A column of 8192 entries cast to a row reads, at column `j`, the column's row `j`. -/
theorem colToRow_at (v : S8192x1.Idx → α) (j : Fin 8192) :
    shapeCast S1x8192 v shapeCasts_S8192x1_S1x8192 (ix2 (0 : Fin 1) j) = v (ix2 j (0 : Fin 1)) :=
  shapeCast_apply v _ _ _ (by
    rw [Shape.rowMajor_val_two, Shape.rowMajor_val_two]
    show j.val * 1 + 0 = 0 * 8192 + j.val
    omega)

/-- A scalar cast to a 1 x 1 array reads the scalar. -/
theorem scalarToCell_at (v : S_.Idx → α) :
    shapeCast S1x1 v shapeCasts_S_S1x1 (ix2 (0 : Fin 1) (0 : Fin 1)) = v ix0 :=
  shapeCast_apply v _ _ _ (by
    rw [Shape.rowMajor_val_two]
    show (Shape.rowMajorPi _ _).val = 0 * 1 + 0
    rw [Shape.rowMajorPi_zero])

/-- A 1 x 1 array cast to a scalar reads its one cell. -/
theorem cellToScalar_at (v : S1x1.Idx → α) (j : S_.Idx) :
    shapeCast S_ v shapeCasts_S1x1_S_ j = v (ix2 (0 : Fin 1) (0 : Fin 1)) :=
  shapeCast_apply v _ _ _ (by
    rw [Shape.rowMajor_val_two]
    show 0 * 1 + 0 = (Shape.rowMajorPi _ _).val
    rw [Shape.rowMajorPi_zero])

/-- The host's sum along the second axis of an array of 8192 rows, from the zero word: at row `i` the sum of that row. -/
theorem rowReduce_at {d : ℕ} (z : (⟨2, ![8192, d]⟩ : Shape).Idx → EReal)
    (h' : (⟨2, ![8192, d]⟩ : Shape).ReducesTo [1] S8192) (h : (⟨2, ![8192, d]⟩ : Shape).Reduces [1] S8192) (i : Fin 8192) :
    Host.reduceAdd (F := Ideal) (φ := .f32) z (constant S_ .f32 0x00000000#32) h' h_S_ (ix1 i) = ∑ k : Fin d, z (ix2 i k) := by
  simp only [Host.reduceAdd, Ideal.hostReduceAdd_def]
  rw [Ideal.hostReduceAdd_single h' h]
  show Ideal.ofBits .f32 0x00000000#32 + _ = _
  rw [Ideal.ofBits_zero_f32, zero_add]
  refine Finset.sum_congr rfl fun k _ => congrArg z (funext fun a => Fin.ext ?_)
  match a with
  | ⟨0, _⟩ => rfl
  | ⟨1, _⟩ => rfl

/-- The host's sum over both axes of a column of 8192 entries, from the zero word: the sum of the entries. -/
theorem colTotal_at (z : S8192x1.Idx → EReal) (j : S_.Idx) :
    Host.reduceAdd (F := Ideal) (φ := .f32) z (constant S_ .f32 0x00000000#32) reducesTo_S8192x1_S_d0_1 h_S_ j
      = ∑ i : Fin 8192, z (ix2 i (0 : Fin 1)) := by
  simp only [Host.reduceAdd, Ideal.hostReduceAdd_def]
  rw [Ideal.hostReduceAdd_total reducesTo_S8192x1_S_d0_1 (fun b => b.elim0)]
  show Ideal.ofBits .f32 0x00000000#32 + _ = _
  rw [Ideal.ofBits_zero_f32, zero_add, sum_idx2]
  exact Finset.sum_congr rfl fun i _ => by
    rw [Fin.sum_univ_one]

/-- A one-axis index set is its coordinate's range. -/
def vecIdxEquiv {n : ℕ} : (⟨1, ![n]⟩ : Shape).Idx ≃ Fin n where
  toFun i := i 0
  invFun k := ix1 k
  left_inv i := (eq_ix1 i).symm
  right_inv _ := rfl

/-- The host's sum of a vector of 128 entries, from the zero word. -/
theorem vecTotal_at (z : S128.Idx → EReal) (j : S_.Idx) :
    Host.reduceAdd (F := Ideal) (φ := .f32) z (constant S_ .f32 0x00000000#32) reducesTo_S128_S_d0 h_S_ j
      = ∑ k : Fin 128, z (ix1 k) := by
  simp only [Host.reduceAdd, Ideal.hostReduceAdd_def]
  rw [Ideal.hostReduceAdd_total reducesTo_S128_S_d0 (fun b => b.elim0)]
  show Ideal.ofBits .f32 0x00000000#32 + _ = _
  rw [Ideal.ofBits_zero_f32, zero_add, ← Equiv.sum_comp vecIdxEquiv.symm z]
  rfl

end HostReads

/-! ## The arguments, and the first stretch: the squared norms -/

/-- The first argument's rows. -/
abbrev argX (c : Dev nD) : Fin 8192 → Fin 128 → EReal := fun i k => m ((c.tc : Thread nD τ).loc main_arg0) (ix2 i k)
/-- The second argument's rows. -/
abbrev argY (c : Dev nD) : Fin 8192 → Fin 16 → EReal := fun i k => m ((c.tc : Thread nD τ).loc main_arg1) (ix2 i k)
/-- The third argument's entries. -/
abbrev argB (c : Dev nD) : Fin 128 → EReal := fun k => m ((c.tc : Thread nD τ).loc main_arg2) (ix1 k)

/-- Region 0 finds x itself in its first operand: the conversion to the narrower format changes no extended real. -/
theorem W1_x (c : Dev nD) (i : Fin 8192) (k : Fin 128) : W1 (F := Ideal) m c main_v0 (ix2 i k) = argX m c i k := by
  show StableHlo.after hostOps0 _ (Proc.devRef .tc main_v0) (ix2 i k) = _
  after_results
  rfl

theorem W1_y (c : Dev nD) (i : Fin 8192) (k : Fin 16) : W1 (F := Ideal) m c main_v1 (ix2 i k) = argY m c i k := by
  show StableHlo.after hostOps0 _ (Proc.devRef .tc main_v1) (ix2 i k) = _
  after_results
  rfl

/-- The column of x's squared norms. -/
theorem W1_sqxCol (c : Dev nD) (i : Fin 8192) :
    W1 (F := Ideal) m c main_v6 (ix2 i (0 : Fin 1)) = Cert.Spec.sq (argX m c) i := by
  show StableHlo.after hostOps0 _ (Proc.devRef .tc main_v6) (ix2 i (0 : Fin 1)) = _
  after_results
  refine (colCast_at _ i).trans ?_
  refine (rowReduce_at _ reducesTo_S8192x128_S8192_d1 (by decide) i).trans ?_
  rfl

/-- The row of x's squared norms. -/
theorem W1_sqxRow (c : Dev nD) (j : Fin 8192) :
    W1 (F := Ideal) m c main_v7 (ix2 (0 : Fin 1) j) = Cert.Spec.sq (argX m c) j := by
  show StableHlo.after hostOps0 _ (Proc.devRef .tc main_v7) (ix2 (0 : Fin 1) j) = _
  after_results
  refine (rowCast_at _ j).trans ?_
  refine (rowReduce_at _ reducesTo_S8192x128_S8192_d1 (by decide) j).trans ?_
  rfl

/-- The column of y's squared norms. -/
theorem W1_sqyCol (c : Dev nD) (i : Fin 8192) :
    W1 (F := Ideal) m c main_v8 (ix2 i (0 : Fin 1)) = Cert.Spec.sq (argY m c) i := by
  show StableHlo.after hostOps0 _ (Proc.devRef .tc main_v8) (ix2 i (0 : Fin 1)) = _
  after_results
  refine (colCast_at _ i).trans ?_
  refine (rowReduce_at _ reducesTo_S8192x16_S8192_d1 (by decide) i).trans ?_
  rfl

/-- The row of y's squared norms. -/
theorem W1_sqyRow (c : Dev nD) (j : Fin 8192) :
    W1 (F := Ideal) m c main_v9 (ix2 (0 : Fin 1) j) = Cert.Spec.sq (argY m c) j := by
  show StableHlo.after hostOps0 _ (Proc.devRef .tc main_v9) (ix2 (0 : Fin 1) j) = _
  after_results
  refine (rowCast_at _ j).trans ?_
  refine (rowReduce_at _ reducesTo_S8192x16_S8192_d1 (by decide) j).trans ?_
  rfl

/-! ## After region 0: the row sums of the two Gaussian kernel matrices -/

/-- x's Gaussian kernel matrix, in the kernel's form. -/
abbrev Kx (c : Dev nD) : Fin 8192 → Fin 8192 → EReal := Cert.Spec.gaussK Cert.Spec.sX (argX m c)
/-- y's. -/
abbrev Ky (c : Dev nD) : Fin 8192 → Fin 8192 → EReal := Cert.Spec.gaussK Cert.Spec.sY (argY m c)

/-- Region 0's x output holds, at row `r`, the sum of row `r` of x's Gaussian kernel matrix. -/
theorem W2_rowSumX (c : Dev nD) (r : Fin 8192) :
    W2 (F := Ideal) m c main_v10_0 (ix2 r (0 : Fin 1)) = Cert.Spec.rowSum (Kx m c) r := by
  have e : W2 (F := Ideal) m c main_v10_0 = (dat0 (atTc (W1 (F := Ideal) m)) c).arrAt 8 cfg0.N := by
    unfold W2
    rw [Function.update_of_ne (StableHlo.devRef_ne_of_ne (by decide)), Function.update_self]
  have h6 : (fun i : Fin 8192 => atTc (W1 (F := Ideal) m) c main_v6 (ix2 i (0 : Fin 1))) = Cert.Spec.sq (argX m c) :=
    funext fun i => W1_sqxCol m c i
  have h7 : (fun j : Fin 8192 => atTc (W1 (F := Ideal) m) c main_v7 (ix2 (0 : Fin 1) j)) = Cert.Spec.sq (argX m c) :=
    funext fun j => W1_sqxRow m c j
  have h0 : (fun (i : Fin 8192) (k : Fin 128) => atTc (W1 (F := Ideal) m) c main_v0 (ix2 i k)) = argX m c :=
    funext fun i => funext fun k => W1_x m c i k
  rw [e, arrAt0_8, h6, h7, h0]
  rfl

/-- The same for y. -/
theorem W2_rowSumY (c : Dev nD) (r : Fin 8192) :
    W2 (F := Ideal) m c main_v10_1 (ix2 r (0 : Fin 1)) = Cert.Spec.rowSum (Ky m c) r := by
  have e : W2 (F := Ideal) m c main_v10_1 = (dat0 (atTc (W1 (F := Ideal) m)) c).arrAt 9 cfg0.N := by
    unfold W2
    rw [Function.update_self]
  have h8 : (fun i : Fin 8192 => atTc (W1 (F := Ideal) m) c main_v8 (ix2 i (0 : Fin 1))) = Cert.Spec.sq (argY m c) :=
    funext fun i => W1_sqyCol m c i
  have h9 : (fun j : Fin 8192 => atTc (W1 (F := Ideal) m) c main_v9 (ix2 (0 : Fin 1) j)) = Cert.Spec.sq (argY m c) :=
    funext fun j => W1_sqyRow m c j
  have h1 : (fun (i : Fin 8192) (k : Fin 16) => atTc (W1 (F := Ideal) m) c main_v1 (ix2 i k)) = argY m c :=
    funext fun i => funext fun k => W1_y m c i k
  rw [e, arrAt0_9, h8, h9, h1]
  rfl

/-- What neither region 0 nor the second stretch writes is, at region 1's entry, as the first stretch left it. -/
theorem W3_of_W1 (c : Dev nD) (r : Ref sig .tc) (h1 : r ∉ hostOps1_W) (h2 : r ∉ ([main_v10_0, main_v10_1] : List (Ref sig .tc))) :
    W3 (F := Ideal) m c r = W1 (F := Ideal) m c r := by
  refine (StableHlo.after_of_writes_sub hostOps1 _ hostOps1_writes h1).trans ?_
  unfold W2
  rw [Function.update_of_ne (StableHlo.devRef_ne_of_ne (List.ne_of_not_mem_cons (List.not_mem_of_not_mem_cons h2))),
    Function.update_of_ne (StableHlo.devRef_ne_of_ne (List.ne_of_not_mem_cons h2))]

/-! ## The second stretch: the row means as a column and as a row, and the total mean -/

/-- The column of x's row means. -/
theorem W3_meanXCol (c : Dev nD) (i : Fin 8192) :
    W3 (F := Ideal) m c main_v14 (ix2 i (0 : Fin 1)) = Ideal.div (Cert.Spec.rowSum (Kx m c) i) Cert.Spec.nn := by
  rw [← W2_rowSumX m c i]
  show StableHlo.after hostOps1 _ (Proc.devRef .tc main_v14) (ix2 i (0 : Fin 1)) = _
  after_results
  rfl

/-- The row of x's row means. -/
theorem W3_meanXRow (c : Dev nD) (j : Fin 8192) :
    W3 (F := Ideal) m c main_v17 (ix2 (0 : Fin 1) j) = Ideal.div (Cert.Spec.rowSum (Kx m c) j) Cert.Spec.nn := by
  rw [← W2_rowSumX m c j]
  show StableHlo.after hostOps1 _ (Proc.devRef .tc main_v17) (ix2 (0 : Fin 1) j) = _
  after_results
  refine (colToRow_at _ j).trans ?_
  rfl

/-- x's total mean: the sum of the row sums over 8192 squared. -/
theorem W3_totalX (c : Dev nD) :
    W3 (F := Ideal) m c main_v20 (ix2 (0 : Fin 1) (0 : Fin 1))
      = Ideal.div (∑ i' : Fin 8192, Cert.Spec.rowSum (Kx m c) i') Cert.Spec.nn2 := by
  have hs : ∀ i' : Fin 8192, Cert.Spec.rowSum (Kx m c) i' = W2 (F := Ideal) m c main_v10_0 (ix2 i' (0 : Fin 1)) :=
    fun i' => (W2_rowSumX m c i').symm
  simp only [hs]
  show StableHlo.after hostOps1 _ (Proc.devRef .tc main_v20) (ix2 (0 : Fin 1) (0 : Fin 1)) = _
  after_results
  refine (scalarToCell_at _).trans ?_
  refine congrArg (Ideal.div · Cert.Spec.nn2) ?_
  exact colTotal_at _ ix0

/-- The column of y's row means. -/
theorem W3_meanYCol (c : Dev nD) (i : Fin 8192) :
    W3 (F := Ideal) m c main_v16 (ix2 i (0 : Fin 1)) = Ideal.div (Cert.Spec.rowSum (Ky m c) i) Cert.Spec.nn := by
  rw [← W2_rowSumY m c i]
  show StableHlo.after hostOps1 _ (Proc.devRef .tc main_v16) (ix2 i (0 : Fin 1)) = _
  after_results
  rfl

/-- The row of y's row means. -/
theorem W3_meanYRow (c : Dev nD) (j : Fin 8192) :
    W3 (F := Ideal) m c main_v18 (ix2 (0 : Fin 1) j) = Ideal.div (Cert.Spec.rowSum (Ky m c) j) Cert.Spec.nn := by
  rw [← W2_rowSumY m c j]
  show StableHlo.after hostOps1 _ (Proc.devRef .tc main_v18) (ix2 (0 : Fin 1) j) = _
  after_results
  refine (colToRow_at _ j).trans ?_
  rfl

/-- y's total mean. -/
theorem W3_totalY (c : Dev nD) :
    W3 (F := Ideal) m c main_v22 (ix2 (0 : Fin 1) (0 : Fin 1))
      = Ideal.div (∑ i' : Fin 8192, Cert.Spec.rowSum (Ky m c) i') Cert.Spec.nn2 := by
  have hs : ∀ i' : Fin 8192, Cert.Spec.rowSum (Ky m c) i' = W2 (F := Ideal) m c main_v10_1 (ix2 i' (0 : Fin 1)) :=
    fun i' => (W2_rowSumY m c i').symm
  simp only [hs]
  show StableHlo.after hostOps1 _ (Proc.devRef .tc main_v22) (ix2 (0 : Fin 1) (0 : Fin 1)) = _
  after_results
  refine (scalarToCell_at _).trans ?_
  refine congrArg (Ideal.div · Cert.Spec.nn2) ?_
  exact colTotal_at _ ix0

/-! ## Region 1's factors are the centred kernel matrices -/

/-- The x factor region 1 forms from the arrays it finds is x's Gaussian kernel matrix centred the kernel's way. -/
theorem facX_eq (c : Dev nD) (i j : Fin 8192) :
    facX (atTc (W3 (F := Ideal) m)) c i j = Cert.Spec.centK (Kx m c) i j := by
  have h6 : (fun i : Fin 8192 => W3 (F := Ideal) m c main_v6 (ix2 i (0 : Fin 1))) = Cert.Spec.sq (argX m c) :=
    funext fun i => (congrFun (W3_of_W1 m c main_v6 (by decide) (by decide)) _).trans (W1_sqxCol m c i)
  have h7 : (fun j : Fin 8192 => W3 (F := Ideal) m c main_v7 (ix2 (0 : Fin 1) j)) = Cert.Spec.sq (argX m c) :=
    funext fun j => (congrFun (W3_of_W1 m c main_v7 (by decide) (by decide)) _).trans (W1_sqxRow m c j)
  have h0 : (fun (i : Fin 8192) (k : Fin 128) => W3 (F := Ideal) m c main_v0 (ix2 i k)) = argX m c :=
    funext fun i => funext fun k => (congrFun (W3_of_W1 m c main_v0 (by decide) (by decide)) _).trans (W1_x m c i k)
  show Cert.Spec.gauss Cert.Spec.sX (fun i : Fin 8192 => W3 (F := Ideal) m c main_v6 (ix2 i (0 : Fin 1)))
      (fun j : Fin 8192 => W3 (F := Ideal) m c main_v7 (ix2 (0 : Fin 1) j))
      (Cert.Spec.gram fun (i : Fin 8192) (k : Fin 128) => W3 (F := Ideal) m c main_v0 (ix2 i k)) i j
    - W3 (F := Ideal) m c main_v14 (ix2 i (0 : Fin 1)) - W3 (F := Ideal) m c main_v17 (ix2 (0 : Fin 1) j)
    + W3 (F := Ideal) m c main_v20 (ix2 (0 : Fin 1) (0 : Fin 1)) = _
  rw [h6, h7, h0, W3_meanXCol, W3_meanXRow, W3_totalX]
  rfl

/-- The y factor likewise. -/
theorem facY_eq (c : Dev nD) (i j : Fin 8192) :
    facY (atTc (W3 (F := Ideal) m)) c i j = Cert.Spec.centK (Ky m c) i j := by
  have h8 : (fun i : Fin 8192 => W3 (F := Ideal) m c main_v8 (ix2 i (0 : Fin 1))) = Cert.Spec.sq (argY m c) :=
    funext fun i => (congrFun (W3_of_W1 m c main_v8 (by decide) (by decide)) _).trans (W1_sqyCol m c i)
  have h9 : (fun j : Fin 8192 => W3 (F := Ideal) m c main_v9 (ix2 (0 : Fin 1) j)) = Cert.Spec.sq (argY m c) :=
    funext fun j => (congrFun (W3_of_W1 m c main_v9 (by decide) (by decide)) _).trans (W1_sqyRow m c j)
  have h1 : (fun (i : Fin 8192) (k : Fin 16) => W3 (F := Ideal) m c main_v1 (ix2 i k)) = argY m c :=
    funext fun i => funext fun k => (congrFun (W3_of_W1 m c main_v1 (by decide) (by decide)) _).trans (W1_y m c i k)
  show Cert.Spec.gauss Cert.Spec.sY (fun i : Fin 8192 => W3 (F := Ideal) m c main_v8 (ix2 i (0 : Fin 1)))
      (fun j : Fin 8192 => W3 (F := Ideal) m c main_v9 (ix2 (0 : Fin 1) j))
      (Cert.Spec.gram fun (i : Fin 8192) (k : Fin 16) => W3 (F := Ideal) m c main_v1 (ix2 i k)) i j
    - W3 (F := Ideal) m c main_v16 (ix2 i (0 : Fin 1)) - W3 (F := Ideal) m c main_v18 (ix2 (0 : Fin 1) j)
    + W3 (F := Ideal) m c main_v22 (ix2 (0 : Fin 1) (0 : Fin 1)) = _
  rw [h8, h9, h1, W3_meanYCol, W3_meanYRow, W3_totalY]
  rfl

/-- The sum over all entries of the product of the two centred matrices. -/
abbrev cross (c : Dev nD) : EReal :=
  ∑ i : Fin 8192, ∑ j : Fin 8192, Cert.Spec.centK (Kx m c) i j * Cert.Spec.centK (Ky m c) i j

/-- Region 1's output holds that sum. -/
theorem W4_cross (c : Dev nD) : W4 (F := Ideal) m c main_v23 (ix2 (0 : Fin 1) (0 : Fin 1)) = cross m c := by
  have e : W4 (F := Ideal) m c main_v23 = (dat1 (atTc (W3 (F := Ideal) m)) c).arrAt 14 cfg1.N := by
    unfold W4
    rw [Function.update_self]
  rw [e, arrAt1_14]
  simp only [facX_eq, facY_eq]

/-! ## The last stretch -/

/-- The third argument reaches the last stretch as launched: no stretch writes it and no region may change it. -/
theorem W4_b (c : Dev nD) : W4 (F := Ideal) m c main_arg2 = m ((c.tc : Thread nD τ).loc main_arg2) := by
  unfold W4
  rw [Function.update_of_ne (StableHlo.devRef_ne_of_ne (by decide))]
  refine (W3_of_W1 m c main_arg2 (by decide) (by decide)).trans ?_
  exact StableHlo.after_of_writes_sub hostOps0 _ hostOps0_writes (by decide)

/-- The last stretch's arithmetic at its one index: minus the 1 x 1 array's cell, plus the penalty weight times the
    sum of the absolute values. -/
theorem lastStretch_at (v : S1x1.Idx → EReal) (b : S128.Idx → EReal) (j : S_.Idx) :
    addf (F := Ideal) (φ := .f32) (Host.negf (shapeCast S_ v shapeCasts_S1x1_S_))
        (mulf (constant S_ .f32 0x3A83126F#32)
          (Host.reduceAdd (Host.absf b) (constant S_ .f32 0x00000000#32) reducesTo_S128_S_d0 h_S_)) j
      = -(v (ix2 (0 : Fin 1) (0 : Fin 1))) + Cert.Spec.rho * ∑ k : Fin 128, Cert.Spec.absE (b (ix1 k)) := by
  show -(shapeCast S_ v shapeCasts_S1x1_S_ j)
      + Cert.Spec.rho * (Host.reduceAdd (F := Ideal) (φ := .f32) (Host.absf b) (constant S_ .f32 0x00000000#32) reducesTo_S128_S_d0 h_S_ j) = _
  rw [cellToScalar_at, vecTotal_at]
  rfl

/-- The result buffer, at its one index. -/
theorem W5_result (c : Dev nD) (j : S_.Idx) :
    W5 (F := Ideal) m c main_v29 j = Cert.Spec.lossK (argX m c) (argY m c) (argB m c) := by
  show StableHlo.after hostOps2 _ (Proc.devRef .tc main_v29) j = _
  after_results
  refine (lastStretch_at _ _ j).trans ?_
  rw [W4_cross, W4_b]
  rfl

end HostVal

open HostVal

/-- The result buffer at the last boundary is the kernel's formula of the three arguments. -/
theorem result_eq (c : Dev nD) :
    W5 (F := Ideal) m c main_v29 = fun _ => Cert.Spec.lossK
      (fun i (k : Fin 128) => m ((c.tc : Thread nD τ).loc main_arg0) (ix2 i k))
      (fun i (k : Fin 16) => m ((c.tc : Thread nD τ).loc main_arg1) (ix2 i k))
      (fun k : Fin 128 => m ((c.tc : Thread nD τ).loc main_arg2) (ix1 k)) :=
  funext fun j => W5_result m c j

end Cert.KernelIdeal.Val

end
-- ==== Proof.RefImports.lean ====
/- The reference's run and its stages read at an index, brought into scope for the modules that compare the
   two programs' results. -/
import proofs.«175792_j13073880449542_1_alg».proof.Proof.Gen.ReferenceIdeal.Run
import proofs.«175792_j13073880449542_1_alg».proof.Proof.Gen.ReferenceIdeal.Read
-- ==== Proof.RefValue.lean ====
/- The reference's result at the extended reals, read one operation at a time: the reference's formula of the three arguments. -/
import proofs.«175792_j13073880449542_1_alg».proof.Proof.RefImports
import proofs.«175792_j13073880449542_1_alg».proof.Proof.Spec
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-! ## The arguments as matrices of extended reals -/

/-- The 8192 points of the first argument, 128 coordinates each. -/
abbrev rowsX (x0 : (⟨S8192x128, .f32⟩ : BufTy).Contents (Elt Ideal)) : Fin 8192 → Fin 128 → EReal := fun i k => x0 (ix2 i k)

/-- The 8192 points of the second argument, 16 coordinates each. -/
abbrev rowsY (x1 : (⟨S8192x16, .f32⟩ : BufTy).Contents (Elt Ideal)) : Fin 8192 → Fin 16 → EReal := fun i k => x1 (ix2 i k)

/-- The 128 coefficients of the third argument. -/
abbrev coef (x2 : (⟨S128, .f32⟩ : BufTy).Contents (Elt Ideal)) : Fin 128 → EReal := fun k => x2 (ix1 k)

/-- A sum over the indices of a vector is the sum over its one coordinate. -/
theorem sum_over_vector {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  exact (Equiv.sum_comp e.symm f).symm

/-! ## The Gaussian matrix of the first argument

Entry (i, j) is read from the squared norms of points i and j, spread along a column and along a row, and the inner
product of the two points, which the program forms as the product of the array with its transpose. -/

/-- Entry k of point i, as the sum of squares reaches it. -/
theorem x_sq_entry (i : Fin 8192) (k : Fin 128) : idx_main_v1 (ix1 i) k = ix2 i k := funext fun a => Fin.ext (by match a with | ⟨0, _⟩ => rfl | ⟨1, _⟩ => rfl)
/-- The left factor of the inner product of points i and j is entry k of point i … -/
theorem x_dot_left (i j : Fin 8192) (k : Fin 128) : lidx_main_v8 (ix2 i j) k = ix2 i k := funext fun a => Fin.ext (by match a with | ⟨0, _⟩ => rfl | ⟨1, _⟩ => rfl)
/-- … and the right factor, read through the transpose, is entry k of point j. -/
theorem x_dot_right (i j : Fin 8192) (k : Fin 128) : idx_main_v7 (ridx_main_v8 (ix2 i j) k) = ix2 j k := funext fun a => Fin.ext (by match a with | ⟨0, _⟩ => rfl | ⟨1, _⟩ => rfl)
/-- The column of squared norms spread over the matrix gives point i's at (i, j) … -/
theorem x_norm_col (i j : Fin 8192) : idx_main_v2 (idx_main_v4 (ix2 i j)) = ix1 i := funext fun a => Fin.ext (by match a with | ⟨0, _⟩ => rfl)
/-- … and the row of squared norms gives point j's. -/
theorem x_norm_row (i j : Fin 8192) : idx_main_v3 (idx_main_v5 (ix2 i j)) = ix1 j := funext fun a => Fin.ext (by match a with | ⟨0, _⟩ => rfl)

/-- The squared norm of point i of the first argument. -/
theorem sqnorm_x (x0 : (⟨S8192x128, .f32⟩ : BufTy).Contents (Elt Ideal)) (i : Fin 8192) :
    val_main_v1 (F := Ideal) x0 (ix1 i) = Spec.sq (rowsX x0) i := by
  rw [val_main_v1_apply, val_main_cst_apply]
  simp only [val_main_v0_apply, x_sq_entry, Ideal.ofBits_def, Ideal.mulf_def, Ideal.ofBits_zero_f32, zero_add]
  rfl

/-- The inner product of points i and j of the first argument. -/
theorem gram_x (x0 : (⟨S8192x128, .f32⟩ : BufTy).Contents (Elt Ideal)) (i j : Fin 8192) :
    val_main_v8 (F := Ideal) x0 (ix2 i j) = Spec.gram (rowsX x0) i j := by
  rw [val_main_v8_apply]
  simp only [val_main_v7_apply, x_dot_left, x_dot_right]
  rfl

/-- Entry (i, j) of the first argument's Gaussian matrix: the squared distance, clamped at zero, negated and
    divided by 128, under the exponential. -/
theorem gauss_x (x0 : (⟨S8192x128, .f32⟩ : BufTy).Contents (Elt Ideal)) (i j : Fin 8192) :
    val_main_v17 (F := Ideal) x0 (ix2 i j) = Spec.gaussR Spec.vX (rowsX x0) i j := by
  simp only [val_main_v17_apply, val_main_v16_apply, val_main_v14_apply, val_main_v13_apply, val_main_v11_apply,
    val_main_v6_apply, val_main_v4_apply, val_main_v2_apply, val_main_v5_apply, val_main_v3_apply, val_main_v10_apply,
    val_main_v9_apply, val_main_cst_0_apply, val_main_v12_apply, val_main_cst_1_apply, val_main_v15_apply,
    val_main_cst_2_apply, x_norm_col, x_norm_row, sqnorm_x, gram_x, Ideal.ofBits_def, Ideal.addf_def, Ideal.subf_def, Ideal.mulf_def, Ideal.maximumf_def, Ideal.hostNegf_def, Ideal.negf_def, Ideal.hostDivf_def, Ideal.hostUnary_exp_def, Ideal.ofBits_zero_f32]
  rfl

/-! ## Its row sums, column sums and total, and the centred matrix -/

/-- Row i's sum runs over the entries (i, k) … -/
theorem x_row_entry (i k : Fin 8192) : idx_main_v36 (ix1 i) k = ix2 i k := funext fun a => Fin.ext (by match a with | ⟨0, _⟩ => rfl | ⟨1, _⟩ => rfl)
/-- … column j's over the entries (k, j). -/
theorem x_col_entry (j k : Fin 8192) : idx_main_v40 (ix1 j) k = ix2 k j := funext fun a => Fin.ext (by match a with | ⟨0, _⟩ => rfl | ⟨1, _⟩ => rfl)
/-- The column of row means spread over the matrix gives row i's at (i, j) … -/
theorem x_mean_col (i j : Fin 8192) : idx_main_v37 (idx_main_v46 (ix2 i j)) = ix1 i := funext fun a => Fin.ext (by match a with | ⟨0, _⟩ => rfl)
/-- … and the row of column means gives column j's. -/
theorem x_mean_row (i j : Fin 8192) : idx_main_v41 (idx_main_v48 (ix2 i j)) = ix1 j := funext fun a => Fin.ext (by match a with | ⟨0, _⟩ => rfl)

theorem rowsum_x (x0 : (⟨S8192x128, .f32⟩ : BufTy).Contents (Elt Ideal)) (i : Fin 8192) :
    val_main_v36 (F := Ideal) x0 (ix1 i) = Spec.rowSum (Spec.gaussR Spec.vX (rowsX x0)) i := by
  rw [val_main_v36_apply, val_main_cst_7_apply]
  simp only [x_row_entry, gauss_x, Ideal.ofBits_def, Ideal.ofBits_zero_f32, zero_add]
  rfl

theorem colsum_x (x0 : (⟨S8192x128, .f32⟩ : BufTy).Contents (Elt Ideal)) (j : Fin 8192) :
    val_main_v40 (F := Ideal) x0 (ix1 j) = Spec.colSum (Spec.gaussR Spec.vX (rowsX x0)) j := by
  rw [val_main_v40_apply, val_main_cst_9_apply]
  simp only [x_col_entry, gauss_x, Ideal.ofBits_def, Ideal.ofBits_zero_f32, zero_add]
  rfl

/-- The sum of all entries, row by row. -/
theorem total_x (x0 : (⟨S8192x128, .f32⟩ : BufTy).Contents (Elt Ideal)) (i0 : S_.Idx) :
    val_main_v44 (F := Ideal) x0 i0 = ∑ i : Fin 8192, ∑ j : Fin 8192, Spec.gaussR Spec.vX (rowsX x0) i j := by
  rw [val_main_v44_apply, val_main_cst_11_apply, sum_idx2]
  simp only [gauss_x, Ideal.ofBits_def, Ideal.ofBits_zero_f32, zero_add]

/-- Entry (i, j) of the centred matrix: the entry less its row's mean, less its column's mean, plus the total mean. -/
theorem cent_x (x0 : (⟨S8192x128, .f32⟩ : BufTy).Contents (Elt Ideal)) (i j : Fin 8192) :
    val_main_v51 (F := Ideal) x0 (ix2 i j) = Spec.centR (Spec.gaussR Spec.vX (rowsX x0)) i j := by
  simp only [val_main_v51_apply, val_main_v49_apply, val_main_v47_apply, val_main_v46_apply, val_main_v39_apply,
    val_main_v37_apply, val_main_v38_apply, val_main_cst_8_apply, val_main_v48_apply, val_main_v43_apply,
    val_main_v41_apply, val_main_v42_apply, val_main_cst_10_apply, val_main_v50_apply, val_main_v45_apply,
    val_main_cst_12_apply, x_mean_col, x_mean_row, gauss_x, rowsum_x, colsum_x, total_x, Ideal.ofBits_def, Ideal.addf_def, Ideal.subf_def, Ideal.mulf_def, Ideal.maximumf_def, Ideal.hostNegf_def, Ideal.negf_def, Ideal.hostDivf_def, Ideal.hostUnary_exp_def]
  rfl

/-! ## The Gaussian matrix of the second argument

The same reading with 16 coordinates a point and the divisor 32. -/

/-- Entry k of point i, as the sum of squares reaches it. -/
theorem y_sq_entry (i : Fin 8192) (k : Fin 16) : idx_main_v19 (ix1 i) k = ix2 i k := funext fun a => Fin.ext (by match a with | ⟨0, _⟩ => rfl | ⟨1, _⟩ => rfl)
/-- The left factor of the inner product of points i and j is entry k of point i … -/
theorem y_dot_left (i j : Fin 8192) (k : Fin 16) : lidx_main_v26 (ix2 i j) k = ix2 i k := funext fun a => Fin.ext (by match a with | ⟨0, _⟩ => rfl | ⟨1, _⟩ => rfl)
/-- … and the right factor, read through the transpose, is entry k of point j. -/
theorem y_dot_right (i j : Fin 8192) (k : Fin 16) : idx_main_v25 (ridx_main_v26 (ix2 i j) k) = ix2 j k := funext fun a => Fin.ext (by match a with | ⟨0, _⟩ => rfl | ⟨1, _⟩ => rfl)
/-- The column of squared norms spread over the matrix gives point i's at (i, j) … -/
theorem y_norm_col (i j : Fin 8192) : idx_main_v20 (idx_main_v22 (ix2 i j)) = ix1 i := funext fun a => Fin.ext (by match a with | ⟨0, _⟩ => rfl)
/-- … and the row of squared norms gives point j's. -/
theorem y_norm_row (i j : Fin 8192) : idx_main_v21 (idx_main_v23 (ix2 i j)) = ix1 j := funext fun a => Fin.ext (by match a with | ⟨0, _⟩ => rfl)

/-- The squared norm of point i of the second argument. -/
theorem sqnorm_y (x1 : (⟨S8192x16, .f32⟩ : BufTy).Contents (Elt Ideal)) (i : Fin 8192) :
    val_main_v19 (F := Ideal) x1 (ix1 i) = Spec.sq (rowsY x1) i := by
  rw [val_main_v19_apply, val_main_cst_3_apply]
  simp only [val_main_v18_apply, y_sq_entry, Ideal.ofBits_def, Ideal.mulf_def, Ideal.ofBits_zero_f32, zero_add]
  rfl

/-- The inner product of points i and j of the second argument. -/
theorem gram_y (x1 : (⟨S8192x16, .f32⟩ : BufTy).Contents (Elt Ideal)) (i j : Fin 8192) :
    val_main_v26 (F := Ideal) x1 (ix2 i j) = Spec.gram (rowsY x1) i j := by
  rw [val_main_v26_apply]
  simp only [val_main_v25_apply, y_dot_left, y_dot_right]
  rfl

/-- Entry (i, j) of the second argument's Gaussian matrix: the squared distance, clamped at zero, negated and
    divided by 32, under the exponential. -/
theorem gauss_y (x1 : (⟨S8192x16, .f32⟩ : BufTy).Contents (Elt Ideal)) (i j : Fin 8192) :
    val_main_v35 (F := Ideal) x1 (ix2 i j) = Spec.gaussR Spec.vY (rowsY x1) i j := by
  simp only [val_main_v35_apply, val_main_v34_apply, val_main_v32_apply, val_main_v31_apply, val_main_v29_apply,
    val_main_v24_apply, val_main_v22_apply, val_main_v20_apply, val_main_v23_apply, val_main_v21_apply, val_main_v28_apply,
    val_main_v27_apply, val_main_cst_4_apply, val_main_v30_apply, val_main_cst_5_apply, val_main_v33_apply,
    val_main_cst_6_apply, y_norm_col, y_norm_row, sqnorm_y, gram_y, Ideal.ofBits_def, Ideal.addf_def, Ideal.subf_def, Ideal.mulf_def, Ideal.maximumf_def, Ideal.hostNegf_def, Ideal.negf_def, Ideal.hostDivf_def, Ideal.hostUnary_exp_def, Ideal.ofBits_zero_f32]
  rfl

/-! ## Its row sums, column sums and total, and the centred matrix -/

/-- Row i's sum runs over the entries (i, k) … -/
theorem y_row_entry (i k : Fin 8192) : idx_main_v52 (ix1 i) k = ix2 i k := funext fun a => Fin.ext (by match a with | ⟨0, _⟩ => rfl | ⟨1, _⟩ => rfl)
/-- … column j's over the entries (k, j). -/
theorem y_col_entry (j k : Fin 8192) : idx_main_v56 (ix1 j) k = ix2 k j := funext fun a => Fin.ext (by match a with | ⟨0, _⟩ => rfl | ⟨1, _⟩ => rfl)
/-- The column of row means spread over the matrix gives row i's at (i, j) … -/
theorem y_mean_col (i j : Fin 8192) : idx_main_v53 (idx_main_v62 (ix2 i j)) = ix1 i := funext fun a => Fin.ext (by match a with | ⟨0, _⟩ => rfl)
/-- … and the row of column means gives column j's. -/
theorem y_mean_row (i j : Fin 8192) : idx_main_v57 (idx_main_v64 (ix2 i j)) = ix1 j := funext fun a => Fin.ext (by match a with | ⟨0, _⟩ => rfl)

theorem rowsum_y (x1 : (⟨S8192x16, .f32⟩ : BufTy).Contents (Elt Ideal)) (i : Fin 8192) :
    val_main_v52 (F := Ideal) x1 (ix1 i) = Spec.rowSum (Spec.gaussR Spec.vY (rowsY x1)) i := by
  rw [val_main_v52_apply, val_main_cst_13_apply]
  simp only [y_row_entry, gauss_y, Ideal.ofBits_def, Ideal.ofBits_zero_f32, zero_add]
  rfl

theorem colsum_y (x1 : (⟨S8192x16, .f32⟩ : BufTy).Contents (Elt Ideal)) (j : Fin 8192) :
    val_main_v56 (F := Ideal) x1 (ix1 j) = Spec.colSum (Spec.gaussR Spec.vY (rowsY x1)) j := by
  rw [val_main_v56_apply, val_main_cst_15_apply]
  simp only [y_col_entry, gauss_y, Ideal.ofBits_def, Ideal.ofBits_zero_f32, zero_add]
  rfl

/-- The sum of all entries, row by row. -/
theorem total_y (x1 : (⟨S8192x16, .f32⟩ : BufTy).Contents (Elt Ideal)) (i0 : S_.Idx) :
    val_main_v60 (F := Ideal) x1 i0 = ∑ i : Fin 8192, ∑ j : Fin 8192, Spec.gaussR Spec.vY (rowsY x1) i j := by
  rw [val_main_v60_apply, val_main_cst_17_apply, sum_idx2]
  simp only [gauss_y, Ideal.ofBits_def, Ideal.ofBits_zero_f32, zero_add]

/-- Entry (i, j) of the centred matrix: the entry less its row's mean, less its column's mean, plus the total mean. -/
theorem cent_y (x1 : (⟨S8192x16, .f32⟩ : BufTy).Contents (Elt Ideal)) (i j : Fin 8192) :
    val_main_v67 (F := Ideal) x1 (ix2 i j) = Spec.centR (Spec.gaussR Spec.vY (rowsY x1)) i j := by
  simp only [val_main_v67_apply, val_main_v65_apply, val_main_v63_apply, val_main_v62_apply, val_main_v55_apply,
    val_main_v53_apply, val_main_v54_apply, val_main_cst_14_apply, val_main_v64_apply, val_main_v59_apply,
    val_main_v57_apply, val_main_v58_apply, val_main_cst_16_apply, val_main_v66_apply, val_main_v61_apply,
    val_main_cst_18_apply, y_mean_col, y_mean_row, gauss_y, rowsum_y, colsum_y, total_y, Ideal.ofBits_def, Ideal.addf_def, Ideal.subf_def, Ideal.mulf_def, Ideal.maximumf_def, Ideal.hostNegf_def, Ideal.negf_def, Ideal.hostDivf_def, Ideal.hostUnary_exp_def]
  rfl

/-! ## The two terms of the result -/

/-- The sum over all (i, j) of the product of the two centred matrices' entries. -/
theorem prod_total (x0 : (⟨S8192x128, .f32⟩ : BufTy).Contents (Elt Ideal)) (x1 : (⟨S8192x16, .f32⟩ : BufTy).Contents (Elt Ideal)) (i0 : S_.Idx) :
    val_main_v69 (F := Ideal) x0 x1 i0 = ∑ i : Fin 8192, ∑ j : Fin 8192,
      Spec.centR (Spec.gaussR Spec.vX (rowsX x0)) i j * Spec.centR (Spec.gaussR Spec.vY (rowsY x1)) i j := by
  rw [val_main_v69_apply, val_main_cst_19_apply, sum_idx2]
  simp only [val_main_v68_apply, cent_x, cent_y, Ideal.mulf_def, Ideal.ofBits_def, Ideal.ofBits_zero_f32, zero_add]

/-- The sum of the absolute values of the third argument's coefficients. -/
theorem abs_total (x2 : (⟨S128, .f32⟩ : BufTy).Contents (Elt Ideal)) (i0 : S_.Idx) :
    val_main_v72 (F := Ideal) x2 i0 = ∑ k : Fin 128, Spec.absE (coef x2 k) := by
  rw [val_main_v72_apply, val_main_cst_20_apply, sum_over_vector]
  simp only [val_main_v71_apply, Ideal.hostAbsf_def, Ideal.absf_def, Ideal.ofBits_def, Ideal.ofBits_zero_f32, zero_add]
  rfl

/-! ## The result -/

/-- The reference's result is its formula of the three arguments: minus the sum of products of the centred Gaussian
    matrices, plus 0.001 times the sum of the coefficients' absolute values. -/
theorem ref_result_eq (x0 : (⟨S8192x128, .f32⟩ : BufTy).Contents (Elt Ideal)) (x1 : (⟨S8192x16, .f32⟩ : BufTy).Contents (Elt Ideal))
    (x2 : (⟨S128, .f32⟩ : BufTy).Contents (Elt Ideal)) :
    val_main_v74 (F := Ideal) x0 x1 x2 = fun _ => Cert.Spec.lossR
      (fun i (k : Fin 128) => x0 (ix2 i k)) (fun i (k : Fin 16) => x1 (ix2 i k)) (fun k : Fin 128 => x2 (ix1 k)) := by
  funext i0
  rw [val_main_v74_apply, val_main_v70_apply, val_main_v73_apply, val_main_cst_21_apply, prod_total, abs_total]
  simp only [Ideal.addf_def, Ideal.hostNegf_def, Ideal.negf_def, Ideal.mulf_def, Ideal.ofBits_def]
  rfl

end Cert.ReferenceIdeal.RefValue

end
-- ==== Proof.Algebra.lean ====
/-
  The law that joins the two formulas.

  Three facts carry it. Dividing the negated clamped distance by the word for 2σ² is multiplying the distance by
  the word for -1/(2σ²), on every extended real, because the divisor is a nonzero real. The Gaussian matrix is
  symmetric, so the sum down column j is the sum along row j. And the sum of the row sums is the double sum by
  definition. The two centred matrices then agree entry by entry and the losses agree by congruence. Only
  commutativity of + and * on the extended reals is used; nothing is distributed or cancelled.
-/
import proofs.«175792_j13073880449542_1_alg».proof.Proof.Spec

noncomputable section

namespace Cert.Spec

open Idealize.ShloMosaic

variable {n dx dy f : ℕ}

/-! ## The four words of the two scales -/

/-- The reference's divisor for x denotes the real 128. -/
theorem vX_eq : vX = ((128 : ℝ) : EReal) := by
  simp [vX, Ideal.ofBits, Ideal.ieee, -EReal.coe_mul]; norm_num

/-- The reference's divisor for y denotes the real 32. -/
theorem vY_eq : vY = ((32 : ℝ) : EReal) := by
  simp [vY, Ideal.ofBits, Ideal.ieee, -EReal.coe_mul]; norm_num

/-- The kernel's scale for x denotes the real -(1/128). -/
theorem sX_eq : sX = ((-(1 / 128) : ℝ) : EReal) := by
  simp [sX, Ideal.ofBits, Ideal.ieee, -EReal.coe_mul]; norm_num

/-- The kernel's scale for y denotes the real -(1/32). -/
theorem sY_eq : sY = ((-(1 / 32) : ℝ) : EReal) := by
  simp [sY, Ideal.ofBits, Ideal.ieee, -EReal.coe_mul]; norm_num

/-! ## Negate and divide is multiply by the negated reciprocal -/

/-- For a nonzero real v, (-a) / v = a * (-(1/v)) at every extended real a, the infinities included. -/
theorem div_neg_coe {v : ℝ} (hv : v ≠ 0) (a : EReal) :
    Ideal.div (-a) (v : EReal) = a * ((-(1 / v) : ℝ) : EReal) := by
  rw [Ideal.div_coe hv, EReal.coe_neg, EReal.neg_mul, mul_neg]

theorem div_neg_vX (a : EReal) : Ideal.div (-a) vX = a * sX := by
  rw [vX_eq, sX_eq]; exact div_neg_coe (by norm_num) a

theorem div_neg_vY (a : EReal) : Ideal.div (-a) vY = a * sY := by
  rw [vY_eq, sY_eq]; exact div_neg_coe (by norm_num) a

/-! ## The two forms of the Gaussian matrix -/

theorem gaussK_sX_eq {d : ℕ} (z : Fin n → Fin d → EReal) : gaussK sX z = gaussR vX z := by
  funext i j
  unfold gaussK gauss gaussR
  rw [div_neg_vX]

theorem gaussK_sY_eq {d : ℕ} (z : Fin n → Fin d → EReal) : gaussK sY z = gaussR vY z := by
  funext i j
  unfold gaussK gauss gaussR
  rw [div_neg_vY]

/-! ## Symmetry -/

/-- The inner product of two rows does not depend on their order. -/
theorem gram_symm {d : ℕ} (z : Fin n → Fin d → EReal) (i j : Fin n) : gram z i j = gram z j i := by
  unfold gram
  exact Finset.sum_congr rfl (fun k _ => mul_comm _ _)

/-- The Gaussian matrix is symmetric: the squared distance of rows i and j is that of rows j and i. -/
theorem gaussR_symm {d : ℕ} (v : EReal) (z : Fin n → Fin d → EReal) (i j : Fin n) :
    gaussR v z i j = gaussR v z j i := by
  unfold gaussR
  rw [add_comm (sq z i) (sq z j), gram_symm z i j]

/-- For a symmetric matrix the sum down column j is the sum along row j. -/
theorem colSum_eq_rowSum (K : Fin n → Fin n → EReal) (hK : ∀ i j, K i j = K j i) (j : Fin n) :
    colSum K j = rowSum K j := by
  unfold colSum rowSum
  exact Finset.sum_congr rfl (fun i _ => hK i j)

/-- For a symmetric matrix the two centrings agree entry by entry. -/
theorem centK_eq_centR (K : Fin n → Fin n → EReal) (hK : ∀ i j, K i j = K j i) (i j : Fin n) :
    centK K i j = centR K i j := by
  unfold centK centR
  rw [colSum_eq_rowSum K hK j]
  rfl

/-! ## The two losses -/

theorem lossK_eq_lossR (x : Fin n → Fin dx → EReal) (y : Fin n → Fin dy → EReal) (b : Fin f → EReal) :
    lossK x y b = lossR x y b := by
  unfold lossK lossR
  rw [gaussK_sX_eq x, gaussK_sY_eq y]
  have hx : ∀ i j, centK (gaussR vX x) i j = centR (gaussR vX x) i j :=
    centK_eq_centR _ (gaussR_symm vX x)
  have hy : ∀ i j, centK (gaussR vY y) i j = centR (gaussR vY y) i j :=
    centK_eq_centR _ (gaussR_symm vY y)
  simp only [hx, hy]

end Cert.Spec

end
-- ==== Proof.lean ====
/-
  The certificate's claims assembled.

  The kernel program computes, in two pipelined regions around three host stretches, the negated sum over all pairs
  (i, j) of the product of two centred Gaussian kernel matrices — of x (σ = 8) and of y (σ = 4) — plus ρ = 0.001 times
  the sum of |β|; the reference computes the same from the full matrices. Region 0 takes the matrices' row sums, a
  128-row block per grid point; region 1 accumulates the sum of products, a 64-row block per grid point, into a
  1 x 1 output it resets at the first point. At the extended reals the two results are one number: the kernel's
  scale by -1/(2σ²) is the reference's negation and division by 2σ² (an exact power of two), and the kernel's use of
  the row mean for the column mean is sound because a Gaussian kernel matrix is symmetric.

  The three frames: each program terminates from any memory, faulting nowhere, with its arguments unchanged. The two
  kernel programs' frames are the run of @main's five segments over the regions' body obligations; the reference's
  is its run with the result dropped. The idealization rewrote nothing, so `preserves` has nothing to state.
-/
import proofs.«175792_j13073880449542_1_alg».proof.Defs
import proofs.«175792_j13073880449542_1_alg».proof.Proof.Gen.Kernel
import proofs.«175792_j13073880449542_1_alg».proof.Proof.Gen.KernelIdeal
import proofs.«175792_j13073880449542_1_alg».proof.Proof.Gen.ReferenceIdeal
import proofs.«175792_j13073880449542_1_alg».proof.Proof.Gen.Pre_finite_inputs
import proofs.«175792_j13073880449542_1_alg».proof.Proof.Gen.ReferenceIdeal.Run
import proofs.«175792_j13073880449542_1_alg».proof.Proof.Gen.ReferenceIdeal.Read
import proofs.«175792_j13073880449542_1_alg».proof.Proof.K.Launch
import proofs.«175792_j13073880449542_1_alg».proof.Proof.KI.Launch
import proofs.«175792_j13073880449542_1_alg».proof.Proof.KI.ValHost
import proofs.«175792_j13073880449542_1_alg».proof.Proof.RefValue
import proofs.«175792_j13073880449542_1_alg».proof.Proof.Algebra
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel [Cert.Kernel.Facts] [Cert.Pre_finite_inputs.Facts] : Cert.frame_Kernel :=
  fun m ρ _ => Cert.Kernel.Fr.frame (F := Bits) m ρ

/-- So does its idealization. -/
theorem frame_kernelIdeal [Cert.KernelIdeal.Facts] [Cert.Pre_finite_inputs.Facts] : Cert.frame_KernelIdeal :=
  fun m ρ _ => Cert.KernelIdeal.Fr.frame (F := Ideal) m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on x, y and β both idealized programs end with the same extended real: the kernel's
    last boundary holds its formula of the arguments, the reference's run its own, and the two formulas are equal. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Fr.W5 (F := Ideal) m c Cert.KernelIdeal.main_v29,
    Cert.KernelIdeal.Fr.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, Cert.ReferenceIdeal.RefValue.ref_result_eq,
    (hagree c).1, (hagree c).2.1, (hagree c).2.2]
  exact ((Cert.KernelIdeal.Val.result_eq m c).trans (congrArg (fun v => fun _ => v) (Cert.Spec.lossK_eq_lossR _ _ _))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
